-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S16x256x256 : Shape := ⟨3, ![16, 256, 256]⟩
abbrev S16x256 : Shape := ⟨2, ![16, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S16x256 : S_.BroadcastsInDim S16x256 (![] : Fin 0 → Fin S16x256.rank)
  reducesTo_S16x256_S_d0_1 : S16x256.ReducesTo [0, 1] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg1 : IVec S200000 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg1 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  main_v20

def fn {F : FTy → Type} [FloatOps F] (main_arg0 : FVec F S200000x256 .f32) (main_arg1 : IVec S200000 32) (main_arg2 : FVec F S16x256x256 .f32) (main_arg3 : FVec F S16x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S16x256x256 .f32 := Host.absf main_arg2
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x256 .f32 := Host.absf main_arg3
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_c_4 : IVec S_ 32 := constantI S_ 32 0#32
  let main_v14 : IVec S200000 32 := broadcastInDim S200000 ![] bcast_S_S200000 main_c_4
  let main_v15 : IVec S200000 1 := cmpi .sge main_arg1 main_v14
  let main_c_5 : IVec S_ 32 := constantI S_ 32 16#32
  fn_part1 (F := F) main_arg1 main_v13 main_v15 main_c_5
-- ==== Kernel.lean ====
abbrev S200000x256 : Shape := ⟨2, ![200000, 256]⟩
abbrev S200000 : Shape := ⟨1, ![200000]⟩
abbrev S16x256x256 : Shape := ⟨3, ![16, 256, 256]⟩
abbrev S16x256 : Shape := ⟨2, ![16, 256]⟩
abbrev S_ : Shape := ⟨0, ![]⟩
abbrev S16 : Shape := ⟨1, ![16]⟩
abbrev S200000x1 : Shape := ⟨2, ![200000, 1]⟩
abbrev S1x16 : Shape := ⟨2, ![1, 16]⟩
abbrev S200000x16 : Shape := ⟨2, ![200000, 16]⟩
abbrev S200000x1x1 : Shape := ⟨3, ![200000, 1, 1]⟩
abbrev S1 : Shape := ⟨1, ![1]⟩
abbrev S1x1x1 : Shape := ⟨3, ![1, 1, 1]⟩
abbrev S15 : Shape := ⟨1, ![15]⟩
abbrev S217088 : Shape := ⟨1, ![217088]⟩
abbrev S217088x1 : Shape := ⟨2, ![217088, 1]⟩
abbrev S217088x256 : Shape := ⟨2, ![217088, 256]⟩
abbrev S212 : Shape := ⟨1, ![212]⟩
abbrev S16x1 : Shape := ⟨2, ![16, 1]⟩
abbrev S212x1 : Shape := ⟨2, ![212, 1]⟩
abbrev S1x1 : Shape := ⟨2, ![1, 1]⟩
abbrev S16x1x256 : Shape := ⟨3, ![16, 1, 256]⟩
abbrev S1024x256 : Shape := ⟨2, ![1024, 256]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S256 : Shape := ⟨1, ![256]⟩

abbrev nBuf : Space → Nat
  | .hbm => 186
  | .vmem => 8
  | .smem => 1
  | _ => 0

abbrev hbmTy0_0 (i : Nat) : BufTy := match i % 128 with
  | 0 => ⟨S200000x256, .f32⟩
  | 1 => ⟨S200000, .i32⟩
  | 2 => ⟨S16x256x256, .f32⟩
  | 3 => ⟨S16x256, .f32⟩
  | 4 => ⟨S_, .i32⟩
  | 5 => ⟨S_, .i32⟩
  | 6 => ⟨S_, .i32⟩
  | 7 => ⟨S200000, .i32⟩
  | 8 => ⟨S200000, .i32⟩
  | 9 => ⟨S_, .i32⟩
  | 10 => ⟨S200000, .i32⟩
  | 11 => ⟨S200000, .i32⟩
  | 12 => ⟨S16, .i32⟩
  | 13 => ⟨S200000x1, .i32⟩
  | 14 => ⟨S1x16, .i32⟩
  | 15 => ⟨S200000x16, .i32⟩
  | 16 => ⟨S200000x16, .i32⟩
  | 17 => ⟨S200000x16, .i1⟩
  | 18 => ⟨S200000x16, .i32⟩
  | 19 => ⟨S_, .i32⟩
  | 20 => ⟨S_, .i32⟩
  | 21 => ⟨S200000x16, .i32⟩
  | 22 => ⟨S1x16, .i32⟩
  | 23 => ⟨S16, .i32⟩
  | 24 => ⟨S200000x1, .i32⟩
  | 25 => ⟨S_, .i32⟩
  | 26 => ⟨S200000x1, .i32⟩
  | 27 => ⟨S200000x1, .i1⟩
  | 28 => ⟨S_, .i32⟩
  | 29 => ⟨S200000x1, .i32⟩
  | 30 => ⟨S200000x1, .i32⟩
  | 31 => ⟨S200000x1, .i32⟩
  | 32 => ⟨S200000x1x1, .i32⟩
  | 33 => ⟨S1, .i32⟩
  | 34 => ⟨S_, .i32⟩
  | 35 => ⟨S200000x1x1, .i32⟩
  | 36 => ⟨S200000x1x1, .i1⟩
  | 37 => ⟨S1x1x1, .i32⟩
  | 38 => ⟨S200000x1x1, .i32⟩
  | 39 => ⟨S200000x1x1, .i1⟩
  | 40 => ⟨S200000x1x1, .i1⟩
  | 41 => ⟨S_, .i1⟩
  | 42 => ⟨S200000x1, .i1⟩
  | 43 => ⟨S200000x1, .i32⟩
  | 44 => ⟨S_, .i32⟩
  | 45 => ⟨S200000x1, .i32⟩
  | 46 => ⟨S200000x1, .i32⟩
  | 47 => ⟨S200000, .i32⟩
  | 48 => ⟨S_, .i32⟩
  | 49 => ⟨S200000, .i32⟩
  | 50 => ⟨S200000, .i32⟩
  | 51 => ⟨S_, .i32⟩
  | 52 => ⟨S16, .i32⟩
  | 53 => ⟨S16, .i32⟩
  | 54 => ⟨S_, .i32⟩
  | 55 => ⟨S_, .i32⟩
  | 56 => ⟨S16, .i32⟩
  | 57 => ⟨S16, .i32⟩
  | 58 => ⟨S16, .i32⟩
  | 59 => ⟨S_, .i32⟩
  | 60 => ⟨S16, .i32⟩
  | 61 => ⟨S16, .i1⟩
  | 62 => ⟨S16, .i32⟩
  | 63 => ⟨S16, .i32⟩
  | 64 => ⟨S_, .i32⟩
  | 65 => ⟨S16, .i32⟩
  | 66 => ⟨S16, .i1⟩
  | 67 => ⟨S16, .i1⟩
  | 68 => ⟨S_, .i32⟩
  | 69 => ⟨S16, .i32⟩
  | 70 => ⟨S16, .i32⟩
  | 71 => ⟨S16, .i32⟩
  | 72 => ⟨S_, .i32⟩
  | 73 => ⟨S1, .i32⟩
  | 74 => ⟨S_, .i32⟩
  | 75 => ⟨S_, .i32⟩
  | 76 => ⟨S16, .i32⟩
  | 77 => ⟨S15, .i32⟩
  | 78 => ⟨S16, .i32⟩
  | 79 => ⟨S_, .i32⟩
  | 80 => ⟨S16, .i32⟩
  | 81 => ⟨S16, .i32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000, .i32⟩
  | 91 => ⟨S200000, .i32⟩
  | 92 => ⟨S_, .i32⟩
  | 93 => ⟨S217088, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S217088, .i32⟩
  | 104 => ⟨S_, .i32⟩
  | 105 => ⟨S217088, .i32⟩
  | 106 => ⟨S217088, .i1⟩
  | 107 => ⟨S_, .i32⟩
  | 108 => ⟨S217088, .i32⟩
  | 109 => ⟨S217088, .i32⟩
  | 110 => ⟨S217088, .i32⟩
  | 111 => ⟨S217088x1, .i32⟩
  | 112 => ⟨S217088x256, .f32⟩
  | 113 => ⟨S217088x256, .bf16⟩
  | 114 => ⟨S16, .i32⟩
  | 115 => ⟨S1, .i32⟩
  | 116 => ⟨S15, .i32⟩
  | 117 => ⟨S16, .i32⟩
  | 118 => ⟨S_, .i32⟩
  | 119 => ⟨S1, .i32⟩
  | 120 => ⟨S_, .i32⟩
  | 121 => ⟨S16, .i32⟩
  | 122 => ⟨S_, .i32⟩
  | 123 => ⟨S_, .i32⟩
  | 124 => ⟨S16, .i32⟩
  | 125 => ⟨S_, .i32⟩
  | 126 => ⟨S212, .i32⟩
  | 127 => ⟨S_, .i32⟩
  | _ => ⟨S200000x256, .f32⟩

abbrev hbmTy0_1 (i : Nat) : BufTy := match i % 128 with
  | 0 => ⟨S16, .i32⟩
  | 1 => ⟨S16, .i1⟩
  | 2 => ⟨S_, .i32⟩
  | 3 => ⟨S16, .i32⟩
  | 4 => ⟨S16, .i32⟩
  | 5 => ⟨S16, .i32⟩
  | 6 => ⟨S16x1, .i32⟩
  | 7 => ⟨S_, .i32⟩
  | 8 => ⟨S16, .i32⟩
  | 9 => ⟨S212, .i32⟩
  | 10 => ⟨S_, .i32⟩
  | 11 => ⟨S_, .i32⟩
  | 12 => ⟨S212, .i32⟩
  | 13 => ⟨S_, .i32⟩
  | 14 => ⟨S212, .i32⟩
  | 15 => ⟨S212, .i32⟩
  | 16 => ⟨S_, .i32⟩
  | 17 => ⟨S212, .i32⟩
  | 18 => ⟨S212, .i1⟩
  | 19 => ⟨S_, .i32⟩
  | 20 => ⟨S212, .i32⟩
  | 21 => ⟨S212, .i32⟩
  | 22 => ⟨S212, .i32⟩
  | 23 => ⟨S212x1, .i32⟩
  | 24 => ⟨S1, .i32⟩
  | 25 => ⟨S_, .i32⟩
  | 26 => ⟨S212x1, .i32⟩
  | 27 => ⟨S212x1, .i1⟩
  | 28 => ⟨S1x1, .i32⟩
  | 29 => ⟨S212x1, .i32⟩
  | 30 => ⟨S212x1, .i1⟩
  | 31 => ⟨S212x1, .i1⟩
  | 32 => ⟨S_, .i1⟩
  | 33 => ⟨S212, .i1⟩
  | 34 => ⟨S212, .i32⟩
  | 35 => ⟨S_, .i32⟩
  | 36 => ⟨S212, .i32⟩
  | 37 => ⟨S212, .i32⟩
  | 38 => ⟨S_, .i32⟩
  | 39 => ⟨S_, .i32⟩
  | 40 => ⟨S_, .i32⟩
  | 41 => ⟨S212, .i32⟩
  | 42 => ⟨S212, .i32⟩
  | 43 => ⟨S_, .i32⟩
  | 44 => ⟨S212, .i32⟩
  | 45 => ⟨S16x256x256, .f32⟩
  | 46 => ⟨S16x256x256, .bf16⟩
  | 47 => ⟨S16x1x256, .f32⟩
  | 48 => ⟨S217088x256, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x1x256, .f32⟩
  | .local _ .vmem, ⟨5, _⟩ => ⟨S1x1x256, .f32⟩
  | .local _ .vmem, ⟨6, _⟩ => ⟨S1024x256, .f32⟩
  | .local _ .vmem, ⟨7, _⟩ => ⟨S1024x256, .f32⟩
  | .local _ .smem, ⟨0, _⟩ => ⟨S212, .i32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_call0_c : Ref sig .tc := ⟨.hbm, 19, rfl⟩
abbrev main_call1_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_c_4 : Ref sig .tc := ⟨.hbm, 44, rfl⟩
abbrev main_call2_v14 : Ref sig .tc := ⟨.hbm, 45, rfl⟩
abbrev main_v12 : Ref sig .tc := ⟨.hbm, 46, rfl⟩
abbrev main_v13 : Ref sig .tc := ⟨.hbm, 47, rfl⟩
abbrev main_c_1 : Ref sig .tc := ⟨.hbm, 48, rfl⟩
abbrev main_v14 : Ref sig .tc := ⟨.hbm, 49, rfl⟩
abbrev main_v15 : Ref sig .tc := ⟨.hbm, 50, rfl⟩
abbrev main_c_2 : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_c : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_0 : Ref sig .tc := ⟨.hbm, 68, rfl⟩
abbrev main_call3_v12 : Ref sig .tc := ⟨.hbm, 69, rfl⟩
abbrev main_call3_v13 : Ref sig .tc := ⟨.hbm, 70, rfl⟩
abbrev main_v18 : Ref sig .tc := ⟨.hbm, 71, rfl⟩
abbrev main_c_4 : Ref sig .tc := ⟨.hbm, 72, rfl⟩
abbrev main_v19 : Ref sig .tc := ⟨.hbm, 73, rfl⟩
abbrev main_call4_call0_c : Ref sig .tc := ⟨.hbm, 74, rfl⟩
abbrev main_call4_call0_v0 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_c_5 : Ref sig .tc := ⟨.hbm, 79, rfl⟩
abbrev main_v23 : Ref sig .tc := ⟨.hbm, 80, rfl⟩
abbrev main_v24 : Ref sig .tc := ⟨.hbm, 81, rfl⟩
abbrev main_c_6 : Ref sig .tc := ⟨.hbm, 82, rfl⟩
abbrev main_v25 : Ref sig .tc := ⟨.hbm, 83, rfl⟩
abbrev main_v26 : Ref sig .tc := ⟨.hbm, 84, rfl⟩
abbrev main_c_7 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_c_8 : Ref sig .tc := ⟨.hbm, 92, rfl⟩
abbrev main_v33 : Ref sig .tc := ⟨.hbm, 93, rfl⟩
abbrev main_v34 : Ref sig .tc := ⟨.hbm, 94, rfl⟩
abbrev main_c_9 : Ref sig .tc := ⟨.hbm, 95, rfl⟩
abbrev main_v35 : Ref sig .tc := ⟨.hbm, 96, rfl⟩
abbrev main_v36 : Ref sig .tc := ⟨.hbm, 97, rfl⟩
abbrev main_c_10 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_c_11 : Ref sig .tc := ⟨.hbm, 104, rfl⟩
abbrev main_v42 : Ref sig .tc := ⟨.hbm, 105, rfl⟩
abbrev main_v43 : Ref sig .tc := ⟨.hbm, 106, rfl⟩
abbrev main_c_12 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_call5_v0 : Ref sig .tc := ⟨.hbm, 115, rfl⟩
abbrev main_call5_v1 : Ref sig .tc := ⟨.hbm, 116, rfl⟩
abbrev main_v51 : Ref sig .tc := ⟨.hbm, 117, rfl⟩
abbrev main_c_13 : Ref sig .tc := ⟨.hbm, 118, rfl⟩
abbrev main_v52 : Ref sig .tc := ⟨.hbm, 119, rfl⟩
abbrev main_c_14 : Ref sig .tc := ⟨.hbm, 120, rfl⟩
abbrev main_v53 : Ref sig .tc := ⟨.hbm, 121, rfl⟩
abbrev main_call6_call0_c : Ref sig .tc := ⟨.hbm, 122, rfl⟩
abbrev main_call6_call0_v0 : Ref sig .tc := ⟨.hbm, 123, rfl⟩
abbrev main_v54 : Ref sig .tc := ⟨.hbm, 124, rfl⟩
abbrev main_c_15 : Ref sig .tc := ⟨.hbm, 125, rfl⟩
abbrev main_v55 : Ref sig .tc := ⟨.hbm, 126, rfl⟩
abbrev main_c_16 : Ref sig .tc := ⟨.hbm, 127, rfl⟩
abbrev main_v56 : Ref sig .tc := ⟨.hbm, 128, rfl⟩
abbrev main_v57 : Ref sig .tc := ⟨.hbm, 129, rfl⟩
abbrev main_c_17 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_c_18 : Ref sig .tc := ⟨.hbm, 135, rfl⟩
abbrev main_v62 : Ref sig .tc := ⟨.hbm, 136, rfl⟩
abbrev main_v63 : Ref sig .tc := ⟨.hbm, 137, rfl⟩
abbrev main_call7_call0_c : Ref sig .tc := ⟨.hbm, 138, rfl⟩
abbrev main_call7_call0_v0 : Ref sig .tc := ⟨.hbm, 139, rfl⟩
abbrev main_v64 : Ref sig .tc := ⟨.hbm, 140, rfl⟩
abbrev main_c_19 : Ref sig .tc := ⟨.hbm, 141, rfl⟩
abbrev main_v65 : Ref sig .tc := ⟨.hbm, 142, rfl⟩
abbrev main_v66 : Ref sig .tc := ⟨.hbm, 143, rfl⟩
abbrev main_call8_c : Ref sig .tc := ⟨.hbm, 144, rfl⟩
abbrev main_call8_v0 : Ref sig .tc := ⟨.hbm, 145, rfl⟩
abbrev main_call8_v1 : Ref sig .tc := ⟨.hbm, 146, rfl⟩
abbrev main_call8_c_0 : Ref sig .tc := ⟨.hbm, 147, rfl⟩
abbrev main_call8_v2 : Ref sig .tc := ⟨.hbm, 148, rfl⟩
abbrev main_call8_v3 : Ref sig .tc := ⟨.hbm, 149, rfl⟩
abbrev main_call8_v4 : Ref sig .tc := ⟨.hbm, 150, rfl⟩
abbrev main_call8_v5 : Ref sig .tc := ⟨.hbm, 151, rfl⟩
abbrev main_call8_c_1 : Ref sig .tc := ⟨.hbm, 152, rfl⟩
abbrev main_call8_c_2 : Ref sig .tc := ⟨.hbm, 153, rfl⟩
abbrev main_call8_v6 : Ref sig .tc := ⟨.hbm, 154, rfl⟩
abbrev main_call8_v7 : Ref sig .tc := ⟨.hbm, 155, rfl⟩
abbrev main_call8_v8 : Ref sig .tc := ⟨.hbm, 156, rfl⟩
abbrev main_call8_v9 : Ref sig .tc := ⟨.hbm, 157, rfl⟩
abbrev main_call8_v10 : Ref sig .tc := ⟨.hbm, 158, rfl⟩
abbrev main_call8_v11 : Ref sig .tc := ⟨.hbm, 159, rfl⟩
abbrev main_call8_c_3 : Ref sig .tc := ⟨.hbm, 160, rfl⟩
abbrev main_call8_v12 : Ref sig .tc := ⟨.hbm, 161, rfl⟩
abbrev main_call8_v13 : Ref sig .tc := ⟨.hbm, 162, rfl⟩
abbrev main_call8_c_4 : Ref sig .tc := ⟨.hbm, 163, rfl⟩
abbrev main_call8_v14 : Ref sig .tc := ⟨.hbm, 164, rfl⟩
abbrev main_v67 : Ref sig .tc := ⟨.hbm, 165, rfl⟩
abbrev main_c_20 : Ref sig .tc := ⟨.hbm, 166, rfl⟩
abbrev main_c_21 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_c_22 : Ref sig .tc := ⟨.hbm, 177, rfl⟩
abbrev main_v73 : Ref sig .tc := ⟨.hbm, 178, rfl⟩
abbrev main_v74 : Ref sig .tc := ⟨.hbm, 179, rfl⟩
abbrev main_c_23 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v68 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![212], ![false]⟩

abbrev pre0 : Pipeline.Prefetch sig := ⟨1, ![main_v68.idx], fun | 0 => main_v68.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S212.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S212) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S212.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S212) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S16_S1x16_1 : S16.BroadcastsInDim S1x16 (![1] : Fin 1 → Fin S1x16.rank)
  bcast_S200000x1_S200000x16_0_1 : S200000x1.BroadcastsInDim S200000x16 (![0, 1] : Fin 2 → Fin S200000x16.rank)
  bcast_S1x16_S200000x16_0_1 : S1x16.BroadcastsInDim S200000x16 (![0, 1] : Fin 2 → Fin S200000x16.rank)
  natLt_1_32 : 1 < 32
  bcast_S_S_ : S_.BroadcastsInDim S_ (![] : Fin 0 → Fin S_.rank)
  reduceWindows_S200000x16_S200000x16_w200000s1p199999_0_w1s1p0_0 : S200000x16.ReduceWindows (![200000, 1] : Fin 2 → Nat) ![1, 1] ![199999, 0] ![0, 0] S200000x16
  h_S_ : 0 < S_.numel
  slices_S200000x16_S1x16_199999_0 : S200000x16.Slices ![199999, 0] S1x16
  shapeCasts_S1x16_S16 : S1x16.ShapeCasts S16
  bcast_S_S200000x1 : S_.BroadcastsInDim S200000x1 (![] : Fin 0 → Fin S200000x1.rank)
  shapeCasts_S200000x1_S200000x1x1 : S200000x1.ShapeCasts S200000x1x1
  bcast_S_S200000x1x1 : S_.BroadcastsInDim S200000x1x1 (![] : Fin 0 → Fin S200000x1x1.rank)
  bcast_S1_S1x1x1_2 : S1.BroadcastsInDim S1x1x1 (![2] : Fin 1 → Fin S1x1x1.rank)
  bcast_S1x1x1_S200000x1x1_0_1_2 : S1x1x1.BroadcastsInDim S200000x1x1 (![0, 1, 2] : Fin 3 → Fin S200000x1x1.rank)
  reducesTo_S200000x1x1_S200000x1_d2 : S200000x1x1.ReducesTo [2] S200000x1
  shapeCasts_S200000x1_S200000 : S200000x1.ShapeCasts S200000
  bcast_S_S16 : S_.BroadcastsInDim S16 (![] : Fin 0 → Fin S16.rank)
  bcast_S_S1 : S_.BroadcastsInDim S1 (![] : Fin 0 → Fin S1.rank)
  reduceWindows_S16_S16_w16s1p15_0 : S16.ReduceWindows (![16] : Fin 1 → Nat) ![1] ![15] ![0] S16
  slices_S16_S15_0 : S16.Slices ![0] S15
  concatenates_S1_S15_S16_d0 : Shape.Concatenates [S1, S15] S16 0
  bcast_S_S217088 : S_.BroadcastsInDim S217088 (![] : Fin 0 → Fin S217088.rank)
  bcast_S217088_S217088x1_0 : S217088.BroadcastsInDim S217088x1 (![0] : Fin 1 → Fin S217088x1.rank)
  bitsLt_bf16_f32 : FTy.bits .bf16 < FTy.bits .f32
  slices_S16_S1_15 : S16.Slices ![15] S1
  bcast_S_S212 : S_.BroadcastsInDim S212 (![] : Fin 0 → Fin S212.rank)
  bcast_S16_S16x1_0 : S16.BroadcastsInDim S16x1 (![0] : Fin 1 → Fin S16x1.rank)
  reduceWindows_S212_S212_w212s1p211_0 : S212.ReduceWindows (![212] : Fin 1 → Nat) ![1] ![211] ![0] S212
  bcast_S212_S212x1_0 : S212.BroadcastsInDim S212x1 (![0] : Fin 1 → Fin S212x1.rank)
  bcast_S_S212x1 : S_.BroadcastsInDim S212x1 (![] : Fin 0 → Fin S212x1.rank)
  bcast_S1_S1x1_1 : S1.BroadcastsInDim S1x1 (![1] : Fin 1 → Fin S1x1.rank)
  bcast_S1x1_S212x1_0_1 : S1x1.BroadcastsInDim S212x1 (![0, 1] : Fin 2 → Fin S212x1.rank)
  reducesTo_S212x1_S212_d1 : S212x1.ReducesTo [1] S212
  transposes_S16x256x256_S16x256x256_0_2_1 : S16x256x256.Transposes [0, 2, 1] S16x256x256
  shapeCasts_S16x256_S16x1x256 : S16x256.ShapeCasts S16x1x256
  numel1_S1 : S1.numel = 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S256 : S1x256.ShapeCasts S256
  shapeCasts_S256_S1x256 : S256.ShapeCasts S1x256
  broadcasts_S1x256_S1024x256 : S1x256.Broadcasts S1024x256
  gather_S200000x16_S200000x1x1_S200000x1_n_1_0_0_1_2_11_wf : GatherDims.WF S200000x16 S200000x1x1 S200000x1 [] [1] [0] [1] [0] 2 ![1, 1]
  gather_S16_S200000x1_S200000_n_0_n_n_0_1_1_wf : GatherDims.WF S16 S200000x1 S200000 [] [0] [] [0] [] 1 ![1]
  scatter_S217088_S200000x1_S200000_n_0_0_1_wf : ScatterDims.WF S217088 S200000x1 S200000 [] [0] [0] 1
  gather_S200000x256_S217088x1_S217088x256_1_0_n_n_0_1_1256_wf : GatherDims.WF S200000x256 S217088x1 S217088x256 [1] [0] [] [0] [] 1 ![1, 256]
  scatter_S16_S1_S__n_0_0_0_wf : ScatterDims.WF S16 S1 S_ [] [0] [0] 0
  scatter_S212_S16x1_S16_n_0_0_1_wf : ScatterDims.WF S212 S16x1 S16 [] [0] [0] 1
  gather_S16_S212x1_S212_n_0_n_n_0_1_1_wf : GatherDims.WF S16 S212x1 S212 [] [0] [] [0] [] 1 ![1]
  dot_S1024x256_S256x256_S1024x256_1_0_0_1_n_n_wf : DotDims.WF S1024x256 S256x256 S1024x256 [1] [0] [0] [1] [] []
  gather_S217088x256_S200000x1_S200000x256_1_0_n_n_0_1_1256_wf : GatherDims.WF S217088x256 S200000x1 S200000x256 [1] [0] [] [0] [] 1 ![1, 256]
  hrank0 : 0 < grid0.rank
  k0_off1_inb : ∀ i : grid0.Coords, ∀ a, (k0_off1 i) a + S1.size a ≤ S212.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S217088x256.size a
  hwx0_0 : ∀ i : grid0.Coords, EltTy.bits .bf16 = 32 ∨ (Rect.block (s := S217088x256) S1024x256.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S217088x256.size a
  hwx0_3 : ∀ i : grid0.Coords, EltTy.bits .f32 = 32 ∨ (Rect.block (s := S217088x256) S1024x256.size (cc0_transform_3 i) (hinb0_3 i)).WholeWords (EltTy.packing .f32)

variable [Facts₀]

def gather_S200000x16_S200000x1x1_S200000x1_n_1_0_0_1_2_11 : GatherDims S200000x16 S200000x1x1 S200000x1 where
  offsetDims := []
  collapsedSliceDims := [1]
  operandBatchingDims := [0]
  startIndicesBatchingDims := [0]
  startIndexMap := [1]
  indexVectorDim := 2
  sliceSizes := ![1, 1]
  wf := gather_S200000x16_S200000x1x1_S200000x1_n_1_0_0_1_2_11_wf
def gather_S16_S200000x1_S200000_n_0_n_n_0_1_1 : GatherDims S16 S200000x1 S200000 where
  offsetDims := []
  collapsedSliceDims := [0]
  operandBatchingDims := []
  startIndicesBatchingDims := []
  startIndexMap := [0]
  indexVectorDim := 1
  sliceSizes := ![1]
  wf := gather_S16_S200000x1_S200000_n_0_n_n_0_1_1_wf
def scatter_S217088_S200000x1_S200000_n_0_0_1 : ScatterDims S217088 S200000x1 S200000 where
  updateWindowDims := []
  insertedWindowDims := [0]
  scatterDimsToOperandDims := [0]
  indexVectorDim := 1
  wf := scatter_S217088_S200000x1_S200000_n_0_0_1_wf
def gather_S200000x256_S217088x1_S217088x256_1_0_n_n_0_1_1256 : GatherDims S200000x256 S217088x1 S217088x256 where
  offsetDims := [1]
  collapsedSliceDims := [0]
  operandBatchingDims := []
  startIndicesBatchingDims := []
  startIndexMap := [0]
  indexVectorDim := 1
  sliceSizes := ![1, 256]
  wf := gather_S200000x256_S217088x1_S217088x256_1_0_n_n_0_1_1256_wf
def scatter_S16_S1_S__n_0_0_0 : ScatterDims S16 S1 S_ where
  updateWindowDims := []
  insertedWindowDims := [0]
  scatterDimsToOperandDims := [0]
  indexVectorDim := 0
  wf := scatter_S16_S1_S__n_0_0_0_wf
def scatter_S212_S16x1_S16_n_0_0_1 : ScatterDims S212 S16x1 S16 where
  updateWindowDims := []
  insertedWindowDims := [0]
  scatterDimsToOperandDims := [0]
  indexVectorDim := 1
  wf := scatter_S212_S16x1_S16_n_0_0_1_wf
def gather_S16_S212x1_S212_n_0_n_n_0_1_1 : GatherDims S16 S212x1 S212 where
  offsetDims := []
  collapsedSliceDims := [0]
  operandBatchingDims := []
  startIndicesBatchingDims := []
  startIndexMap := [0]
  indexVectorDim := 1
  sliceSizes := ![1]
  wf := gather_S16_S212x1_S212_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S217088x256_S200000x1_S200000x256_1_0_n_n_0_1_1256 : GatherDims S217088x256 S200000x1 S200000x256 where
  offsetDims := [1]
  collapsedSliceDims := [0]
  operandBatchingDims := []
  startIndicesBatchingDims := []
  startIndexMap := [0]
  indexVectorDim := 1
  sliceSizes := ![1, 256]
  wf := gather_S217088x256_S200000x1_S200000x256_1_0_n_n_0_1_1256_wf

abbrev spec0_0 : Pipeline.WinSpec sig grid0.rank :=
  Pipeline.WinSpec.ofSpec (Memref.whole main_v49) S1024x256.size reads0_0 false false 2 stage0_0 sem0_0 nbuf0_0 hstage0_0

abbrev spec0_1 : Pipeline.WinSpec sig grid0.rank :=
  Pipeline.WinSpec.ofSpec (Memref.whole main_v70) S1x256x256.size reads0_1 false false 2 stage0_1 sem0_1 nbuf0_1 hstage0_1

abbrev spec0_2 : Pipeline.WinSpec sig grid0.rank :=
  Pipeline.WinSpec.ofSpec (Memref.whole main_v71) S1x1x256.size reads0_2 false false 2 stage0_2 sem0_2 nbuf0_2 hstage0_2

abbrev spec0_3 : Pipeline.WinSpec sig grid0.rank :=
  Pipeline.WinSpec.ofSpec (Memref.whole main_v72) S1024x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S16x256x256.size a), EltTy.bits .bf16 = 32 ∨ (Rect.block (s := S16x256x256) S1x256x256.size (cc0_transform_1 k0_off1_inb numel1_S1 pf i) h).WholeWords (EltTy.packing .bf16)) ∧
  (∀ i : grid0.Coords, ∃ h : (∀ a, (cc0_transform_2 k0_off1_inb numel1_S1 pf i a + 1) * S1x1x256.size a ≤ S16x1x256.size a), EltTy.bits .f32 = 32 ∨ (Rect.block (s := S16x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S200000x256 : Shape := ⟨2, ![200000, 256]⟩
abbrev S200000 : Shape := ⟨1, ![200000]⟩
abbrev S16x256x256 : Shape := ⟨3, ![16, 256, 256]⟩
abbrev S16x256 : Shape := ⟨2, ![16, 256]⟩
abbrev S_ : Shape := ⟨0, ![]⟩
abbrev S200000x1 : Shape := ⟨2, ![200000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 230
  | .vmem => 0
  | .smem => 0
  | _ => 0

abbrev hbmTy0_0 (i : Nat) : BufTy := match i % 128 with
  | 0 => ⟨S200000x256, .f32⟩
  | 1 => ⟨S200000, .i32⟩
  | 2 => ⟨S16x256x256, .f32⟩
  | 3 => ⟨S16x256, .f32⟩
  | 4 => ⟨S_, .f32⟩
  | 5 => ⟨S200000x256, .f32⟩
  | 6 => ⟨S_, .i32⟩
  | 7 => ⟨S200000, .i32⟩
  | 8 => ⟨S200000, .i1⟩
  | 9 => ⟨S200000x1, .i1⟩
  | 10 => ⟨S1x256x256, .f32⟩
  | 11 => ⟨S256x256, .f32⟩
  | 12 => ⟨S200000x256, .f32⟩
  | 13 => ⟨S1x256, .f32⟩
  | 14 => ⟨S256, .f32⟩
  | 15 => ⟨S1x256, .f32⟩
  | 16 => ⟨S200000x256, .f32⟩
  | 17 => ⟨S200000x256, .f32⟩
  | 18 => ⟨S200000x256, .i1⟩
  | 19 => ⟨S200000x256, .f32⟩
  | 20 => ⟨S_, .i32⟩
  | 21 => ⟨S200000, .i32⟩
  | 22 => ⟨S200000, .i1⟩
  | 23 => ⟨S200000x1, .i1⟩
  | 24 => ⟨S1x256x256, .f32⟩
  | 25 => ⟨S256x256, .f32⟩
  | 26 => ⟨S200000x256, .f32⟩
  | 27 => ⟨S1x256, .f32⟩
  | 28 => ⟨S256, .f32⟩
  | 29 => ⟨S1x256, .f32⟩
  | 30 => ⟨S200000x256, .f32⟩
  | 31 => ⟨S200000x256, .f32⟩
  | 32 => ⟨S200000x256, .i1⟩
  | 33 => ⟨S200000x256, .f32⟩
  | 34 => ⟨S_, .i32⟩
  | 35 => ⟨S200000, .i32⟩
  | 36 => ⟨S200000, .i1⟩
  | 37 => ⟨S200000x1, .i1⟩
  | 38 => ⟨S1x256x256, .f32⟩
  | 39 => ⟨S256x256, .f32⟩
  | 40 => ⟨S200000x256, .f32⟩
  | 41 => ⟨S1x256, .f32⟩
  | 42 => ⟨S256, .f32⟩
  | 43 => ⟨S1x256, .f32⟩
  | 44 => ⟨S200000x256, .f32⟩
  | 45 => ⟨S200000x256, .f32⟩
  | 46 => ⟨S200000x256, .i1⟩
  | 47 => ⟨S200000x256, .f32⟩
  | 48 => ⟨S_, .i32⟩
  | 49 => ⟨S200000, .i32⟩
  | 50 => ⟨S200000, .i1⟩
  | 51 => ⟨S200000x1, .i1⟩
  | 52 => ⟨S1x256x256, .f32⟩
  | 53 => ⟨S256x256, .f32⟩
  | 54 => ⟨S200000x256, .f32⟩
  | 55 => ⟨S1x256, .f32⟩
  | 56 => ⟨S256, .f32⟩
  | 57 => ⟨S1x256, .f32⟩
  | 58 => ⟨S200000x256, .f32⟩
  | 59 => ⟨S200000x256, .f32⟩
  | 60 => ⟨S200000x256, .i1⟩
  | 61 => ⟨S200000x256, .f32⟩
  | 62 => ⟨S_, .i32⟩
  | 63 => ⟨S200000, .i32⟩
  | 64 => ⟨S200000, .i1⟩
  | 65 => ⟨S200000x1, .i1⟩
  | 66 => ⟨S1x256x256, .f32⟩
  | 67 => ⟨S256x256, .f32⟩
  | 68 => ⟨S200000x256, .f32⟩
  | 69 => ⟨S1x256, .f32⟩
  | 70 => ⟨S256, .f32⟩
  | 71 => ⟨S1x256, .f32⟩
  | 72 => ⟨S200000x256, .f32⟩
  | 73 => ⟨S200000x256, .f32⟩
  | 74 => ⟨S200000x256, .i1⟩
  | 75 => ⟨S200000x256, .f32⟩
  | 76 => ⟨S_, .i32⟩
  | 77 => ⟨S200000, .i32⟩
  | 78 => ⟨S200000, .i1⟩
  | 79 => ⟨S200000x1, .i1⟩
  | 80 => ⟨S1x256x256, .f32⟩
  | 81 => ⟨S256x256, .f32⟩
  | 82 => ⟨S200000x256, .f32⟩
  | 83 => ⟨S1x256, .f32⟩
  | 84 => ⟨S256, .f32⟩
  | 85 => ⟨S1x256, .f32⟩
  | 86 => ⟨S200000x256, .f32⟩
  | 87 => ⟨S200000x256, .f32⟩
  | 88 => ⟨S200000x256, .i1⟩
  | 89 => ⟨S200000x256, .f32⟩
  | 90 => ⟨S_, .i32⟩
  | 91 => ⟨S200000, .i32⟩
  | 92 => ⟨S200000, .i1⟩
  | 93 => ⟨S200000x1, .i1⟩
  | 94 => ⟨S1x256x256, .f32⟩
  | 95 => ⟨S256x256, .f32⟩
  | 96 => ⟨S200000x256, .f32⟩
  | 97 => ⟨S1x256, .f32⟩
  | 98 => ⟨S256, .f32⟩
  | 99 => ⟨S1x256, .f32⟩
  | 100 => ⟨S200000x256, .f32⟩
  | 101 => ⟨S200000x256, .f32⟩
  | 102 => ⟨S200000x256, .i1⟩
  | 103 => ⟨S200000x256, .f32⟩
  | 104 => ⟨S_, .i32⟩
  | 105 => ⟨S200000, .i32⟩
  | 106 => ⟨S200000, .i1⟩
  | 107 => ⟨S200000x1, .i1⟩
  | 108 => ⟨S1x256x256, .f32⟩
  | 109 => ⟨S256x256, .f32⟩
  | 110 => ⟨S200000x256, .f32⟩
  | 111 => ⟨S1x256, .f32⟩
  | 112 => ⟨S256, .f32⟩
  | 113 => ⟨S1x256, .f32⟩
  | 114 => ⟨S200000x256, .f32⟩
  | 115 => ⟨S200000x256, .f32⟩
  | 116 => ⟨S200000x256, .i1⟩
  | 117 => ⟨S200000x256, .f32⟩
  | 118 => ⟨S_, .i32⟩
  | 119 => ⟨S200000, .i32⟩
  | 120 => ⟨S200000, .i1⟩
  | 121 => ⟨S200000x1, .i1⟩
  | 122 => ⟨S1x256x256, .f32⟩
  | 123 => ⟨S256x256, .f32⟩
  | 124 => ⟨S200000x256, .f32⟩
  | 125 => ⟨S1x256, .f32⟩
  | 126 => ⟨S256, .f32⟩
  | 127 => ⟨S1x256, .f32⟩
  | _ => ⟨S200000x256, .f32⟩

abbrev hbmTy0_1 (i : Nat) : BufTy := match i % 128 with
  | 0 => ⟨S200000x256, .f32⟩
  | 1 => ⟨S200000x256, .f32⟩
  | 2 => ⟨S200000x256, .i1⟩
  | 3 => ⟨S200000x256, .f32⟩
  | 4 => ⟨S_, .i32⟩
  | 5 => ⟨S200000, .i32⟩
  | 6 => ⟨S200000, .i1⟩
  | 7 => ⟨S200000x1, .i1⟩
  | 8 => ⟨S1x256x256, .f32⟩
  | 9 => ⟨S256x256, .f32⟩
  | 10 => ⟨S200000x256, .f32⟩
  | 11 => ⟨S1x256, .f32⟩
  | 12 => ⟨S256, .f32⟩
  | 13 => ⟨S1x256, .f32⟩
  | 14 => ⟨S200000x256, .f32⟩
  | 15 => ⟨S200000x256, .f32⟩
  | 16 => ⟨S200000x256, .i1⟩
  | 17 => ⟨S200000x256, .f32⟩
  | 18 => ⟨S_, .i32⟩
  | 19 => ⟨S200000, .i32⟩
  | 20 => ⟨S200000, .i1⟩
  | 21 => ⟨S200000x1, .i1⟩
  | 22 => ⟨S1x256x256, .f32⟩
  | 23 => ⟨S256x256, .f32⟩
  | 24 => ⟨S200000x256, .f32⟩
  | 25 => ⟨S1x256, .f32⟩
  | 26 => ⟨S256, .f32⟩
  | 27 => ⟨S1x256, .f32⟩
  | 28 => ⟨S200000x256, .f32⟩
  | 29 => ⟨S200000x256, .f32⟩
  | 30 => ⟨S200000x256, .i1⟩
  | 31 => ⟨S200000x256, .f32⟩
  | 32 => ⟨S_, .i32⟩
  | 33 => ⟨S200000, .i32⟩
  | 34 => ⟨S200000, .i1⟩
  | 35 => ⟨S200000x1, .i1⟩
  | 36 => ⟨S1x256x256, .f32⟩
  | 37 => ⟨S256x256, .f32⟩
  | 38 => ⟨S200000x256, .f32⟩
  | 39 => ⟨S1x256, .f32⟩
  | 40 => ⟨S256, .f32⟩
  | 41 => ⟨S1x256, .f32⟩
  | 42 => ⟨S200000x256, .f32⟩
  | 43 => ⟨S200000x256, .f32⟩
  | 44 => ⟨S200000x256, .i1⟩
  | 45 => ⟨S200000x256, .f32⟩
  | 46 => ⟨S_, .i32⟩
  | 47 => ⟨S200000, .i32⟩
  | 48 => ⟨S200000, .i1⟩
  | 49 => ⟨S200000x1, .i1⟩
  | 50 => ⟨S1x256x256, .f32⟩
  | 51 => ⟨S256x256, .f32⟩
  | 52 => ⟨S200000x256, .f32⟩
  | 53 => ⟨S1x256, .f32⟩
  | 54 => ⟨S256, .f32⟩
  | 55 => ⟨S1x256, .f32⟩
  | 56 => ⟨S200000x256, .f32⟩
  | 57 => ⟨S200000x256, .f32⟩
  | 58 => ⟨S200000x256, .i1⟩
  | 59 => ⟨S200000x256, .f32⟩
  | 60 => ⟨S_, .i32⟩
  | 61 => ⟨S200000, .i32⟩
  | 62 => ⟨S200000, .i1⟩
  | 63 => ⟨S200000x1, .i1⟩
  | 64 => ⟨S1x256x256, .f32⟩
  | 65 => ⟨S256x256, .f32⟩
  | 66 => ⟨S200000x256, .f32⟩
  | 67 => ⟨S1x256, .f32⟩
  | 68 => ⟨S256, .f32⟩
  | 69 => ⟨S1x256, .f32⟩
  | 70 => ⟨S200000x256, .f32⟩
  | 71 => ⟨S200000x256, .f32⟩
  | 72 => ⟨S200000x256, .i1⟩
  | 73 => ⟨S200000x256, .f32⟩
  | 74 => ⟨S_, .i32⟩
  | 75 => ⟨S200000, .i32⟩
  | 76 => ⟨S200000, .i1⟩
  | 77 => ⟨S200000x1, .i1⟩
  | 78 => ⟨S1x256x256, .f32⟩
  | 79 => ⟨S256x256, .f32⟩
  | 80 => ⟨S200000x256, .f32⟩
  | 81 => ⟨S1x256, .f32⟩
  | 82 => ⟨S256, .f32⟩
  | 83 => ⟨S1x256, .f32⟩
  | 84 => ⟨S200000x256, .f32⟩
  | 85 => ⟨S200000x256, .f32⟩
  | 86 => ⟨S200000x256, .i1⟩
  | 87 => ⟨S200000x256, .f32⟩
  | 88 => ⟨S_, .i32⟩
  | 89 => ⟨S200000, .i32⟩
  | 90 => ⟨S200000, .i1⟩
  | 91 => ⟨S200000x1, .i1⟩
  | 92 => ⟨S1x256x256, .f32⟩
  | 93 => ⟨S256x256, .f32⟩
  | 94 => ⟨S200000x256, .f32⟩
  | 95 => ⟨S1x256, .f32⟩
  | 96 => ⟨S256, .f32⟩
  | 97 => ⟨S1x256, .f32⟩
  | 98 => ⟨S200000x256, .f32⟩
  | 99 => ⟨S200000x256, .f32⟩
  | 100 => ⟨S200000x256, .i1⟩
  | 101 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call2_v0 : Ref sig .tc := ⟨.hbm, 46, rfl⟩
abbrev main_v36 : Ref sig .tc := ⟨.hbm, 47, rfl⟩
abbrev main_c_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_v0 : Ref sig .tc := ⟨.hbm, 60, rfl⟩
abbrev main_v48 : Ref sig .tc := ⟨.hbm, 61, rfl⟩
abbrev main_c_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call4_v0 : Ref sig .tc := ⟨.hbm, 74, rfl⟩
abbrev main_v60 : Ref sig .tc := ⟨.hbm, 75, rfl⟩
abbrev main_c_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call5_v0 : Ref sig .tc := ⟨.hbm, 88, rfl⟩
abbrev main_v72 : Ref sig .tc := ⟨.hbm, 89, rfl⟩
abbrev main_c_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call6_v0 : Ref sig .tc := ⟨.hbm, 102, rfl⟩
abbrev main_v84 : Ref sig .tc := ⟨.hbm, 103, rfl⟩
abbrev main_c_6 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_call7_v0 : Ref sig .tc := ⟨.hbm, 116, rfl⟩
abbrev main_v96 : Ref sig .tc := ⟨.hbm, 117, rfl⟩
abbrev main_c_7 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_call8_v0 : Ref sig .tc := ⟨.hbm, 130, rfl⟩
abbrev main_v108 : Ref sig .tc := ⟨.hbm, 131, rfl⟩
abbrev main_c_8 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_call9_v0 : Ref sig .tc := ⟨.hbm, 144, rfl⟩
abbrev main_v120 : Ref sig .tc := ⟨.hbm, 145, rfl⟩
abbrev main_c_9 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_call10_v0 : Ref sig .tc := ⟨.hbm, 158, rfl⟩
abbrev main_v132 : Ref sig .tc := ⟨.hbm, 159, rfl⟩
abbrev main_c_10 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_call11_v0 : Ref sig .tc := ⟨.hbm, 172, rfl⟩
abbrev main_v144 : Ref sig .tc := ⟨.hbm, 173, rfl⟩
abbrev main_c_11 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_call12_v0 : Ref sig .tc := ⟨.hbm, 186, rfl⟩
abbrev main_v156 : Ref sig .tc := ⟨.hbm, 187, rfl⟩
abbrev main_c_12 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_call13_v0 : Ref sig .tc := ⟨.hbm, 200, rfl⟩
abbrev main_v168 : Ref sig .tc := ⟨.hbm, 201, rfl⟩
abbrev main_c_13 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_call14_v0 : Ref sig .tc := ⟨.hbm, 214, rfl⟩
abbrev main_v180 : Ref sig .tc := ⟨.hbm, 215, rfl⟩
abbrev main_c_14 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_call15_v0 : Ref sig .tc := ⟨.hbm, 228, rfl⟩
abbrev main_v192 : Ref sig .tc := ⟨.hbm, 229, rfl⟩

abbrev nD : Nat := 1
abbrev τ : Topo := Topo.v7x

variable {F : FTy → Type} [FloatOps F]

class Facts₀ : Prop where
  bcast_S_S200000x256 : S_.BroadcastsInDim S200000x256 (![] : Fin 0 → Fin S200000x256.rank)
  bcast_S_S200000 : S_.BroadcastsInDim S200000 (![] : Fin 0 → Fin S200000.rank)
  bcast_S200000_S200000x1_0 : S200000.BroadcastsInDim S200000x1 (![0] : Fin 1 → Fin S200000x1.rank)
  slices_S16x256x256_S1x256x256_0_0_0 : S16x256x256.Slices ![0, 0, 0] S1x256x256
  shapeCasts_S1x256x256_S256x256 : S1x256x256.ShapeCasts S256x256
  slices_S16x256_S1x256_0_0 : S16x256.Slices ![0, 0] S1x256
  shapeCasts_S1x256_S256 : S1x256.ShapeCasts S256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S200000x1_S200000x256_0_1 : S200000x1.BroadcastsInDim S200000x256 (![0, 1] : Fin 2 → Fin S200000x256.rank)
  slices_S16x256x256_S1x256x256_1_0_0 : S16x256x256.Slices ![1, 0, 0] S1x256x256
  slices_S16x256_S1x256_1_0 : S16x256.Slices ![1, 0] S1x256
  slices_S16x256x256_S1x256x256_2_0_0 : S16x256x256.Slices ![2, 0, 0] S1x256x256
  slices_S16x256_S1x256_2_0 : S16x256.Slices ![2, 0] S1x256
  slices_S16x256x256_S1x256x256_3_0_0 : S16x256x256.Slices ![3, 0, 0] S1x256x256
  slices_S16x256_S1x256_3_0 : S16x256.Slices ![3, 0] S1x256
  slices_S16x256x256_S1x256x256_4_0_0 : S16x256x256.Slices ![4, 0, 0] S1x256x256
  slices_S16x256_S1x256_4_0 : S16x256.Slices ![4, 0] S1x256
  slices_S16x256x256_S1x256x256_5_0_0 : S16x256x256.Slices ![5, 0, 0] S1x256x256
  slices_S16x256_S1x256_5_0 : S16x256.Slices ![5, 0] S1x256
  slices_S16x256x256_S1x256x256_6_0_0 : S16x256x256.Slices ![6, 0, 0] S1x256x256
  slices_S16x256_S1x256_6_0 : S16x256.Slices ![6, 0] S1x256
  slices_S16x256x256_S1x256x256_7_0_0 : S16x256x256.Slices ![7, 0, 0] S1x256x256
  slices_S16x256_S1x256_7_0 : S16x256.Slices ![7, 0] S1x256
  slices_S16x256x256_S1x256x256_8_0_0 : S16x256x256.Slices ![8, 0, 0] S1x256x256
  slices_S16x256_S1x256_8_0 : S16x256.Slices ![8, 0] S1x256
  slices_S16x256x256_S1x256x256_9_0_0 : S16x256x256.Slices ![9, 0, 0] S1x256x256
  slices_S16x256_S1x256_9_0 : S16x256.Slices ![9, 0] S1x256
  slices_S16x256x256_S1x256x256_10_0_0 : S16x256x256.Slices ![10, 0, 0] S1x256x256
  slices_S16x256_S1x256_10_0 : S16x256.Slices ![10, 0] S1x256
  slices_S16x256x256_S1x256x256_11_0_0 : S16x256x256.Slices ![11, 0, 0] S1x256x256
  slices_S16x256_S1x256_11_0 : S16x256.Slices ![11, 0] S1x256
  slices_S16x256x256_S1x256x256_12_0_0 : S16x256x256.Slices ![12, 0, 0] S1x256x256
  slices_S16x256_S1x256_12_0 : S16x256.Slices ![12, 0] S1x256
  slices_S16x256x256_S1x256x256_13_0_0 : S16x256x256.Slices ![13, 0, 0] S1x256x256
  slices_S16x256_S1x256_13_0 : S16x256.Slices ![13, 0] S1x256
  slices_S16x256x256_S1x256x256_14_0_0 : S16x256x256.Slices ![14, 0, 0] S1x256x256
  slices_S16x256_S1x256_14_0 : S16x256.Slices ![14, 0] S1x256
  slices_S16x256x256_S1x256x256_15_0_0 : S16x256x256.Slices ![15, 0, 0] S1x256x256
  slices_S16x256_S1x256_15_0 : S16x256.Slices ![15, 0] S1x256
  dot_S200000x256_S256x256_S200000x256_1_1_0_0_n_n_wf : DotDims.WF S200000x256 S256x256 S200000x256 [1] [1] [0] [0] [] []

variable [Facts₀]

def dot_S200000x256_S256x256_S200000x256_1_1_0_0_n_n : DotDims S200000x256 S256x256 S200000x256 where
  lhsContracting := [1]
  rhsContracting := [1]
  lhsNonContracting := [0]
  rhsNonContracting := [0]
  lhsBatch := []
  rhsBatch := []
  wf := dot_S200000x256_S256x256_S200000x256_1_1_0_0_n_n_wf

class Facts : Prop extends Facts₀ where

variable [Facts]
-- ==== Proof.OkBits.lean ====
/-
  The pipeline's side condition on the block-type table holds for every input: the table is the last operation's result, a
  clip into [0, 15], so every word names one of the sixteen types, and the type-indexed weight and bias blocks lie inside
  their arrays.
-/
import proofs.«408881_j53489522704783_3_alg».proof.Proof.Gen.Kernel.Frame
import Idealize.ShloMosaic.Lib.StableHlo.Run
import Idealize.ShloMosaic.Lib.StableHlo.Predicate
import Idealize.ShloMosaic.Lib.ValueIdx
import Idealize.ShloMosaic.Lib.Affine

set_option maxRecDepth 16384

noncomputable section

namespace Cert.Kernel.OkOfPre

open Cert.Kernel Cert.Kernel.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- A word clipped into [0, 15] (signed maximum with 0, then signed minimum with 15) is below 16 unsigned. -/
theorem clip_lt (z : BitVec 32) : (IntOp.minsi 15#32 (IntOp.maxsi 0#32 z)).toNat < 16 := by
  have h15 : (15#32 : BitVec 32).toInt = 15 := by decide
  have h0 : (0#32 : BitVec 32).toInt = 0 := by decide
  unfold IntOp.minsi IntOp.maxsi
  by_cases hd : z.slt 0#32 = true
  · simp only [if_pos hd]; decide
  · simp only [if_neg hd]
    by_cases hc : (15#32 : BitVec 32).slt z = true
    · rw [if_pos hc]; decide
    · rw [if_neg hc]
      simp only [BitVec.slt, h15, h0, decide_eq_true_eq, not_lt] at hc hd
      have h32 := z.isLt
      have hz : z.toInt = if 2 * z.toNat < 2 ^ 32 then (z.toNat : Int) else (z.toNat : Int) - 2 ^ 32 := rfl
      split at hz <;> omega

set_option maxHeartbeats 4000000 in
/-- The table, as the region finds it, is the last host operation's result: some vector clipped into [0, 15]
    (the pointwise signed maximum with 0, then the pointwise signed minimum with 15). -/
theorem read_tbl (c : Dev nD) : ∃ z : IVec S212 32, V m c main_v68 = minsi (broadcastInDim S212 ![] bcast_S_S212 (id (constantI S_ 32 15#32)))
    (maxsi (broadcastInDim S212 ![] bcast_S_S212 (id (constantI S_ 32 0#32))) z) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  exact ⟨_, rfl⟩

/-- Every word of the block-type table, as the region finds it, is below 16. -/
theorem tbl_lt (i : Fin 212) : ((tbl m 0 : S212.Idx → BitVec 32) (ix1 i)).toNat < 16 := by
  obtain ⟨z, hz⟩ := read_tbl m (0 : Dev nD)
  have e : (tbl m 0 : S212.Idx → BitVec 32) = V m (0 : Dev nD) main_v68 := rfl
  rw [e, hz]
  exact clip_lt (z (ix1 i))

/-- A one-element read of the table at offset off is the table's word at that position. -/
theorem at_eq (pf : pre0.Contents (Elt F)) (off : Fin 1 → Nat) (inb : ∀ a, off a + S1.size a ≤ S212.size a) (h1 : S1.numel = 1)
    (k : Fin 212) (hk : off 0 = k.val) :
    pf.at 0 (Rect.unit (s := S212) off S1.size inb) h1 = (pf 0 : S212.Idx → BitVec 32) (ix1 k) := by
  show pf 0 _ = pf 0 _
  congr 1
  funext a
  apply Fin.ext
  match a with
  | ⟨0, _⟩ =>
    show off 0 + 1 * 0 = k.val
    omega

/-- The block index the weight and bias index maps give at grid point i: a word of the table, then zeros. -/
theorem word_eq (pf : pre0.Contents (Elt F)) (i : grid0.Coords) :
    ∃ k : Fin 212, cc0_transform_1 k0_off1_inb numel1_S1 pf i = ![((pf 0 : S212.Idx → BitVec 32) (ix1 k)).toNat, 0, 0]
      ∧ cc0_transform_2 k0_off1_inb numel1_S1 pf i = ![((pf 0 : S212.Idx → BitVec 32) (ix1 k)).toNat, 0, 0] := by
  have hk := k0_off1_inb i 0
  have e1 : S1.size (0 : Fin 1) = 1 := rfl
  have e2 : S212.size (0 : Fin 1) = 212 := rfl
  have e := at_eq pf (k0_off1 i) (k0_off1_inb i) numel1_S1 ⟨k0_off1 i 0, by omega⟩ rfl
  exact ⟨_, congrArg (fun w : BitVec 32 => ![w.toNat, 0, 0]) e, congrArg (fun w : BitVec 32 => ![w.toNat, 0, 0]) e⟩

/-- Tables whose words are all below 16 meet the pipeline's side condition. -/
theorem ok0_of_lt (pf : pre0.Contents (Elt F)) (h : ∀ i : Fin 212, ((pf 0 : S212.Idx → BitVec 32) (ix1 i)).toNat < 16) : ok0 (F := F) pf := by
  unfold ok0
  refine ⟨fun i => ?_, fun i => ?_⟩
  · obtain ⟨k, e1, _⟩ := word_eq pf i
    have hk := h k
    have hin : ∀ a, (cc0_transform_1 k0_off1_inb numel1_S1 pf i a + 1) * S1x256x256.size a ≤ S16x256x256.size a := by
      rw [e1]
      intro a
      fin_cases a
      · show (((pf 0 : S212.Idx → BitVec 32) (ix1 k)).toNat + 1) * 1 ≤ 16
        omega
      · show (0 + 1) * 256 ≤ 256
        omega
      · show (0 + 1) * 256 ≤ 256
        omega
    exact ⟨hin, Or.inr (Affine.block_words_rows (by decide) rfl)⟩
  · obtain ⟨k, _, e2⟩ := word_eq pf i
    have hk := h k
    have hin : ∀ a, (cc0_transform_2 k0_off1_inb numel1_S1 pf i a + 1) * S1x1x256.size a ≤ S16x1x256.size a := by
      rw [e2]
      intro a
      fin_cases a
      · show (((pf 0 : S212.Idx → BitVec 32) (ix1 k)).toNat + 1) * 1 ≤ 16
        omega
      · show (0 + 1) * 1 ≤ 1
        omega
      · show (0 + 1) * 256 ≤ 256
        omega
    exact ⟨hin, Or.inl rfl⟩

/-- The side condition holds of every launch memory. -/
theorem ok : Ok m := ok0_of_lt (tbl m) (tbl_lt m)

end Cert.Kernel.OkOfPre

end
-- ==== Proof.OkIdeal.lean ====
/-
  The pipeline's side condition on the block-type table holds for every input: the table is the last operation's result, a
  clip into [0, 15], so every word names one of the sixteen types, and the type-indexed weight and bias blocks lie inside
  their arrays.
-/
import proofs.«408881_j53489522704783_3_alg».proof.Proof.Gen.KernelIdeal.Frame
import Idealize.ShloMosaic.Lib.StableHlo.Run
import Idealize.ShloMosaic.Lib.StableHlo.Predicate
import Idealize.ShloMosaic.Lib.ValueIdx
import Idealize.ShloMosaic.Lib.Affine

set_option maxRecDepth 16384

noncomputable section

namespace Cert.KernelIdeal.OkOfPre

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- A word clipped into [0, 15] (signed maximum with 0, then signed minimum with 15) is below 16 unsigned. -/
theorem clip_lt (z : BitVec 32) : (IntOp.minsi 15#32 (IntOp.maxsi 0#32 z)).toNat < 16 := by
  have h15 : (15#32 : BitVec 32).toInt = 15 := by decide
  have h0 : (0#32 : BitVec 32).toInt = 0 := by decide
  unfold IntOp.minsi IntOp.maxsi
  by_cases hd : z.slt 0#32 = true
  · simp only [if_pos hd]; decide
  · simp only [if_neg hd]
    by_cases hc : (15#32 : BitVec 32).slt z = true
    · rw [if_pos hc]; decide
    · rw [if_neg hc]
      simp only [BitVec.slt, h15, h0, decide_eq_true_eq, not_lt] at hc hd
      have h32 := z.isLt
      have hz : z.toInt = if 2 * z.toNat < 2 ^ 32 then (z.toNat : Int) else (z.toNat : Int) - 2 ^ 32 := rfl
      split at hz <;> omega

set_option maxHeartbeats 4000000 in
/-- The table, as the region finds it, is the last host operation's result: some vector clipped into [0, 15]
    (the pointwise signed maximum with 0, then the pointwise signed minimum with 15). -/
theorem read_tbl (c : Dev nD) : ∃ z : IVec S212 32, V m c main_v68 = minsi (broadcastInDim S212 ![] bcast_S_S212 (id (constantI S_ 32 15#32)))
    (maxsi (broadcastInDim S212 ![] bcast_S_S212 (id (constantI S_ 32 0#32))) z) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  exact ⟨_, rfl⟩

/-- Every word of the block-type table, as the region finds it, is below 16. -/
theorem tbl_lt (i : Fin 212) : ((tbl m 0 : S212.Idx → BitVec 32) (ix1 i)).toNat < 16 := by
  obtain ⟨z, hz⟩ := read_tbl m (0 : Dev nD)
  have e : (tbl m 0 : S212.Idx → BitVec 32) = V m (0 : Dev nD) main_v68 := rfl
  rw [e, hz]
  exact clip_lt (z (ix1 i))

/-- A one-element read of the table at offset off is the table's word at that position. -/
theorem at_eq (pf : pre0.Contents (Elt F)) (off : Fin 1 → Nat) (inb : ∀ a, off a + S1.size a ≤ S212.size a) (h1 : S1.numel = 1)
    (k : Fin 212) (hk : off 0 = k.val) :
    pf.at 0 (Rect.unit (s := S212) off S1.size inb) h1 = (pf 0 : S212.Idx → BitVec 32) (ix1 k) := by
  show pf 0 _ = pf 0 _
  congr 1
  funext a
  apply Fin.ext
  match a with
  | ⟨0, _⟩ =>
    show off 0 + 1 * 0 = k.val
    omega

/-- The block index the weight and bias index maps give at grid point i: a word of the table, then zeros. -/
theorem word_eq (pf : pre0.Contents (Elt F)) (i : grid0.Coords) :
    ∃ k : Fin 212, cc0_transform_1 k0_off1_inb numel1_S1 pf i = ![((pf 0 : S212.Idx → BitVec 32) (ix1 k)).toNat, 0, 0]
      ∧ cc0_transform_2 k0_off1_inb numel1_S1 pf i = ![((pf 0 : S212.Idx → BitVec 32) (ix1 k)).toNat, 0, 0] := by
  have hk := k0_off1_inb i 0
  have e1 : S1.size (0 : Fin 1) = 1 := rfl
  have e2 : S212.size (0 : Fin 1) = 212 := rfl
  have e := at_eq pf (k0_off1 i) (k0_off1_inb i) numel1_S1 ⟨k0_off1 i 0, by omega⟩ rfl
  exact ⟨_, congrArg (fun w : BitVec 32 => ![w.toNat, 0, 0]) e, congrArg (fun w : BitVec 32 => ![w.toNat, 0, 0]) e⟩

/-- Tables whose words are all below 16 meet the pipeline's side condition. -/
theorem ok0_of_lt (pf : pre0.Contents (Elt F)) (h : ∀ i : Fin 212, ((pf 0 : S212.Idx → BitVec 32) (ix1 i)).toNat < 16) : ok0 (F := F) pf := by
  unfold ok0
  refine ⟨fun i => ?_, fun i => ?_⟩
  · obtain ⟨k, e1, _⟩ := word_eq pf i
    have hk := h k
    have hin : ∀ a, (cc0_transform_1 k0_off1_inb numel1_S1 pf i a + 1) * S1x256x256.size a ≤ S16x256x256.size a := by
      rw [e1]
      intro a
      fin_cases a
      · show (((pf 0 : S212.Idx → BitVec 32) (ix1 k)).toNat + 1) * 1 ≤ 16
        omega
      · show (0 + 1) * 256 ≤ 256
        omega
      · show (0 + 1) * 256 ≤ 256
        omega
    exact ⟨hin, Or.inr (Affine.block_words_rows (by decide) rfl)⟩
  · obtain ⟨k, _, e2⟩ := word_eq pf i
    have hk := h k
    have hin : ∀ a, (cc0_transform_2 k0_off1_inb numel1_S1 pf i a + 1) * S1x1x256.size a ≤ S16x1x256.size a := by
      rw [e2]
      intro a
      fin_cases a
      · show (((pf 0 : S212.Idx → BitVec 32) (ix1 k)).toNat + 1) * 1 ≤ 16
        omega
      · show (0 + 1) * 1 ≤ 1
        omega
      · show (0 + 1) * 256 ≤ 256
        omega
    exact ⟨hin, Or.inl rfl⟩

/-- The side condition holds of every launch memory. -/
theorem ok : Ok m := ok0_of_lt (tbl m) (tbl_lt m)

end Cert.KernelIdeal.OkOfPre

end
-- ==== Proof.PreFacts.lean ====
/-
  What the precondition says of the type words: it is all ones only if every type word w has 0 ≤ w and w < 16 as signed
  words, that is, names one of the sixteen types.
-/
import proofs.«408881_j53489522704783_3_alg».proof.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.PreFacts

open Idealize.ShloMosaic Idealize.ShloMosaic.ValueIdx Cert.Pre_finite_inputs Cert.Pre_finite_inputs.Facts

variable [Cert.Pre_finite_inputs.Facts] {F : FTy → Type} [FloatOps F]

/-- A word that is ≥ 0 and < 16 as a signed word has a value below sixteen. -/
theorem word_lt (w : BitVec 32) (h0 : IntOp.cmpi .sge w 0#32 = 1#1) (h16 : IntOp.cmpi .slt w 16#32 = 1#1) : w.toNat < 16 := by
  unfold IntOp.cmpi at h0 h16
  rw [Idealize.ShloMosaic.StableHlo.Predicate.ofBool_eq_one_iff] at h0 h16
  simp only [BitVec.slt, BitVec.sle, decide_eq_true_eq] at h0 h16
  have h32 := w.isLt
  unfold BitVec.toInt at h0 h16
  split at h16 <;> simp at h0 h16 <;> omega

instance : Subsingleton S_.Idx := ⟨fun a b => funext fun d => d.elim0⟩

/-- Under the precondition every type word is one of the sixteen types. -/
theorem ty_lt (x : FVec F S200000x256 .f32) (ty : IVec S200000 32) (W : FVec F S16x256x256 .f32) (b : FVec F S16x256 .f32)
    (h : Cert.Pre_finite_inputs.fn (F := F) x ty W b = fun _ => 1#1) (n : Fin 200000) : (ty (ix1 n)).toNat < 16 := by
  have e := congrFun h ix0
  dsimp only [Cert.Pre_finite_inputs.fn, Cert.Pre_finite_inputs.fn_part1] at e
  -- the last conjunct of the scalar conjunction is the range test reduced over the rows
  have e1 := (IntOp.andi_eq_one.1 e).2
  have e2 := Host.reduce_andi_all _ _ _ _ ix0 e1 (ix1 n)
  have e3 := IntOp.andi_eq_one.1 e2
  exact word_lt _ e3.1 e3.2

end Cert.PreFacts

end
-- ==== Proof.Stages.lean ====
/-
  The host side of the routed linear layer, stage by stage, as pure functions of the arrays: each stage is the program's
  own operations in program order, named after what it computes.

    clipTy      the type words clipped into [0, 15]
    runCount    per row and type, how many rows so far have that type (one-hot compare, widened, summed down the rows)
    rankOf      a row's rank within its type: its own type's running count, less one
    blocksOf    per type, the number of 1024-row blocks its rows fill: (total + 1023) / 1024, rounded toward −∞
    groupStart  per type, its first padded row: the blocks of the types before it, times 1024
    destOf      a row's padded destination: its type's first padded row plus its rank
    srcOf       per padded row, the row sent there (zero where none is)
    xPad        the rows of x gathered into padded order
    blockType   per block, the type it belongs to: the number of types starting at or before it, less one, clipped
    wT, b3      the weights transposed per type, the bias with a unit axis
    gatherBack  the padded result's rows read back at the rows' destinations
-/
import proofs.«408881_j53489522704783_3_alg».proof.KernelIdeal

noncomputable section

namespace Cert.KernelIdeal.Stages

open Idealize.ShloMosaic Cert.KernelIdeal Cert.KernelIdeal.Facts₀ Cert.KernelIdeal.Facts

variable [Facts] {F : FTy → Type} [FloatOps F]

def clipTy (a1 : IVec S200000 32) : IVec S200000 32 :=
  minsi (broadcastInDim S200000 ![] bcast_S_S200000 (id (constantI S_ 32 15#32)))
    (maxsi (broadcastInDim S200000 ![] bcast_S_S200000 (id (constantI S_ 32 0#32))) a1)

def runCount (v0 : IVec S200000 32) : IVec S200000x16 32 :=
  let v1 : IVec S16 32 := iotaInDim S16 32 0
  let v2 : IVec S200000x1 32 := broadcastInDim S200000x1 ![0] bcast_S200000_S200000x1_0 v0
  let v3 : IVec S1x16 32 := broadcastInDim S1x16 ![1] bcast_S16_S1x16_1 v1
  let v4 : IVec S200000x16 32 := broadcastInDim S200000x16 ![0, 1] bcast_S200000x1_S200000x16_0_1 v2
  let v5 : IVec S200000x16 32 := broadcastInDim S200000x16 ![0, 1] bcast_S1x16_S200000x16_0_1 v3
  let v6 : IVec S200000x16 1 := cmpi .eq v4 v5
  let v7 : IVec S200000x16 32 := extui 32 v6 natLt_1_32
  Host.reduceWindow IntOp.addi ![200000, 1] ![1, 1] ![199999, 0] ![0, 0] v7
    (broadcastInDim S_ ![] bcast_S_S_ (constantI S_ 32 0#32)) reduceWindows_S200000x16_S200000x16_w200000s1p199999_0_w1s1p0_0 h_S_

def rankOf (v0 : IVec S200000 32) (v8 : IVec S200000x16 32) : IVec S200000 32 :=
  let v11 : IVec S200000x1 32 := broadcastInDim S200000x1 ![0] bcast_S200000_S200000x1_0 v0
  let t0 : IVec S200000x1 32 := broadcastInDim S200000x1 ![] bcast_S_S200000x1 (constantI S_ 32 0#32)
  let t1 : IVec S200000x1 1 := cmpi .slt v11 t0
  let t2 : IVec S200000x1 32 := broadcastInDim S200000x1 ![] bcast_S_S200000x1 (constantI S_ 32 16#32)
  let t3 : IVec S200000x1 32 := addi v11 t2
  let t4 : IVec S200000x1 32 := select t1 t3 v11
  let t5 : IVec S200000x1x1 32 := shapeCast S200000x1x1 t4 shapeCasts_S200000x1_S200000x1x1
  let t6 : IVec S200000x1x1 32 := broadcastInDim S200000x1x1 ![] bcast_S_S200000x1x1 (constantI S_ 32 0#32)
  let t7 : IVec S200000x1x1 1 := cmpi .sge t5 t6
  let t8 : IVec S1x1x1 32 := broadcastInDim S1x1x1 ![2] bcast_S1_S1x1x1_2 (constantI S1 32 15#32)
  let t9 : IVec S200000x1x1 32 := broadcastInDim S200000x1x1 ![0, 1, 2] bcast_S1x1x1_S200000x1x1_0_1_2 t8
  let t10 : IVec S200000x1x1 1 := cmpi .sle t5 t9
  let t11 : IVec S200000x1x1 1 := andi t7 t10
  let t12 : IVec S200000x1 1 := Host.reduce IntOp.andi t11 (constantI S_ 1 1#1) reducesTo_S200000x1x1_S200000x1_d2 h_S_
  let t13 : IVec S200000x1 32 := Host.gather gather_S200000x16_S200000x1x1_S200000x1_n_1_0_0_1_2_11 v8 t5
  let t14 : IVec S200000x1 32 := broadcastInDim S200000x1 ![] bcast_S_S200000x1 (constantI S_ 32 2147483648#32)
  let v12 : IVec S200000x1 32 := select t12 t13 t14
  let v13 : IVec S200000 32 := shapeCast S200000 v12 shapeCasts_S200000x1_S200000
  let v14 : IVec S200000 32 := broadcastInDim S200000 ![] bcast_S_S200000 (constantI S_ 32 1#32)
  subi v13 v14

def blocksOf (v8 : IVec S200000x16 32) : IVec S16 32 :=
  let v9 : IVec S1x16 32 := extractStridedSlice S1x16 ![199999, 0] v8 slices_S200000x16_S1x16_199999_0
  let v10 : IVec S16 32 := shapeCast S16 v9 shapeCasts_S1x16_S16
  let v16 : IVec S16 32 := broadcastInDim S16 ![] bcast_S_S16 (constantI S_ 32 1023#32)
  let v17 : IVec S16 32 := addi v10 v16
  let f0 : IVec S_ 32 := id (constantI S_ 32 1024#32)
  let f1 : IVec S16 32 := broadcastInDim S16 ![] bcast_S_S16 f0
  let f2 : IVec S16 32 := Host.divsi v17 f1
  let f3 : IVec S16 32 := signi v17
  let f4 : IVec S_ 32 := signi f0
  let f5 : IVec S16 32 := broadcastInDim S16 ![] bcast_S_S16 f4
  let f6 : IVec S16 1 := cmpi .ne f3 f5
  let f7 : IVec S16 32 := broadcastInDim S16 ![] bcast_S_S16 f0
  let f8 : IVec S16 32 := Host.remsi v17 f7
  let f9 : IVec S16 32 := broadcastInDim S16 ![] bcast_S_S16 (constantI S_ 32 0#32)
  let f10 : IVec S16 1 := cmpi .ne f8 f9
  let f11 : IVec S16 1 := andi f6 f10
  let f12 : IVec S16 32 := broadcastInDim S16 ![] bcast_S_S16 (constantI S_ 32 1#32)
  let f13 : IVec S16 32 := subi f2 f12
  select f11 f13 f2

def groupStart (v18 : IVec S16 32) : IVec S16 32 :=
  let v19 : IVec S1 32 := broadcastInDim S1 ![] bcast_S_S1 (constantI S_ 32 0#32)
  let v20 : IVec S16 32 := Host.reduceWindow IntOp.addi ![16] ![1] ![15] ![0] v18
    (broadcastInDim S_ ![] bcast_S_S_ (constantI S_ 32 0#32)) reduceWindows_S16_S16_w16s1p15_0 h_S_
  let v21 : IVec S15 32 := extractStridedSlice S15 ![0] v20 slices_S16_S15_0
  let v22 : IVec S16 32 := concatenate S16 0 [⟨S1, v19⟩, ⟨S15, v21⟩] concatenates_S1_S15_S16_d0
  let v23 : IVec S16 32 := broadcastInDim S16 ![] bcast_S_S16 (constantI S_ 32 1024#32)
  muli v22 v23

def destOf (v0 : IVec S200000 32) (v24 : IVec S16 32) (v15 : IVec S200000 32) : IVec S200000 32 :=
  let v25 : IVec S200000 32 := broadcastInDim S200000 ![] bcast_S_S200000 (constantI S_ 32 0#32)
  let v26 : IVec S200000 1 := cmpi .slt v0 v25
  let v27 : IVec S200000 32 := broadcastInDim S200000 ![] bcast_S_S200000 (constantI S_ 32 16#32)
  let v28 : IVec S200000 32 := addi v0 v27
  let v29 : IVec S200000 32 := select v26 v28 v0
  let v30 : IVec S200000x1 32 := broadcastInDim S200000x1 ![0] bcast_S200000_S200000x1_0 v29
  let v31 : IVec S200000 32 := Host.gather gather_S16_S200000x1_S200000_n_0_n_n_0_1_1 v24 v30
  addi v31 v15

def srcOf (v32 : IVec S200000 32) : IVec S217088 32 :=
  let v33 : IVec S217088 32 := broadcastInDim S217088 ![] bcast_S_S217088 (constantI S_ 32 0#32)
  let v34 : IVec S200000 32 := iotaInDim S200000 32 0
  let v35 : IVec S200000 32 := broadcastInDim S200000 ![] bcast_S_S200000 (constantI S_ 32 0#32)
  let v36 : IVec S200000 1 := cmpi .slt v32 v35
  let v37 : IVec S200000 32 := broadcastInDim S200000 ![] bcast_S_S200000 (constantI S_ 32 217088#32)
  let v38 : IVec S200000 32 := addi v32 v37
  let v39 : IVec S200000 32 := select v36 v38 v32
  let v40 : IVec S200000x1 32 := broadcastInDim S200000x1 ![0] bcast_S200000_S200000x1_0 v39
  let v41 : IVec S217088 32 := Host.scatter scatter_S217088_S200000x1_S200000_n_0_0_1 (fun _ b => b) v33 v40 v34
  let v42 : IVec S217088 32 := broadcastInDim S217088 ![] bcast_S_S217088 (constantI S_ 32 0#32)
  let v43 : IVec S217088 1 := cmpi .slt v41 v42
  let v44 : IVec S217088 32 := broadcastInDim S217088 ![] bcast_S_S217088 (constantI S_ 32 200000#32)
  let v45 : IVec S217088 32 := addi v41 v44
  select v43 v45 v41

def xPad (x : FVec F S200000x256 .f32) (v46 : IVec S217088 32) : FVec F S217088x256 .bf16 :=
  let v47 : IVec S217088x1 32 := broadcastInDim S217088x1 ![0] bcast_S217088_S217088x1_0 v46
  let v48 : FVec F S217088x256 .f32 := Host.gather gather_S200000x256_S217088x1_S217088x256_1_0_n_n_0_1_1256 x v47
  truncf .bf16 v48 bitsLt_bf16_f32

/-- Per type, the running total of the blocks of the types before it: the block counts rolled up one type, zero put in front,
    summed. -/
def startsOf (v18 : IVec S16 32) : IVec S16 32 :=
  let r0 : IVec S1 32 := extractStridedSlice S1 ![15] v18 slices_S16_S1_15
  let r1 : IVec S15 32 := extractStridedSlice S15 ![0] v18 slices_S16_S15_0
  let v51 : IVec S16 32 := concatenate S16 0 [⟨S1, r0⟩, ⟨S15, r1⟩] concatenates_S1_S15_S16_d0
  let v52 : IVec S1 32 := broadcastInDim S1 ![] bcast_S_S1 (constantI S_ 32 0#32)
  let v53 : IVec S16 32 := Host.scatter scatter_S16_S1_S__n_0_0_0 (fun _ b => b) v51 v52 (constantI S_ 32 0#32)
  Host.reduceWindow IntOp.addi ![16] ![1] ![15] ![0] v53
    (broadcastInDim S_ ![] bcast_S_S_ (constantI S_ 32 0#32)) reduceWindows_S16_S16_w16s1p15_0 h_S_

/-- Per block, how many types start exactly there. -/
def marksOf (v54 : IVec S16 32) : IVec S212 32 :=
  let v55 : IVec S212 32 := broadcastInDim S212 ![] bcast_S_S212 (constantI S_ 32 0#32)
  let v56 : IVec S16 32 := broadcastInDim S16 ![] bcast_S_S16 (constantI S_ 32 0#32)
  let v57 : IVec S16 1 := cmpi .slt v54 v56
  let v58 : IVec S16 32 := broadcastInDim S16 ![] bcast_S_S16 (constantI S_ 32 212#32)
  let v59 : IVec S16 32 := addi v54 v58
  let v60 : IVec S16 32 := select v57 v59 v54
  let v61 : IVec S16x1 32 := broadcastInDim S16x1 ![0] bcast_S16_S16x1_0 v60
  let v62 : IVec S16 32 := broadcastInDim S16 ![] bcast_S_S16 (constantI S_ 32 1#32)
  Host.scatter scatter_S212_S16x1_S16_n_0_0_1 IntOp.addi v55 v61 v62

/-- Per block, the marks summed through it, less one. -/
def blockIdx (v63 : IVec S212 32) : IVec S212 32 :=
  let v64 : IVec S212 32 := Host.reduceWindow IntOp.addi ![212] ![1] ![211] ![0] v63
    (broadcastInDim S_ ![] bcast_S_S_ (constantI S_ 32 0#32)) reduceWindows_S212_S212_w212s1p211_0 h_S_
  let v65 : IVec S212 32 := broadcastInDim S212 ![] bcast_S_S212 (constantI S_ 32 1#32)
  subi v64 v65

/-- The identity table 0 … 15 read at the block indices (filled where an index is out of range), clipped into [0, 15]. -/
def takeClip (v66 : IVec S212 32) : IVec S212 32 :=
  let v50 : IVec S16 32 := iotaInDim S16 32 0
  let k0 : IVec S212 32 := broadcastInDim S212 ![] bcast_S_S212 (constantI S_ 32 0#32)
  let k1 : IVec S212 1 := cmpi .slt v66 k0
  let k2 : IVec S212 32 := broadcastInDim S212 ![] bcast_S_S212 (constantI S_ 32 16#32)
  let k3 : IVec S212 32 := addi v66 k2
  let k4 : IVec S212 32 := select k1 k3 v66
  let k5 : IVec S212x1 32 := broadcastInDim S212x1 ![0] bcast_S212_S212x1_0 k4
  let k6 : IVec S212x1 32 := broadcastInDim S212x1 ![] bcast_S_S212x1 (constantI S_ 32 0#32)
  let k7 : IVec S212x1 1 := cmpi .sge k5 k6
  let k8 : IVec S1x1 32 := broadcastInDim S1x1 ![1] bcast_S1_S1x1_1 (constantI S1 32 15#32)
  let k9 : IVec S212x1 32 := broadcastInDim S212x1 ![0, 1] bcast_S1x1_S212x1_0_1 k8
  let k10 : IVec S212x1 1 := cmpi .sle k5 k9
  let k11 : IVec S212x1 1 := andi k7 k10
  let k12 : IVec S212 1 := Host.reduce IntOp.andi k11 (constantI S_ 1 1#1) reducesTo_S212x1_S212_d1 h_S_
  let k13 : IVec S212 32 := Host.gather gather_S16_S212x1_S212_n_0_n_n_0_1_1 v50 k5
  let k14 : IVec S212 32 := broadcastInDim S212 ![] bcast_S_S212 (constantI S_ 32 2147483648#32)
  let v67 : IVec S212 32 := select k12 k13 k14
  minsi (broadcastInDim S212 ![] bcast_S_S212 (id (constantI S_ 32 15#32)))
    (maxsi (broadcastInDim S212 ![] bcast_S_S212 (id (constantI S_ 32 0#32))) v67)

def blockType (v18 : IVec S16 32) : IVec S212 32 :=
  takeClip (blockIdx (marksOf (startsOf v18)))

def wT (W : FVec F S16x256x256 .f32) : FVec F S16x256x256 .bf16 :=
  truncf .bf16 (transpose S16x256x256 [0, 2, 1] W transposes_S16x256x256_S16x256x256_0_2_1) bitsLt_bf16_f32

def b3 (b : FVec F S16x256 .f32) : FVec F S16x1x256 .f32 :=
  shapeCast S16x1x256 b shapeCasts_S16x256_S16x1x256

def gatherBack (y : FVec F S217088x256 .f32) (v32 : IVec S200000 32) : FVec F S200000x256 .f32 :=
  let v73 : IVec S200000 32 := broadcastInDim S200000 ![] bcast_S_S200000 (constantI S_ 32 0#32)
  let v74 : IVec S200000 1 := cmpi .slt v32 v73
  let v75 : IVec S200000 32 := broadcastInDim S200000 ![] bcast_S_S200000 (constantI S_ 32 217088#32)
  let v76 : IVec S200000 32 := addi v32 v75
  let v77 : IVec S200000 32 := select v74 v76 v32
  let v78 : IVec S200000x1 32 := broadcastInDim S200000x1 ![0] bcast_S200000_S200000x1_0 v77
  Host.gather gather_S217088x256_S200000x1_S200000x256_1_0_n_n_0_1_1256 y v78

/-- The whole chain from the type words to the rows' destinations. -/
def destAll (a1 : IVec S200000 32) : IVec S200000 32 :=
  let v0 := clipTy a1
  let v8 := runCount v0
  destOf v0 (groupStart (blocksOf v8)) (rankOf v0 v8)

/-- The whole chain from the type words to the blocks' types. -/
def blockTypeAll (a1 : IVec S200000 32) : IVec S212 32 :=
  blockType (blocksOf (runCount (clipTy a1)))

end Cert.KernelIdeal.Stages

end
-- ==== Proof.StagesPrinted.lean ====
/-
  The two stages that contain a reshape, with each reshape spelled index by index; each is its stage, a reshape read at
  every index being the reshape.
-/
import proofs.«408881_j53489522704783_3_alg».proof.Proof.Stages

noncomputable section

namespace Cert.KernelIdeal.Stages

open Idealize.ShloMosaic Cert.KernelIdeal Cert.KernelIdeal.Facts₀ Cert.KernelIdeal.Facts

variable [Facts]

-- the windowed sums, gathers and reductions are compared operand by operand, never unfolded
attribute [local irreducible] Host.reduceWindow Host.gather Host.scatter Host.reduce

/-- The rank stage, its two reshapes index by index. -/
def rankOfP (v0 : IVec S200000 32) (v8 : IVec S200000x16 32) : IVec S200000 32 :=
  let v11 : IVec S200000x1 32 := broadcastInDim S200000x1 ![0] bcast_S200000_S200000x1_0 v0
  let t0 : IVec S200000x1 32 := broadcastInDim S200000x1 ![] bcast_S_S200000x1 (constantI S_ 32 0#32)
  let t1 : IVec S200000x1 1 := cmpi .slt v11 t0
  let t2 : IVec S200000x1 32 := broadcastInDim S200000x1 ![] bcast_S_S200000x1 (constantI S_ 32 16#32)
  let t3 : IVec S200000x1 32 := addi v11 t2
  let t4 : IVec S200000x1 32 := select t1 t3 v11
  let t5 : IVec S200000x1x1 32 := fun i => shapeCast S200000x1x1 t4 shapeCasts_S200000x1_S200000x1x1 i
  let t6 : IVec S200000x1x1 32 := broadcastInDim S200000x1x1 ![] bcast_S_S200000x1x1 (constantI S_ 32 0#32)
  let t7 : IVec S200000x1x1 1 := cmpi .sge t5 t6
  let t8 : IVec S1x1x1 32 := broadcastInDim S1x1x1 ![2] bcast_S1_S1x1x1_2 (constantI S1 32 15#32)
  let t9 : IVec S200000x1x1 32 := broadcastInDim S200000x1x1 ![0, 1, 2] bcast_S1x1x1_S200000x1x1_0_1_2 t8
  let t10 : IVec S200000x1x1 1 := cmpi .sle t5 t9
  let t11 : IVec S200000x1x1 1 := andi t7 t10
  let t12 : IVec S200000x1 1 := Host.reduce IntOp.andi t11 (constantI S_ 1 1#1) reducesTo_S200000x1x1_S200000x1_d2 h_S_
  let t13 : IVec S200000x1 32 := Host.gather gather_S200000x16_S200000x1x1_S200000x1_n_1_0_0_1_2_11 v8 t5
  let t14 : IVec S200000x1 32 := broadcastInDim S200000x1 ![] bcast_S_S200000x1 (constantI S_ 32 2147483648#32)
  let v12 : IVec S200000x1 32 := select t12 t13 t14
  let v13 : IVec S200000 32 := fun i => shapeCast S200000 v12 shapeCasts_S200000x1_S200000 i
  let v14 : IVec S200000 32 := broadcastInDim S200000 ![] bcast_S_S200000 (constantI S_ 32 1#32)
  subi v13 v14

/-- The blocks stage, its reshape index by index. -/
def blocksOfP (v8 : IVec S200000x16 32) : IVec S16 32 :=
  let v9 : IVec S1x16 32 := extractStridedSlice S1x16 ![199999, 0] v8 slices_S200000x16_S1x16_199999_0
  let v10 : IVec S16 32 := fun i => shapeCast S16 v9 shapeCasts_S1x16_S16 i
  let v16 : IVec S16 32 := broadcastInDim S16 ![] bcast_S_S16 (constantI S_ 32 1023#32)
  let v17 : IVec S16 32 := addi v10 v16
  let f0 : IVec S_ 32 := id (constantI S_ 32 1024#32)
  let f1 : IVec S16 32 := broadcastInDim S16 ![] bcast_S_S16 f0
  let f2 : IVec S16 32 := Host.divsi v17 f1
  let f3 : IVec S16 32 := signi v17
  let f4 : IVec S_ 32 := signi f0
  let f5 : IVec S16 32 := broadcastInDim S16 ![] bcast_S_S16 f4
  let f6 : IVec S16 1 := cmpi .ne f3 f5
  let f7 : IVec S16 32 := broadcastInDim S16 ![] bcast_S_S16 f0
  let f8 : IVec S16 32 := Host.remsi v17 f7
  let f9 : IVec S16 32 := broadcastInDim S16 ![] bcast_S_S16 (constantI S_ 32 0#32)
  let f10 : IVec S16 1 := cmpi .ne f8 f9
  let f11 : IVec S16 1 := andi f6 f10
  let f12 : IVec S16 32 := broadcastInDim S16 ![] bcast_S_S16 (constantI S_ 32 1#32)
  let f13 : IVec S16 32 := subi f2 f12
  select f11 f13 f2

theorem rankOfP_eq (v0 : IVec S200000 32) (v8 : IVec S200000x16 32) : rankOfP v0 v8 = rankOf v0 v8 := rfl

theorem blocksOfP_eq (v8 : IVec S200000x16 32) : blocksOfP v8 = blocksOf v8 := rfl

end Cert.KernelIdeal.Stages

end
-- ==== Proof.HostRead.lean ====
/-
  What the region finds, and what the lines after it read: the arrays the host operations before the pallas_call leave,
  as the stage functions of the argument arrays.

  The host operations run in order, so the contents after all of them are the contents after the last ones applied to the
  contents after the first ones. The prefix is cut twice: after the running counts are written, and after the ranks and the
  blocks per type are. Each later buffer is then a stage function of the few buffers the cut hands it, and no later operation
  writes a buffer an earlier cut handed on.
-/
import proofs.«408881_j53489522704783_3_alg».proof.Proof.Gen.KernelIdeal.Frame
import proofs.«408881_j53489522704783_3_alg».proof.Proof.Stages
import proofs.«408881_j53489522704783_3_alg».proof.Proof.StagesPrinted
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo
open Cert.KernelIdeal.Stages

variable {F : FTy → Type} [FloatOps F]
variable (m : (ℓ : Loc nD τ sig) → Buf (Elt F) ℓ)

-- the windowed sums, gathers, scatters and reductions are compared operand by operand, never unfolded
attribute [local irreducible] Host.reduceWindow Host.gather Host.scatter Host.reduce concatenate

/-- The reshapes' buffers have the literal types (by computation). -/
theorem ty_v9 : main_v9.ty = (⟨S1x16, .i32⟩ : BufTy) := rfl
theorem ty_v10 : main_v10.ty = (⟨S16, .i32⟩ : BufTy) := rfl
theorem ty_c2v4 : main_call2_v4.ty = (⟨S200000x1, .i32⟩ : BufTy) := rfl
theorem ty_c2v5 : main_call2_v5.ty = (⟨S200000x1x1, .i32⟩ : BufTy) := rfl
theorem ty_v12 : main_v12.ty = (⟨S200000x1, .i32⟩ : BufTy) := rfl
theorem ty_v13 : main_v13.ty = (⟨S200000, .i32⟩ : BufTy) := rfl

set_option maxHeartbeats 4000000 in
/-- The clipped type words. -/
theorem w3_v0 (W : Valuation τ sig (Elt F)) :
    after (List.flatten [hostOps0, hostOps0_1, hostOps0_2, hostOps0_3]) W (Proc.devRef .tc main_v0) = clipTy (W (Proc.devRef .tc main_arg1)) := by
  simp only [hostOps0, hostOps0_1, hostOps0_2, hostOps0_3, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  rfl

set_option maxHeartbeats 4000000 in
/-- The running counts. -/
theorem w3_v8 (W : Valuation τ sig (Elt F)) :
    after (List.flatten [hostOps0, hostOps0_1, hostOps0_2, hostOps0_3]) W (Proc.devRef .tc main_v8) = runCount (clipTy (W (Proc.devRef .tc main_arg1))) := by
  simp only [hostOps0, hostOps0_1, hostOps0_2, hostOps0_3, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  rfl

set_option maxHeartbeats 4000000 in
/-- The ranks. -/
theorem w7_v15 (W : Valuation τ sig (Elt F)) :
    after (List.flatten [hostOps0_4, hostOps0_5, hostOps0_6, hostOps0_7]) W (Proc.devRef .tc main_v15) = rankOfP (W (Proc.devRef .tc main_v0)) (W (Proc.devRef .tc main_v8)) := by
  simp only [hostOps0_4, hostOps0_5, hostOps0_6, hostOps0_7, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  unfold rankOfP
  dsimp only
  rfl

set_option maxHeartbeats 4000000 in
/-- The blocks per type. -/
theorem w7_v18 (W : Valuation τ sig (Elt F)) :
    after (List.flatten [hostOps0_4, hostOps0_5, hostOps0_6, hostOps0_7]) W (Proc.devRef .tc main_v18) = blocksOfP (W (Proc.devRef .tc main_v8)) := by
  simp only [hostOps0_4, hostOps0_5, hostOps0_6, hostOps0_7, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  unfold blocksOfP
  dsimp only
  rfl

/-- No operation of these stretches writes this buffer. -/
theorem w7_keep_v0 (W : Valuation τ sig (Elt F)) : after (List.flatten [hostOps0_4, hostOps0_5, hostOps0_6, hostOps0_7]) W (Proc.devRef .tc main_v0) = W (Proc.devRef .tc main_v0) :=
  StableHlo.after_of_forall_not_mem (b := (Proc.devRef .tc main_v0)) _ _ (List.forall_iff_forall_mem.mp (by
    simp only [hostOps0_4, hostOps0_5, hostOps0_6, hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of these stretches writes this buffer. -/
theorem w7_keep_arg0 (W : Valuation τ sig (Elt F)) : after (List.flatten [hostOps0_4, hostOps0_5, hostOps0_6, hostOps0_7]) W (Proc.devRef .tc main_arg0) = W (Proc.devRef .tc main_arg0) :=
  StableHlo.after_of_forall_not_mem (b := (Proc.devRef .tc main_arg0)) _ _ (List.forall_iff_forall_mem.mp (by
    simp only [hostOps0_4, hostOps0_5, hostOps0_6, hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- The destinations. -/
theorem wz_v32 (W : Valuation τ sig (Elt F)) :
    after (List.flatten [hostOps0_8, hostOps0_9, hostOps0_10, hostOps0_11, hostOps0_12, hostOps0_13, hostOps0_14, hostOps0_15, hostOps0_16, hostOps0_17, hostOps0_18, hostOps0_19, hostOps0_20]) W (Proc.devRef .tc main_v32) = destOf (W (Proc.devRef .tc main_v0)) (groupStart (W (Proc.devRef .tc main_v18))) (W (Proc.devRef .tc main_v15)) := by
  simp only [hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  rfl

set_option maxHeartbeats 4000000 in
/-- The padded rows of x. -/
theorem wz_v49 (W : Valuation τ sig (Elt F)) :
    after (List.flatten [hostOps0_8, hostOps0_9, hostOps0_10, hostOps0_11, hostOps0_12, hostOps0_13, hostOps0_14, hostOps0_15, hostOps0_16, hostOps0_17, hostOps0_18, hostOps0_19, hostOps0_20]) W (Proc.devRef .tc main_v49) = xPad (W (Proc.devRef .tc main_arg0)) (srcOf (destOf (W (Proc.devRef .tc main_v0)) (groupStart (W (Proc.devRef .tc main_v18))) (W (Proc.devRef .tc main_v15)))) := by
  simp only [hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  rfl

set_option maxHeartbeats 4000000 in
/-- The block types. -/
theorem wz_v68 (W : Valuation τ sig (Elt F)) :
    after (List.flatten [hostOps0_8, hostOps0_9, hostOps0_10, hostOps0_11, hostOps0_12, hostOps0_13, hostOps0_14, hostOps0_15, hostOps0_16, hostOps0_17, hostOps0_18, hostOps0_19, hostOps0_20]) W (Proc.devRef .tc main_v68) = blockType (W (Proc.devRef .tc main_v18)) := by
  simp only [hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [TRef.ofBuf, TRef.toBuf, cast_eq]
  try dsimp only [ty_v9, ty_v10, ty_c2v4, ty_c2v5, ty_v12, ty_v13]
  rfl

/-- No operation of the first four stretches writes x. -/
theorem V_main_arg0_w3 (c : Dev nD) : (after (List.flatten [hostOps0, hostOps0_1, hostOps0_2, hostOps0_3]) (fun b => m (c, b))) (Proc.devRef .tc main_arg0) = m ((c : Thread nD τ).loc main_arg0) :=
  StableHlo.after_of_forall_not_mem (b := (Proc.devRef .tc main_arg0)) _ _ (List.forall_iff_forall_mem.mp (by
    simp only [hostOps0, hostOps0_1, hostOps0_2, hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The bias with its unit axis. -/
theorem read_b3 (c : Dev nD) : V m c main_v71 = b3 (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [TRef.ofBuf, TRef.toBuf, cast_eq]
  rfl

/-- The transposed weights. -/
theorem read_wT (c : Dev nD) : V m c main_v70 = wT (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [TRef.ofBuf, TRef.toBuf, cast_eq]
  rfl

/-- The host prefix, regrouped: the last stretches applied to what the first eight leave. -/
theorem V0_split (c : Dev nD) : V0 m c = after (List.flatten [hostOps0_8, hostOps0_9, hostOps0_10, hostOps0_11, hostOps0_12, hostOps0_13, hostOps0_14, hostOps0_15, hostOps0_16, hostOps0_17, hostOps0_18, hostOps0_19, hostOps0_20]) (after (List.flatten [hostOps0_4, hostOps0_5, hostOps0_6, hostOps0_7]) (after (List.flatten [hostOps0, hostOps0_1, hostOps0_2, hostOps0_3]) (fun b => m (c, b)))) := by
  dsimp only [V0]
  simp only [List.flatten_cons, List.flatten_nil, List.append_nil, StableHlo.after_append]

/-- What the first eight stretches leave in the buffers the later ones read. -/
theorem w7_v0_eq (c : Dev nD) : (after (List.flatten [hostOps0_4, hostOps0_5, hostOps0_6, hostOps0_7]) (after (List.flatten [hostOps0, hostOps0_1, hostOps0_2, hostOps0_3]) (fun b => m (c, b)))) (Proc.devRef .tc main_v0) = clipTy (m ((c : Thread nD τ).loc main_arg1)) := by
  rw [w7_keep_v0, w3_v0]
  all_goals rfl
theorem w7_v18_eq (c : Dev nD) : (after (List.flatten [hostOps0_4, hostOps0_5, hostOps0_6, hostOps0_7]) (after (List.flatten [hostOps0, hostOps0_1, hostOps0_2, hostOps0_3]) (fun b => m (c, b)))) (Proc.devRef .tc main_v18) = blocksOf (runCount (clipTy (m ((c : Thread nD τ).loc main_arg1)))) := by
  rw [w7_v18, blocksOfP_eq, w3_v8]
  all_goals rfl
theorem w7_v15_eq (c : Dev nD) : (after (List.flatten [hostOps0_4, hostOps0_5, hostOps0_6, hostOps0_7]) (after (List.flatten [hostOps0, hostOps0_1, hostOps0_2, hostOps0_3]) (fun b => m (c, b)))) (Proc.devRef .tc main_v15) = rankOf (clipTy (m ((c : Thread nD τ).loc main_arg1))) (runCount (clipTy (m ((c : Thread nD τ).loc main_arg1)))) := by
  rw [w7_v15, rankOfP_eq, w3_v0, w3_v8]
  all_goals rfl
theorem w7_arg0_eq (c : Dev nD) : (after (List.flatten [hostOps0_4, hostOps0_5, hostOps0_6, hostOps0_7]) (after (List.flatten [hostOps0, hostOps0_1, hostOps0_2, hostOps0_3]) (fun b => m (c, b)))) (Proc.devRef .tc main_arg0) = m ((c : Thread nD τ).loc main_arg0) := by
  rw [w7_keep_arg0]
  exact V_main_arg0_w3 m c

/-- The rows' destinations. -/
theorem read_dest (c : Dev nD) : V m c main_v32 = destAll (m ((c : Thread nD τ).loc main_arg1)) := by
  show V0 m c (Proc.devRef .tc main_v32) = _
  rw [V0_split, wz_v32, w7_v0_eq, w7_v18_eq, w7_v15_eq]
  rfl

/-- The block-type table. -/
theorem read_blockType (c : Dev nD) : V m c main_v68 = blockTypeAll (m ((c : Thread nD τ).loc main_arg1)) := by
  show V0 m c (Proc.devRef .tc main_v68) = _
  rw [V0_split, wz_v68, w7_v18_eq]
  rfl

/-- The padded rows of x. -/
theorem read_xPad (c : Dev nD) :
    V m c main_v49 = xPad (m ((c : Thread nD τ).loc main_arg0)) (srcOf (destAll (m ((c : Thread nD τ).loc main_arg1)))) := by
  show V0 m c (Proc.devRef .tc main_v49) = _
  rw [V0_split, wz_v49, w7_v0_eq, w7_v18_eq, w7_v15_eq, w7_arg0_eq]
  rfl

end Cert.KernelIdeal.HostRead

end
-- ==== Proof.Route.lean ====
/-
  Routing rows into per-type block-aligned regions: the counting facts.

  N rows, each of one of T types (ty); blocks of B rows. Type t's rows, in row order, get the ranks 0, 1, …; type t is
  given ⌈(number of rows of type t) / B⌉ whole blocks, the types' block ranges laid end to end in type order. Row n's
  destination is its type's first row plus its rank. Three facts are used downstream:
    * a destination lies inside its own type's block range, hence below the padded total;
    * destinations are pairwise distinct;
    * the block holding row n's destination belongs to type (ty n): among the types, exactly those up to (ty n) start at
      or before that block (an empty type starts where the next one does, and a later non-empty one starts after it).
-/
import Mathlib.Algebra.BigOperators.Group.Finset.Basic
import Mathlib.Algebra.BigOperators.Intervals
import Mathlib.Algebra.Order.BigOperators.Group.Finset
import Mathlib.Data.Fintype.Card
import Mathlib.Order.Interval.Finset.Fin
import Mathlib.Tactic.Ring
import Mathlib.Tactic.Linarith

namespace Cert.Route

variable {N T : ℕ} (B : ℕ) (ty : Fin N → Fin T)

/-- How many rows up to and including n have type t. -/
def cum (n : Fin N) (t : Fin T) : ℕ := (Finset.univ.filter fun n' : Fin N => n' ≤ n ∧ ty n' = t).card
/-- How many rows have type t. -/
def cnt (t : Fin T) : ℕ := (Finset.univ.filter fun n' : Fin N => ty n' = t).card
/-- The whole blocks type t is given. -/
def blocks (t : Fin T) : ℕ := (cnt ty t + (B - 1)) / B
/-- Type t's first block: the blocks of the types before it. -/
def start (t : Fin T) : ℕ := ∑ t' ∈ Finset.univ.filter (fun t' : Fin T => t' < t), blocks B ty t'
/-- Row n's destination row in the padded array. -/
def dest (n : Fin N) : ℕ := start B ty (ty n) * B + (cum ty n (ty n) - 1)
/-- How many types start at or before block i. -/
def below (i : ℕ) : ℕ := (Finset.univ.filter fun t : Fin T => start B ty t ≤ i).card

theorem cum_eq_sum (n : Fin N) (t : Fin T) :
    cum ty n t = ∑ n' ∈ Finset.univ.filter (fun n' : Fin N => n' ≤ n), (if ty n' = t then 1 else 0) := by
  unfold cum
  rw [← Finset.filter_filter, Finset.card_filter]

theorem cum_le_cnt (n : Fin N) (t : Fin T) : cum ty n t ≤ cnt ty t := by
  unfold cum cnt
  apply Finset.card_le_card
  intro a ha
  simp only [Finset.mem_filter, Finset.mem_univ, true_and] at ha ⊢
  exact ha.2

theorem cnt_le (t : Fin T) : cnt ty t ≤ N := by
  unfold cnt
  calc (Finset.univ.filter fun n' : Fin N => ty n' = t).card
      ≤ (Finset.univ : Finset (Fin N)).card := Finset.card_filter_le _ _
    _ = N := by simp

theorem one_le_cum (n : Fin N) : 1 ≤ cum ty n (ty n) := by
  unfold cum
  apply Finset.card_pos.mpr
  exact ⟨n, by simp⟩

/-- At the last row the running count is the total. -/
theorem cum_last (n : Fin N) (hn : n.val + 1 = N) (t : Fin T) : cum ty n t = cnt ty t := by
  unfold cum cnt
  congr 1
  apply Finset.filter_congr
  intro a _
  have hle : a ≤ n := by
    rw [Fin.le_def]
    have := a.isLt
    omega
  simp [hle]

theorem blocks_le (hB : 0 < B) (t : Fin T) : blocks B ty t ≤ (N + (B - 1)) / B := by
  unfold blocks
  exact Nat.div_le_div_right (Nat.add_le_add_right (cnt_le ty t) _)

/-- Two quotients add up to at most the quotient of the sum. -/
private theorem div_add_div_le (a b c : ℕ) : a / c + b / c ≤ (a + b) / c := by
  rcases Nat.eq_zero_or_pos c with rfl | hc
  · simp
  · rw [Nat.le_div_iff_mul_le hc, Nat.add_mul]
    exact Nat.add_le_add (Nat.div_mul_le_self a c) (Nat.div_mul_le_self b c)

/-- A sum of quotients is at most the quotient of the sum. -/
private theorem sum_div_le_div_sum {ι : Type} (s : Finset ι) (f : ι → ℕ) (c : ℕ) :
    ∑ i ∈ s, f i / c ≤ (∑ i ∈ s, f i) / c := by
  classical
  induction s using Finset.induction_on with
  | empty => simp
  | insert a s ha ih =>
    rw [Finset.sum_insert ha, Finset.sum_insert ha]
    exact le_trans (Nat.add_le_add_left ih _) (div_add_div_le _ _ _)

/-- Every row has exactly one type: the type counts add up to N. -/
private theorem sum_cnt : ∑ t : Fin T, cnt ty t = N := by
  have h := Finset.card_eq_sum_card_fiberwise (f := ty) (s := (Finset.univ : Finset (Fin N)))
    (t := (Finset.univ : Finset (Fin T))) (fun x _ => by simp)
  simp only [Finset.card_univ, Fintype.card_fin] at h
  unfold cnt
  exact h.symm

/-- All blocks together: at most (N + T (B − 1)) / B. -/
theorem sum_blocks_le (hB : 0 < B) : ∑ t : Fin T, blocks B ty t ≤ (N + T * (B - 1)) / B := by
  unfold blocks
  refine le_trans (sum_div_le_div_sum _ _ _) ?_
  apply Nat.div_le_div_right
  rw [Finset.sum_add_distrib, sum_cnt, Finset.sum_const, Finset.card_univ, Fintype.card_fin]
  exact le_refl _

theorem start_add_blocks_le (t : Fin T) : start B ty t + blocks B ty t ≤ ∑ t' : Fin T, blocks B ty t' := by
  unfold start
  rw [← Finset.sum_filter_add_sum_filter_not Finset.univ (fun t' : Fin T => t' < t) (blocks B ty)]
  apply Nat.add_le_add_left
  apply Finset.single_le_sum_of_canonicallyOrdered (f := blocks B ty)
  simp

theorem start_zero (t : Fin T) (ht : t.val = 0) : start B ty t = 0 := by
  unfold start
  apply Finset.sum_eq_zero
  intro a ha
  simp only [Finset.mem_filter, Finset.mem_univ, true_and] at ha
  rw [Fin.lt_def] at ha
  omega

/-- The first block of type t, t past the first, is the running total of blocks up to the type before it. -/
theorem start_eq_sum_le_pred (t : Fin T) (ht : 0 < t.val) :
    start B ty t = ∑ t' ∈ Finset.univ.filter (fun t' : Fin T => t'.val ≤ t.val - 1), blocks B ty t' := by
  unfold start
  apply Finset.sum_congr _ (fun _ _ => rfl)
  apply Finset.filter_congr
  intro a _
  rw [Fin.lt_def]
  omega

/-- The same as a running total of the block counts shifted up by one type, zero in front. -/
theorem start_eq_sum_shift (t : Fin T) :
    start B ty t = ∑ t' ∈ Finset.univ.filter (fun t' : Fin T => t' ≤ t),
      (if h : t'.val = 0 then 0 else blocks B ty ⟨t'.val - 1, by omega⟩) := by
  unfold start
  -- the types before t, moved up by one, are the types up to t other than the first (whose term is zero)
  refine Finset.sum_bij_ne_zero
    (fun a ha _ => ⟨a.val + 1, by
      have h1 := (Finset.mem_filter.mp ha).2
      rw [Fin.lt_def] at h1
      have := t.isLt
      omega⟩) ?_ ?_ ?_ ?_
  · intro a h₁ h₂
    have h1 := (Finset.mem_filter.mp h₁).2
    rw [Fin.lt_def] at h1
    simp only [Finset.mem_filter, Finset.mem_univ, true_and, Fin.le_def]
    omega
  · intro a₁ h₁₁ h₁₂ a₂ h₂₁ h₂₂ h
    have := congrArg Fin.val h
    simp only at this
    exact Fin.ext (by omega)
  · intro b hb hb2
    have hb1 := (Finset.mem_filter.mp hb).2
    rw [Fin.le_def] at hb1
    have hb0 : b.val ≠ 0 := by
      intro h0
      exact hb2 (dif_pos h0)
    rw [dif_neg hb0] at hb2
    refine ⟨⟨b.val - 1, by have := b.isLt; omega⟩, ?_, hb2, ?_⟩
    · simp only [Finset.mem_filter, Finset.mem_univ, true_and, Fin.lt_def]
      omega
    · apply Fin.ext
      simp only
      omega
  · intro a h₁ h₂
    rw [dif_neg (Nat.succ_ne_zero _)]
    congr 1

/-- A later type starts after all of an earlier type's blocks. -/
private theorem start_add_blocks_le_start {t t' : Fin T} (h : t < t') :
    start B ty t + blocks B ty t ≤ start B ty t' := by
  unfold start
  rw [← Finset.sum_filter_add_sum_filter_not (Finset.univ.filter fun a : Fin T => a < t')
    (fun a : Fin T => a < t) (blocks B ty)]
  rw [Finset.filter_filter, Finset.filter_filter]
  have h1 : (Finset.univ.filter fun a : Fin T => a < t' ∧ a < t) = Finset.univ.filter fun a : Fin T => a < t := by
    apply Finset.filter_congr
    intro a _
    constructor
    · exact fun h' => h'.2
    · exact fun h' => ⟨lt_trans h' h, h'⟩
  rw [h1]
  apply Nat.add_le_add_left
  apply Finset.single_le_sum_of_canonicallyOrdered (f := blocks B ty)
  simp only [Finset.mem_filter, Finset.mem_univ, true_and]
  exact ⟨h, lt_irrefl t⟩

/-- The first blocks of the types grow with the type. -/
private theorem start_mono {t t' : Fin T} (h : t ≤ t') : start B ty t ≤ start B ty t' := by
  rcases lt_or_eq_of_le h with h' | h'
  · exact le_trans (Nat.le_add_right _ _) (start_add_blocks_le_start B ty h')
  · rw [h']

/-- A type's blocks hold all its rows. -/
private theorem cnt_le_blocks_mul (hB : 0 < B) (t : Fin T) : cnt ty t ≤ blocks B ty t * B := by
  unfold blocks
  have h1 := Nat.div_add_mod (cnt ty t + (B - 1)) B
  have h2 := Nat.mod_lt (cnt ty t + (B - 1)) hB
  rw [Nat.mul_comm] at h1
  omega

theorem dest_lt_range (hB : 0 < B) (n : Fin N) : dest B ty n < (start B ty (ty n) + blocks B ty (ty n)) * B := by
  unfold dest
  have h1 := one_le_cum ty n
  have h2 := cum_le_cnt ty n (ty n)
  have h3 := cnt_le_blocks_mul B ty hB (ty n)
  rw [Nat.add_mul]
  omega

theorem dest_lt_total (hB : 0 < B) (n : Fin N) : dest B ty n < ((N + T * (B - 1)) / B) * B := by
  refine lt_of_lt_of_le (dest_lt_range B ty hB n) ?_
  apply Nat.mul_le_mul_right
  exact le_trans (start_add_blocks_le B ty (ty n)) (sum_blocks_le B ty hB)

theorem dest_div (hB : 0 < B) (n : Fin N) :
    start B ty (ty n) ≤ dest B ty n / B ∧ dest B ty n / B < start B ty (ty n) + blocks B ty (ty n) := by
  constructor
  · rw [Nat.le_div_iff_mul_le hB]
    unfold dest
    exact Nat.le_add_right _ _
  · rw [Nat.div_lt_iff_lt_mul hB]
    exact dest_lt_range B ty hB n

/-- Between two rows, the later one of type t, the running count of type t grows. -/
private theorem cum_lt_cum {n m : Fin N} (h : n < m) : cum ty n (ty m) < cum ty m (ty m) := by
  unfold cum
  apply Finset.card_lt_card
  rw [Finset.ssubset_iff_of_subset]
  · refine ⟨m, by simp, ?_⟩
    simp only [Finset.mem_filter, Finset.mem_univ, true_and, not_and]
    intro h'
    exact absurd h' (not_le.mpr h)
  · intro a ha
    simp only [Finset.mem_filter, Finset.mem_univ, true_and] at ha ⊢
    exact ⟨le_trans ha.1 (le_of_lt h), ha.2⟩

theorem dest_injective (hB : 0 < B) : Function.Injective (dest B ty) := by
  intro n m h
  -- the types agree: destinations of different types lie in disjoint block ranges
  have hty : ty n = ty m := by
    by_contra hne
    rcases lt_or_gt_of_ne hne with hlt | hlt
    · have h1 := dest_lt_range B ty hB n
      have h2 := Nat.mul_le_mul_right B (start_add_blocks_le_start B ty hlt)
      have h3 : start B ty (ty m) * B ≤ dest B ty m := Nat.le_add_right _ _
      omega
    · have h1 := dest_lt_range B ty hB m
      have h2 := Nat.mul_le_mul_right B (start_add_blocks_le_start B ty hlt)
      have h3 : start B ty (ty n) * B ≤ dest B ty n := Nat.le_add_right _ _
      omega
  -- within one type the ranks agree, and the rank grows strictly along the type's rows
  have h1 := one_le_cum ty n
  have h2 := one_le_cum ty m
  unfold dest at h
  rw [hty] at h h1
  have hc : cum ty n (ty m) = cum ty m (ty m) := by omega
  rcases lt_trichotomy n m with hlt | heq | hgt
  · have := cum_lt_cum ty hlt
    omega
  · exact heq
  · have := cum_lt_cum ty hgt
    rw [hty] at this
    omega

/-- The block of row n's destination has exactly the types 0 … ty n starting at or before it. -/
theorem below_dest (hB : 0 < B) (n : Fin N) : below B ty (dest B ty n / B) = (ty n).val + 1 := by
  obtain ⟨h1, h2⟩ := dest_div B ty hB n
  unfold below
  have hset : (Finset.univ.filter fun t : Fin T => start B ty t ≤ dest B ty n / B) = Finset.Iic (ty n) := by
    ext t
    simp only [Finset.mem_filter, Finset.mem_univ, true_and, Finset.mem_Iic]
    constructor
    · intro h
      by_contra hlt
      have := start_add_blocks_le_start B ty (not_le.mp hlt)
      omega
    · intro h
      exact le_trans (start_mono B ty h) h1
  rw [hset, Fin.card_Iic]

theorem below_le (i : ℕ) : below B ty i ≤ T := by
  unfold below
  calc (Finset.univ.filter fun t : Fin T => start B ty t ≤ i).card
      ≤ (Finset.univ : Finset (Fin T)).card := Finset.card_filter_le _ _
    _ = T := by simp

theorem one_le_below (hT : 0 < T) (i : ℕ) : 1 ≤ below B ty i := by
  unfold below
  apply Finset.card_pos.mpr
  refine ⟨⟨0, hT⟩, ?_⟩
  simp only [Finset.mem_filter, Finset.mem_univ, true_and]
  rw [start_zero B ty ⟨0, hT⟩ rfl]
  exact Nat.zero_le _

/-- Counting, block by block up to block i, the types that start exactly there counts the types that start at or before i. -/
theorem sum_starts_eq_below {M : ℕ} (i : Fin M) :
    ∑ i' ∈ Finset.univ.filter (fun i' : Fin M => i' ≤ i), (Finset.univ.filter fun t : Fin T => start B ty t = i'.val).card
      = below B ty i.val := by
  unfold below
  simp only [Finset.card_filter]
  rw [Finset.sum_comm]
  apply Finset.sum_congr rfl
  intro t _
  -- a type is counted once, at the block where it starts, if that block is at or before i; else never
  by_cases h : start B ty t ≤ i.val
  · rw [if_pos h]
    have hlt : start B ty t < M := lt_of_le_of_lt h i.isLt
    rw [Finset.sum_eq_single (⟨start B ty t, hlt⟩ : Fin M)]
    · simp
    · intro b _ hb
      rw [if_neg]
      intro h'
      exact hb (Fin.ext h'.symm)
    · intro h'
      exfalso
      apply h'
      simp only [Finset.mem_filter, Finset.mem_univ, true_and, Fin.le_def]
      exact h
  · rw [if_neg h]
    apply Finset.sum_eq_zero
    intro b hb
    have hb1 := (Finset.mem_filter.mp hb).2
    rw [Fin.le_def] at hb1
    rw [if_neg]
    intro h'
    omega

end Cert.Route
-- ==== Proof.Spec.lean ====
/-
  The routed linear layer, as one function of the argument arrays: row n of the result is row n of x times the
  transposed weight matrix of row n's type, plus that type's bias.
-/
import Idealize.ShloMosaic.PureOps.Ideal
import Idealize.ShloMosaic.Lib.ValueIdx

noncomputable section

namespace Cert.Spec

open Idealize.ShloMosaic Idealize.ShloMosaic.ValueIdx

/-- A type word as a type: its value, reduced into the sixteen types (the value itself when it is one of them). -/
def fin16 (w : BitVec 32) : Fin 16 := ⟨w.toNat % 16, Nat.mod_lt _ (by decide)⟩

theorem fin16_val (w : BitVec 32) (h : w.toNat < 16) : (fin16 w).val = w.toNat := Nat.mod_eq_of_lt h

/-- Row n's type. -/
def tyOf (ty : IVec ⟨1, ![200000]⟩ 32) (n : Fin 200000) : Fin 16 := fin16 (ty (ix1 n))

/-- The block of 1024 padded rows that holds padded row p. -/
def blockOf (p : Fin 217088) : Fin 212 := ⟨p.val / 1024, by have := p.isLt; omega⟩

/-- out[n, o] = Σ_k x[n, k] · W[type n, o, k] + b[type n, o]. -/
def G (x : FVec Ideal ⟨2, ![200000, 256]⟩ .f32) (ty : IVec ⟨1, ![200000]⟩ 32) (W : FVec Ideal ⟨3, ![16, 256, 256]⟩ .f32)
    (b : FVec Ideal ⟨2, ![16, 256]⟩ .f32) : FVec Ideal ⟨2, ![200000, 256]⟩ .f32 :=
  fun j => (∑ k : Fin 256, x (ix2 (j 0) k) * W (ix3 (tyOf ty (j 0)) (j 1) k)) + b (ix2 (tyOf ty (j 0)) (j 1))

end Cert.Spec

end
-- ==== Proof.LibPrefixSum.lean ====
/-
  jnp's cumsum over one axis, as the host prints it: a `reduce_window` with an `add` body whose window is the whole
  axis and whose low padding is the axis less one. Result position p then sums the operand's positions 0 … p on that
  axis: the window at p covers padded positions p … p + n − 1, the padding (n − 1 zeros) sits in front, so exactly the
  operand's positions 0 … p fall inside it and every padded position adds the initial value, zero.

  Word sums are taken in the commutative ring of 32-bit words; `toNat_sum` reads such a sum as a sum of values when
  it does not wrap.
-/
import Mathlib.Data.BitVec
import Mathlib.Algebra.BigOperators.Group.Finset.Basic
import Idealize.ShloMosaic.PureOps
import Idealize.ShloMosaic.Lib.ValueIdx

noncomputable section

namespace Cert.PrefixSum

open Idealize.ShloMosaic Idealize.ShloMosaic.ValueIdx

/-- A sum of 32-bit words that does not wrap has the sum of the values as its value. -/
theorem toNat_sum {ι : Type} (S : Finset ι) (f : ι → BitVec 32) (hS : ∑ i ∈ S, (f i).toNat < 2 ^ 32) :
    (∑ i ∈ S, f i).toNat = ∑ i ∈ S, (f i).toNat := by
  induction S using Finset.cons_induction with
  | empty => rfl
  | cons a S ha ih =>
    rw [Finset.sum_cons] at hS
    rw [Finset.sum_cons, Finset.sum_cons, BitVec.toNat_add, ih (by omega)]
    exact Nat.mod_eq_of_lt (by omega)

/-- A left fold of word addition over a list, from any start, is the start plus the list's sum. -/
private theorem foldl_addi_list {ι : Type} (g : ι → BitVec 32) (l : List ι) (a : BitVec 32) :
    l.foldl (fun r n => IntOp.addi r (g n)) a = a + (l.map g).sum := by
  induction l generalizing a with
  | nil => simp
  | cons b l ih =>
    rw [List.foldl_cons, ih, List.map_cons, List.sum_cons, show IntOp.addi a (g b) = a + g b from rfl, add_assoc]

/-- A left fold of word addition from zero over all of `Fin K` in order is the sum over `Fin K`. -/
private theorem foldl_addi_finRange {K : Nat} (g : Fin K → BitVec 32) :
    (List.finRange K).foldl (fun r n => IntOp.addi r (g n)) 0#32 = ∑ k : Fin K, g k := by
  rw [foldl_addi_list, Fin.sum_univ_def]
  exact zero_add _

/-- The window's sum re-indexed: window position k at result position p reads operand position p + k − lo0 when that
    is not negative and adds zero otherwise; as k runs over the window these positions are exactly 0 … p. -/
private theorem window_sum {n lo0 : Nat} (hlo : lo0 + 1 = n) (g : Fin n → BitVec 32) (p : Fin n) :
    (∑ k : Fin n, if hk : lo0 ≤ p.val + k.val ∧ p.val + k.val - lo0 < n then g ⟨p.val + k.val - lo0, hk.2⟩ else 0#32)
      = ∑ q ∈ Finset.univ.filter (fun q : Fin n => q ≤ p), g q := by
  have hterm : ∀ k : Fin n,
      (if hk : lo0 ≤ p.val + k.val ∧ p.val + k.val - lo0 < n then g ⟨p.val + k.val - lo0, hk.2⟩ else 0#32)
        = if lo0 ≤ p.val + k.val then g ⟨p.val + k.val - lo0, by have := k.isLt; have := p.isLt; omega⟩
            else (0 : BitVec 32) := by
    intro k
    have hk := k.isLt
    have hp := p.isLt
    by_cases hc : lo0 ≤ p.val + k.val
    · rw [dif_pos ⟨hc, by omega⟩, if_pos hc]
    · rw [dif_neg (fun hh => hc hh.1), if_neg hc]
      rfl
  rw [Finset.sum_congr rfl (fun k _ => hterm k), ← Finset.sum_filter]
  refine Finset.sum_bij' (fun k _ => ⟨p.val + k.val - lo0, by have := k.isLt; have := p.isLt; omega⟩)
    (fun q hq => ⟨q.val + lo0 - p.val, by
      have hqp : q.val ≤ p.val := (Finset.mem_filter.mp hq).2
      have := p.isLt
      omega⟩) ?_ ?_ ?_ ?_ ?_
  · intro k hk
    simp only [Finset.mem_filter, Finset.mem_univ, true_and] at hk ⊢
    have := k.isLt
    show p.val + k.val - lo0 ≤ p.val
    omega
  · intro q hq
    simp only [Finset.mem_filter, Finset.mem_univ, true_and] at hq ⊢
    have : q.val ≤ p.val := hq
    omega
  · intro k hk
    simp only [Finset.mem_filter, Finset.mem_univ, true_and] at hk
    apply Fin.ext
    show p.val + k.val - lo0 + lo0 - p.val = k.val
    omega
  · intro q hq
    simp only [Finset.mem_filter, Finset.mem_univ, true_and] at hq
    have : q.val ≤ p.val := hq
    apply Fin.ext
    show p.val + (q.val + lo0 - p.val) - lo0 = q.val
    omega
  · intro k hk
    rfl

/-- Two dependent conditionals with the same fallback agree when their conditions are equivalent and their values
    agree whenever both conditions hold. -/
private theorem dite_eq_dite {P Q : Prop} [Decidable P] [Decidable Q] {α : Type} {f : P → α} {g : Q → α} {z : α}
    (hPQ : P ↔ Q) (hfg : ∀ (hp : P) (hq : Q), f hp = g hq) : dite P f (fun _ => z) = dite Q g (fun _ => z) := by
  by_cases hp : P
  · rw [dif_pos hp, dif_pos (hPQ.mp hp)]
    exact hfg _ _
  · rw [dif_neg hp, dif_neg (fun hq => hp (hPQ.mpr hq))]

/-- The positions of a one-axis window of extent n are the numbers below n. -/
private def win1 (n : Nat) : Fin n ≃ (⟨1, ![n]⟩ : Shape).Idx where
  toFun := ix1
  invFun := fun j => j 0
  left_inv := fun _ => rfl
  right_inv := fun j => (eq_ix1 j).symm

/-- The cumsum window along the one axis of a vector: position p holds the sum of positions 0 … p. -/
theorem cumsum_vec {n lo0 : Nat} (hlo : lo0 + 1 = n) (x : IVec ⟨1, ![n]⟩ 32) {u : Shape} (init : IVec u 32)
    (hu : 0 < u.numel) (h0 : init (Shape.Idx.first hu) = 0#32)
    (h : (⟨1, ![n]⟩ : Shape).ReduceWindows ![n] ![1] ![lo0] ![0] ⟨1, ![n]⟩) (p : Fin n) :
    Host.reduceWindow IntOp.addi ![n] ![1] ![lo0] ![0] x init h hu (ix1 p)
      = ∑ q ∈ Finset.univ.filter (fun q : Fin n => q ≤ p), x (ix1 q) := by
  unfold Host.reduceWindow
  simp only [h0]
  rw [foldl_addi_finRange, ← window_sum hlo (fun q => x (ix1 q)) p]
  symm
  refine Fintype.sum_equiv ((win1 n).trans (Shape.rowMajor ⟨1, ![n]⟩)) _ _ (fun k => ?_)
  simp only [Equiv.trans_apply, Equiv.symm_apply_apply]
  refine dite_eq_dite ?_ ?_
  · rw [Fin.forall_fin_one]
    show (lo0 ≤ p.val + k.val ∧ p.val + k.val - lo0 < n)
      ↔ (lo0 ≤ p.val * 1 + k.val ∧ p.val * 1 + k.val - lo0 < n)
    rw [Nat.mul_one]
  · intro hp hq
    congr 1
    funext a
    match a with
    | ⟨0, _⟩ =>
      apply Fin.ext
      show p.val + k.val - lo0 = p.val * 1 + k.val - lo0
      rw [Nat.mul_one]

/-- The positions of an [n × 1] window are the numbers below n, the second coordinate being zero. -/
private def win2 (n : Nat) : Fin n ≃ (⟨2, ![n, 1]⟩ : Shape).Idx where
  toFun := fun k => ix2 k (0 : Fin 1)
  invFun := fun j => j 0
  left_inv := fun _ => rfl
  right_inv := fun j => by
    funext a
    match a with
    | ⟨0, _⟩ => rfl
    | ⟨1, _⟩ =>
      apply Fin.ext
      have h1 : (j 1).val < 1 := (j 1).isLt
      show (0 : Nat) = (j 1).val
      omega

/-- The cumsum window along the FIRST axis of an [n × m] rectangle: (p, q) holds the sum of column q's rows 0 … p. -/
theorem cumsum_rows {n m lo0 : Nat} (hlo : lo0 + 1 = n) (x : IVec ⟨2, ![n, m]⟩ 32) {u : Shape} (init : IVec u 32)
    (hu : 0 < u.numel) (h0 : init (Shape.Idx.first hu) = 0#32)
    (h : (⟨2, ![n, m]⟩ : Shape).ReduceWindows ![n, 1] ![1, 1] ![lo0, 0] ![0, 0] ⟨2, ![n, m]⟩) (p : Fin n) (q : Fin m) :
    Host.reduceWindow IntOp.addi ![n, 1] ![1, 1] ![lo0, 0] ![0, 0] x init h hu (ix2 p q)
      = ∑ p' ∈ Finset.univ.filter (fun p' : Fin n => p' ≤ p), x (ix2 p' q) := by
  unfold Host.reduceWindow
  simp only [h0]
  rw [foldl_addi_finRange, ← window_sum hlo (fun p' => x (ix2 p' q)) p]
  symm
  refine Fintype.sum_equiv ((win2 n).trans (Shape.rowMajor ⟨2, ![n, 1]⟩)) _ _ (fun k => ?_)
  simp only [Equiv.trans_apply, Equiv.symm_apply_apply]
  refine dite_eq_dite ?_ ?_
  · rw [Fin.forall_fin_two]
    show (lo0 ≤ p.val + k.val ∧ p.val + k.val - lo0 < n)
      ↔ ((lo0 ≤ p.val * 1 + k.val ∧ p.val * 1 + k.val - lo0 < n) ∧ (0 ≤ q.val * 1 + 0 ∧ q.val * 1 + 0 - 0 < m))
    have := q.isLt
    constructor
    · intro hh
      refine ⟨by rw [Nat.mul_one]; exact hh, Nat.zero_le _, by omega⟩
    · intro hh
      have := hh.1
      rw [Nat.mul_one] at this
      exact this
  · intro hp hq
    congr 1
    funext a
    match a with
    | ⟨0, _⟩ =>
      apply Fin.ext
      show p.val + k.val - lo0 = p.val * 1 + k.val - lo0
      rw [Nat.mul_one]
    | ⟨1, _⟩ =>
      apply Fin.ext
      show q.val = q.val * 1 + 0 - 0
      omega

end Cert.PrefixSum

end
-- ==== Proof.LibScatterVec.lean ====
/-
  The host's scatter into a VECTOR, read at one position.

  `v.at[idx].set(u)` and `v.at[idx].add(u)` over a length-N vector with an [E × 1] column of scatter indices print as a
  `stablehlo.scatter` whose one operand axis is inserted and scatter-indexed, with no update-window axes: update e goes
  to the position its index word names, read signed; an index outside the vector drops its update. The printed fold
  takes the updates in order. Position i therefore ends
    * for SET, at update e when e is the only update whose index reads i;
    * for ADD, at its old word plus the sum of the updates whose index reads i.
  A scatter of ONE scalar update at a one-word index vector replaces the position that word names and nothing else.
  A take along the second axis of a rectangle (`take_along_axis(x, idx, axis=1)` with one index per row) reads row p at
  the column its index names, clamped into the row.
-/
import Mathlib.Data.BitVec
import Mathlib.Algebra.BigOperators.Group.Finset.Basic
import Mathlib.Algebra.BigOperators.Fin
import Idealize.ShloMosaic.PureOps
import Idealize.ShloMosaic.Lib.ValueIdx

noncomputable section

namespace Cert.ScatterVec

open Idealize.ShloMosaic Idealize.ShloMosaic.ValueIdx

/-! ## The printed fold, one update at a time -/

section Fold

variable {α : Type} {s si u : Shape} {w : Nat}

/-- One step of the printed fold: update j replaces the position it lands at by the body applied to the old element and
    the update, when it lands inside the operand; outside, it is dropped. -/
private def step (d : ScatterDims s si u) (f : α → α → α) (idx : IVec si w) (upd : u.Idx → α)
    (r : s.Idx → α) (j : u.Idx) : s.Idx → α :=
  match d.resultIdx? j idx with
  | some i => fun i' => if i' = i then f (r i) (upd j) else r i'
  | none => r

/-- The scatter is the left fold of that step over the update indices in row-major order. -/
private theorem scatter_eq_foldl (d : ScatterDims s si u) (f : α → α → α) (x : s.Idx → α) (idx : IVec si w)
    (upd : u.Idx → α) :
    Host.scatter d f x idx upd = ((List.finRange u.numel).map u.rowMajor.symm).foldl (step d f idx upd) x := by
  unfold Host.scatter
  rw [List.foldl_map]
  rfl

/-- Every update index is in the row-major list. -/
private theorem mem_updates (j : u.Idx) : j ∈ (List.finRange u.numel).map u.rowMajor.symm :=
  List.mem_map.2 ⟨u.rowMajor j, List.mem_finRange _, u.rowMajor.symm_apply_apply j⟩

/-- The step read at position p: the body's value when update j lands at p, the old element otherwise. -/
private theorem step_apply (d : ScatterDims s si u) (f : α → α → α) (idx : IVec si w) (upd : u.Idx → α)
    (r : s.Idx → α) (j : u.Idx) (p : s.Idx) :
    step d f idx upd r j p = if d.resultIdx? j idx = some p then f (r p) (upd j) else r p := by
  unfold step
  generalize d.resultIdx? j idx = o
  cases o with
  | none => exact (if_neg (Option.some_ne_none p).symm).symm
  | some i =>
    show (if p = i then f (r i) (upd j) else r p) = _
    by_cases hp : p = i
    · subst hp
      rw [if_pos rfl, if_pos rfl]
    · rw [if_neg hp, if_neg (fun h => hp (Option.some.inj h).symm)]

/-- Updates none of which lands at p leave p as it was. -/
private theorem foldl_nohit (d : ScatterDims s si u) (f : α → α → α) (idx : IVec si w) (upd : u.Idx → α) (p : s.Idx)
    (L : List u.Idx) (x : s.Idx → α) (h : ∀ j ∈ L, d.resultIdx? j idx ≠ some p) :
    L.foldl (step d f idx upd) x p = x p := by
  induction L generalizing x with
  | nil => rfl
  | cons j L ih =>
    rw [List.foldl_cons, ih _ (fun j' hj' => h j' (List.mem_cons_of_mem _ hj')), step_apply,
      if_neg (h j List.mem_cons_self)]

/-- SET: when j₀ is among the updates, lands at p, and is the only one of them that does, p ends at update j₀. -/
private theorem foldl_set_hit (d : ScatterDims s si u) (idx : IVec si w) (upd : u.Idx → α) (p : s.Idx) (j0 : u.Idx)
    (L : List u.Idx) (x : s.Idx → α) (hmem : j0 ∈ L) (hhit : d.resultIdx? j0 idx = some p)
    (huniq : ∀ j ∈ L, d.resultIdx? j idx = some p → j = j0) :
    L.foldl (step d (fun _ b => b) idx upd) x p = upd j0 := by
  induction L generalizing x with
  | nil => exact absurd hmem List.not_mem_nil
  | cons j L ih =>
    rw [List.foldl_cons]
    by_cases hL : j0 ∈ L
    · exact ih _ hL (fun j' hj' => huniq j' (List.mem_cons_of_mem _ hj'))
    · have hj : j = j0 := by
        rcases List.mem_cons.1 hmem with h | h
        · exact h.symm
        · exact absurd h hL
      subst hj
      rw [foldl_nohit d _ idx upd p L _ (fun j' hj' hh => hL (huniq j' (List.mem_cons_of_mem _ hj') hh ▸ hj')),
        step_apply, if_pos hhit]

/-- ADD in an additive monoid: p ends at its old element plus the updates that land at p, taken in the list's order. -/
private theorem foldl_add {β : Type} [AddMonoid β] (d : ScatterDims s si u) (f : β → β → β) (hf : ∀ a b, f a b = a + b)
    (idx : IVec si w) (upd : u.Idx → β) (p : s.Idx) (L : List u.Idx) (x : s.Idx → β) :
    L.foldl (step d f idx upd) x p
      = x p + (L.map fun j => if d.resultIdx? j idx = some p then upd j else 0).sum := by
  induction L generalizing x with
  | nil => simp
  | cons j L ih =>
    rw [List.foldl_cons, ih, step_apply, List.map_cons, List.sum_cons]
    split_ifs
    · rw [hf, add_assoc]
    · rw [zero_add]

end Fold

/-! ## A vector operand: where an update lands -/

section Rank1

variable {N w : Nat} {si u : Shape} (d : ScatterDims ⟨1, ![N]⟩ si u)

/-- The operand's one axis is inserted: no update has a window coordinate on it. -/
private theorem window0 (hiw : d.insertedWindowDims = [0]) (j : u.Idx) : d.window j 0 = 0 := by
  have hk : (0 : Fin 1) ∉ d.sKept := by simp [ScatterDims.sKept, Shape.kept, hiw]
  unfold ScatterDims.window
  rw [dif_neg hk]

/-- An update whose start on the one axis is the integer z, with no window coordinate, lands at position i exactly when
    z is i: inside the vector it lands at z, outside it is dropped. -/
private theorem lands_iff (idx : IVec si w) (j : u.Idx) (z : ℤ) (hs0 : d.start j idx 0 = z) (hw0 : d.window j 0 = 0)
    (i : Fin N) : d.resultIdx? j idx = some (ix1 i) ↔ z = (i.val : ℤ) := by
  unfold ScatterDims.resultIdx?
  constructor
  · intro h
    split at h
    · rename_i hr
      have hf := Option.some.inj h
      have h0 : (d.start j idx 0 + d.window j 0).toNat = i.val := congrArg Fin.val (congrFun hf 0)
      have r0 := (hr 0).1
      rw [hs0, hw0] at h0 r0
      omega
    · exact absurd h (by simp)
  · intro h0
    have hr : ∀ a, 0 ≤ d.start j idx a + d.window j a ∧
        d.start j idx a + d.window j a < (⟨1, ![N]⟩ : Shape).size a := by
      intro a
      match a with
      | ⟨0, _⟩ =>
        show 0 ≤ d.start j idx 0 + d.window j 0 ∧ d.start j idx 0 + d.window j 0 < (N : ℤ)
        rw [hs0, hw0, h0]
        have := i.isLt
        omega
    rw [dif_pos hr]
    congr 1
    funext a
    match a with
    | ⟨0, _⟩ =>
      apply Fin.ext
      show (d.start j idx 0 + d.window j 0).toNat = i.val
      rw [hs0, hw0, h0]
      omega

end Rank1

/-! ## An [E × 1] column of scatter indices, one scalar update per row -/

section Vec

variable {N E w : Nat} (d : ScatterDims ⟨1, ![N]⟩ ⟨2, ![E, 1]⟩ ⟨1, ![E]⟩)

/-- Update j lands at position i exactly when the index word of row (j 0) reads i as a signed integer. -/
private theorem vec_key (hiw : d.insertedWindowDims = [0]) (hsd : d.scatterDimsToOperandDims = [0])
    (hivd : d.indexVectorDim = 1) (idx : IVec ⟨2, ![E, 1]⟩ w) (j : (⟨1, ![E]⟩ : Shape).Idx) (i : Fin N) :
    d.resultIdx? j idx = some (ix1 i) ↔ (idx (ix2 (j 0) (0 : Fin 1))).toInt = (i.val : ℤ) := by
  refine lands_iff d idx j _ ?_ (window0 d hiw j) i
  -- the start on the one operand axis is the row's index word read signed
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun X : Fin 1 => (j X).val) (Subsingleton.elim _ _)
  | ⟨1, _⟩ =>
    unfold ScatterDims.siIdx
    rw [dif_pos (by rw [hivd])]
    apply Fin.ext
    show List.idxOf (0 : Fin 1) d.scatterDimsToOperandDims = 0
    rw [hsd]; simp

end Vec

/-- SET at pairwise-distinct targets: position i holds update e when e's index word reads i and no other update's does. -/
theorem scatter_set_hit {α : Type} {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → α) (idx : IVec ⟨2, ![E, 1]⟩ w) (upd : (⟨1, ![E]⟩ : Shape).Idx → α)
    (e : Fin E) (i : Fin N) (hi : (idx (ix2 e (0 : Fin 1))).toInt = (i.val : ℤ))
    (huniq : ∀ e' : Fin E, (idx (ix2 e' (0 : Fin 1))).toInt = (i.val : ℤ) → e' = e) :
    Host.scatter d (fun _ b => b) x idx upd (ix1 i) = upd (ix1 e) := by
  rw [scatter_eq_foldl]
  refine foldl_set_hit d idx upd (ix1 i) (ix1 e) _ x (mem_updates _) ((vec_key d hiw hsd hivd idx _ i).2 hi) ?_
  intro j _ hj
  have he : j 0 = e := huniq (j 0) ((vec_key d hiw hsd hivd idx j i).1 hj)
  exact (eq_ix1 j).trans (congrArg (fun a : Fin E => ix1 a) he)

/-- ADD of words: position i holds its old word plus the updates whose index word reads i. -/
theorem scatter_add {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : IVec ⟨1, ![N]⟩ 32) (idx : IVec ⟨2, ![E, 1]⟩ w) (upd : IVec ⟨1, ![E]⟩ 32) (i : Fin N) :
    Host.scatter d IntOp.addi x idx upd (ix1 i)
      = x (ix1 i) + ∑ e ∈ Finset.univ.filter (fun e : Fin E => (idx (ix2 e (0 : Fin 1))).toInt = (i.val : ℤ)), upd (ix1 e) := by
  rw [scatter_eq_foldl, foldl_add d IntOp.addi (fun _ _ => rfl), List.map_map, ← Fin.sum_univ_def, Finset.sum_filter]
  congr 1
  -- re-index the row-major positions of the updates by the row
  let φ : Fin (⟨1, ![E]⟩ : Shape).numel ≃ Fin E :=
    (⟨1, ![E]⟩ : Shape).rowMajor.symm.trans
      { toFun := fun j => j 0, invFun := fun a => ix1 a, left_inv := fun j => (eq_ix1 j).symm, right_inv := fun _ => rfl }
  refine Fintype.sum_equiv φ _ _ (fun n => ?_)
  have hn : (⟨1, ![E]⟩ : Shape).rowMajor.symm n = ix1 (φ n) := eq_ix1 _
  simp only [Function.comp]
  rw [hn]
  exact if_congr (vec_key d hiw hsd hivd idx _ i) rfl rfl

/-! ## One scalar update at a one-word index vector -/

section One

variable {N w : Nat} (d : ScatterDims ⟨1, ![N]⟩ ⟨1, ![1]⟩ ⟨0, ![]⟩)

/-- The one update lands at position i exactly when the index word reads i as a signed integer. -/
private theorem one_key (hiw : d.insertedWindowDims = [0]) (hsd : d.scatterDimsToOperandDims = [0])
    (hivd : d.indexVectorDim = 0) (idx : IVec ⟨1, ![1]⟩ w) (j : (⟨0, ![]⟩ : Shape).Idx) (i : Fin N) :
    d.resultIdx? j idx = some (ix1 i) ↔ (idx (ix1 (0 : Fin 1))).toInt = (i.val : ℤ) := by
  refine lands_iff d idx j _ ?_ (window0 d hiw j) i
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_pos (by rw [hivd])]
    apply Fin.ext
    show List.idxOf (0 : Fin 1) d.scatterDimsToOperandDims = 0
    rw [hsd]; simp

/-- The scalar shape has one update index. -/
private theorem updates_scalar :
    (List.finRange (⟨0, ![]⟩ : Shape).numel).map (⟨0, ![]⟩ : Shape).rowMajor.symm = [ix0] := by
  have hlen : ((List.finRange (⟨0, ![]⟩ : Shape).numel).map (⟨0, ![]⟩ : Shape).rowMajor.symm).length = 1 := by
    rw [List.length_map, List.length_finRange]
    exact Shape.numel_eq_one (fun a => a.elim0)
  obtain ⟨a, ha⟩ := List.length_eq_one_iff.1 hlen
  rw [ha, eq_ix0 a]

end One

/-- ONE scalar update at a one-word index vector: the position the word names is replaced, every other kept. -/
theorem scatter_set_one {α : Type} {N w : Nat} (d : ScatterDims ⟨1, ![N]⟩ ⟨1, ![1]⟩ ⟨0, ![]⟩)
    (huw : d.updateWindowDims = []) (hiw : d.insertedWindowDims = [0]) (hsd : d.scatterDimsToOperandDims = [0])
    (hivd : d.indexVectorDim = 0)
    (x : (⟨1, ![N]⟩ : Shape).Idx → α) (idx : IVec ⟨1, ![1]⟩ w) (upd : (⟨0, ![]⟩ : Shape).Idx → α) (i : Fin N) :
    Host.scatter d (fun _ b => b) x idx upd (ix1 i)
      = if (idx (ix1 (0 : Fin 1))).toInt = (i.val : ℤ) then upd ix0 else x (ix1 i) := by
  rw [scatter_eq_foldl, updates_scalar, List.foldl_cons, List.foldl_nil, step_apply]
  exact if_congr (one_key d hiw hsd hivd idx ix0 i) rfl rfl

/-- The take along the second axis, one index per row: result (p, 0) is the rectangle's (p, c), c the row's index word read
    signed and clamped into the row. -/
theorem gather_along_cols {α : Type} {N M w : Nat} (d : GatherDims ⟨2, ![N, M]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, M]⟩ : Shape).Idx → α) (idx : IVec ⟨3, ![N, 1, 1]⟩ w) (p : Fin N) (hM : 0 < M) :
    Host.gather d x idx (ix2 p (0 : Fin 1))
      = x (ix2 p ⟨min (idx (ix3 p (0 : Fin 1) (0 : Fin 1))).toInt.toNat (M - 1), by omega⟩) := by
  unfold Host.gather
  congr 1
  funext a
  apply Fin.ext
  -- no offset axes: both result axes are batch axes, in order; the start indices' axes but the index vector's are 0 and 1
  have hbd : d.batchDims = [0, 1] := by
    show (⟨2, ![N, 1]⟩ : Shape).kept d.offsetDims = [0, 1]
    rw [hoff]
    rfl
  have hsk : d.siKept = [0, 1] := by
    show (List.finRange 3).filter (fun b : Fin 3 => b.val ≠ d.indexVectorDim) = [0, 1]
    rw [hivd]
    rfl
  have hval : ∀ (k : Nat) (hk : k < d.batchDims.length), (d.batchDims[k]'hk).val = k := by
    intro k hk
    have : ∀ l : List (Fin 2), l = [0, 1] → ∀ hk : k < l.length, (l[k]'hk).val = k := by
      intro l hl hk
      subst hl
      match k, hk with
      | 0, _ => rfl
      | 1, _ => rfl
    exact this _ hbd hk
  have hj : ∀ (k : Nat) (hk : k < d.batchDims.length) (c : Fin 2), k = c.val →
      ((ix2 p (0 : Fin 1) : (⟨2, ![N, 1]⟩ : Shape).Idx) (d.batchDims[k]'hk)).val
        = ((ix2 p (0 : Fin 1) : (⟨2, ![N, 1]⟩ : Shape).Idx) c).val := by
    intro k hk c hkc
    have : d.batchDims[k]'hk = c := Fin.ext (by rw [hval, hkc])
    rw [this]
  -- the coordinates the result index (p, 0) gives the start indices' axes 0 and 1: p and 0
  have hc0 : ∀ (b : Fin 3) (hb : b ∈ d.siKept), b = 0 → (d.siCoord (ix2 p (0 : Fin 1)) b hb).val = p.val := by
    intro b hb h0
    subst h0
    unfold GatherDims.siCoord
    simp only [Fin.val_cast]
    exact hj _ _ 0 (by rw [hsk]; rfl)
  have hc1 : ∀ (b : Fin 3) (hb : b ∈ d.siKept), b = 1 → (d.siCoord (ix2 p (0 : Fin 1)) b hb).val = 0 := by
    intro b hb h1
    subst h1
    unfold GatherDims.siCoord
    simp only [Fin.val_cast]
    exact hj _ _ 1 (by rw [hsk]; rfl)
  match a with
  | ⟨0, _⟩ =>
    -- the row axis: a batching axis, so the batch coordinate alone, the result's row
    have hb : (0 : Fin 2) ∈ d.operandBatchingDims := by rw [hob]; exact List.mem_singleton.mpr rfl
    have hk : (0 : Fin 2) ∉ d.sKept := by rw [GatherDims.mem_sKept]; exact fun h => h.2 hb
    have hsb0 : ∀ (k : Nat) (hk : k < d.startIndicesBatchingDims.length), d.startIndicesBatchingDims[k]'hk = 0 := by
      intro k hk
      have : ∀ l : List (Fin 3), l = [0] → ∀ hk : k < l.length, l[k]'hk = 0 := by
        intro l hl hk
        subst hl
        match k, hk with
        | 0, _ => rfl
      exact this _ hsb hk
    show d.start (ix2 p (0 : Fin 1)) idx 0 + d.batchCoord (ix2 p (0 : Fin 1)) 0 + d.offCoord (ix2 p (0 : Fin 1)) 0 = p.val
    rw [GatherDims.start_batching _ _ _ _ hb, GatherDims.offCoord_eq_zero _ _ _ hk, Nat.zero_add, Nat.add_zero]
    unfold GatherDims.batchCoord
    rw [dif_pos hb]
    exact hc0 _ _ (hsb0 _ _)
  | ⟨1, _⟩ =>
    -- the column axis: start-indexed and collapsed, so the clamped start alone
    have hm : (1 : Fin 2) ∈ d.startIndexMap := by rw [hsim]; exact List.mem_singleton.mpr rfl
    have hc : (1 : Fin 2) ∈ d.collapsedSliceDims := by rw [hcoll]; exact List.mem_singleton.mpr rfl
    have hb : (1 : Fin 2) ∉ d.operandBatchingDims := by rw [hob]; simp
    have hk : (1 : Fin 2) ∉ d.sKept := by rw [GatherDims.mem_sKept]; exact fun h => h.1 hc
    have hsl : d.sliceSizes 1 = 1 := d.slice_collapsed 1 hc
    show d.start (ix2 p (0 : Fin 1)) idx 1 + d.batchCoord (ix2 p (0 : Fin 1)) 1 + d.offCoord (ix2 p (0 : Fin 1)) 1
      = min (idx (ix3 p (0 : Fin 1) (0 : Fin 1))).toInt.toNat (M - 1)
    rw [GatherDims.batchCoord_eq_zero _ _ _ hb, GatherDims.offCoord_eq_zero _ _ _ hk]
    simp only [Nat.add_zero]
    unfold GatherDims.start
    rw [dif_pos hm]
    show min (idx _).toInt.toNat (M - d.sliceSizes 1) = min (idx (ix3 p (0 : Fin 1) (0 : Fin 1))).toInt.toNat (M - 1)
    rw [hsl]
    congr 3
    congr 1
    funext b
    match b with
    | ⟨0, _⟩ =>
      unfold GatherDims.siIdx
      rw [dif_neg (by rw [hivd]; simp)]
      apply Fin.ext
      exact hc0 0 _ rfl
    | ⟨1, _⟩ =>
      unfold GatherDims.siIdx
      rw [dif_neg (by rw [hivd]; simp)]
      apply Fin.ext
      exact hc1 1 _ rfl
    | ⟨2, _⟩ =>
      unfold GatherDims.siIdx
      rw [dif_pos (by rw [hivd])]
      apply Fin.ext
      show List.idxOf (1 : Fin 2) d.startIndexMap = 0
      rw [hsim]
      simp

end Cert.ScatterVec

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.StageCounts.lean ====
/-
  The counting stages read at one element, for type words already in [0, 16).

  The one-hot compare of row n' against type t is set exactly when row n' has type t; widened and summed down the rows
  through row n it counts the rows so far of type t. A row's rank reads that count at the row's own type, less one (the
  index is in range, so the take neither clamps nor fills). The last row's counts are the totals, and (total + 1023) / 1024
  of a non-negative word is its ordinary quotient: the round-toward-−∞ correction never fires.
-/
import proofs.«408881_j53489522704783_3_alg».proof.Proof.Stages
import proofs.«408881_j53489522704783_3_alg».proof.Proof.Route
import proofs.«408881_j53489522704783_3_alg».proof.Proof.Spec
import proofs.«408881_j53489522704783_3_alg».proof.Proof.LibPrefixSum
import proofs.«408881_j53489522704783_3_alg».proof.Proof.LibScatterVec
import proofs.«408881_j53489522704783_3_alg».proof.Proof.LibRowGatherScatter
import Idealize.ShloMosaic.Lib.StableHlo.Predicate
import Idealize.ShloMosaic.Lib.ValueIdx
import Idealize.ShloMosaic.Lib.Pipeline.Value

noncomputable section

namespace Cert.KernelIdeal.Stages

open Idealize.ShloMosaic Idealize.ShloMosaic.ValueIdx Cert.KernelIdeal Cert.KernelIdeal.Facts₀ Cert.KernelIdeal.Facts

variable [Facts]

/-! ### The broadcasts of the one-hot compare, read at one element -/

/-- A vector kept as a column reads, at (n, 0), the vector at n. -/
private theorem col_apply (w : IVec S200000 32) (n : Fin 200000) :
    broadcastInDim S200000x1 ![0] bcast_S200000_S200000x1_0 w (ix2 n (0 : Fin 1)) = w (ix1 n) :=
  broadcastInDim_apply _ _ _ _ (ix1 n) fun a => by
    match a with
    | ⟨0, _⟩ => rfl

/-- A column laid across the sixteen types reads, at (n, t), the column at (n, 0). -/
private theorem colRect_apply (w : IVec S200000x1 32) (n : Fin 200000) (t : Fin 16) :
    broadcastInDim S200000x16 ![0, 1] bcast_S200000x1_S200000x16_0_1 w (ix2 n t) = w (ix2 n (0 : Fin 1)) :=
  broadcastInDim_apply _ _ _ _ (ix2 n (0 : Fin 1)) fun a => by
    match a with
    | ⟨0, _⟩ => rfl
    | ⟨1, _⟩ => rfl

/-- A vector kept as a row reads, at (0, t), the vector at t. -/
private theorem row_apply (w : IVec S16 32) (t : Fin 16) :
    broadcastInDim S1x16 ![1] bcast_S16_S1x16_1 w (ix2 (0 : Fin 1) t) = w (ix1 t) :=
  broadcastInDim_apply _ _ _ _ (ix1 t) fun a => by
    match a with
    | ⟨0, _⟩ => rfl

/-- A row laid down the rows reads, at (n, t), the row at (0, t). -/
private theorem rowRect_apply (w : IVec S1x16 32) (n : Fin 200000) (t : Fin 16) :
    broadcastInDim S200000x16 ![0, 1] bcast_S1x16_S200000x16_0_1 w (ix2 n t) = w (ix2 (0 : Fin 1) t) :=
  broadcastInDim_apply _ _ _ _ (ix2 (0 : Fin 1) t) fun a => by
    match a with
    | ⟨0, _⟩ => rfl
    | ⟨1, _⟩ => rfl

/-- A type word below sixteen is the word of type t exactly when its type is t. -/
private theorem word_eq_iff (w : BitVec 32) (hw : w.toNat < 16) (t : Fin 16) :
    w = BitVec.ofNat 32 t.val ↔ Cert.Spec.fin16 w = t := by
  have ht := t.isLt
  constructor
  · intro e
    apply Fin.ext
    rw [Cert.Spec.fin16_val w hw, e, BitVec.toNat_ofNat]
    exact Nat.mod_eq_of_lt (by omega)
  · intro e
    apply BitVec.eq_of_toNat_eq
    rw [BitVec.toNat_ofNat, Nat.mod_eq_of_lt (by omega), ← e, Cert.Spec.fin16_val w hw]

/-- The widened one-hot bit of row n' against type t: one when row n' has type t, zero otherwise. -/
private theorem onehot_toNat (v0 : IVec S200000 32) (h0 : ∀ n : Fin 200000, (v0 (ix1 n)).toNat < 16) (n' : Fin 200000) (t : Fin 16) :
    (extui 32 (cmpi .eq
        (broadcastInDim S200000x16 ![0, 1] bcast_S200000x1_S200000x16_0_1
          (broadcastInDim S200000x1 ![0] bcast_S200000_S200000x1_0 v0))
        (broadcastInDim S200000x16 ![0, 1] bcast_S1x16_S200000x16_0_1
          (broadcastInDim S1x16 ![1] bcast_S16_S1x16_1 (iotaInDim S16 32 0)))) natLt_1_32 (ix2 n' t)).toNat
      = if Cert.Spec.tyOf v0 n' = t then 1 else 0 := by
  rw [extui_apply, StableHlo.Predicate.toNat_setWidth_bit]
  show (if IntOp.cmpi .eq
      (broadcastInDim S200000x16 ![0, 1] bcast_S200000x1_S200000x16_0_1
        (broadcastInDim S200000x1 ![0] bcast_S200000_S200000x1_0 v0) (ix2 n' t))
      (broadcastInDim S200000x16 ![0, 1] bcast_S1x16_S200000x16_0_1
        (broadcastInDim S1x16 ![1] bcast_S16_S1x16_1 (iotaInDim S16 32 0)) (ix2 n' t)) = 1#1 then 1 else 0) = _
  rw [colRect_apply, col_apply, rowRect_apply, row_apply]
  have hiff : IntOp.cmpi .eq (v0 (ix1 n')) (iotaInDim S16 32 0 (ix1 t)) = 1#1 ↔ Cert.Spec.tyOf v0 n' = t := by
    rw [StableHlo.Predicate.cmpi_eq_iff]
    exact word_eq_iff _ (h0 n') t
  exact if_congr hiff rfl rfl

/-- Running count: element (n, t) is the number of rows up to n of type t. -/
theorem runCount_apply (v0 : IVec S200000 32) (h0 : ∀ n : Fin 200000, (v0 (ix1 n)).toNat < 16) (n : Fin 200000) (t : Fin 16) :
    runCount v0 (ix2 n t) = BitVec.ofNat 32 (Cert.Route.cum (Cert.Spec.tyOf v0) n t) := by
  have hcum : Cert.Route.cum (Cert.Spec.tyOf v0) n t ≤ 200000 :=
    (Cert.Route.cum_le_cnt _ n t).trans (Cert.Route.cnt_le _ t)
  unfold runCount
  refine (Cert.PrefixSum.cumsum_rows (by norm_num) _ _ _ rfl _ n t).trans ?_
  have hsum : ∑ p' ∈ Finset.univ.filter (fun p' : Fin 200000 => p' ≤ n),
      (extui 32 (cmpi .eq
        (broadcastInDim S200000x16 ![0, 1] bcast_S200000x1_S200000x16_0_1
          (broadcastInDim S200000x1 ![0] bcast_S200000_S200000x1_0 v0))
        (broadcastInDim S200000x16 ![0, 1] bcast_S1x16_S200000x16_0_1
          (broadcastInDim S1x16 ![1] bcast_S16_S1x16_1 (iotaInDim S16 32 0)))) natLt_1_32 (ix2 p' t)).toNat
      = Cert.Route.cum (Cert.Spec.tyOf v0) n t := by
    rw [Cert.Route.cum_eq_sum]
    exact Finset.sum_congr rfl fun p' _ => onehot_toNat v0 h0 p' t
  apply BitVec.eq_of_toNat_eq
  rw [Cert.PrefixSum.toNat_sum _ _ (by rw [hsum]; omega), hsum, BitVec.toNat_ofNat]
  exact (Nat.mod_eq_of_lt (by omega)).symm

/-! ### The take of a row's own count -/

private theorem subi_apply' {s : Shape} {w : Nat} (a b : IVec s w) (i : s.Idx) : subi a b i = IntOp.subi (a i) (b i) := rfl

/-- A small non-negative word is not below zero. -/
private theorem slt_zero_of_small (w : BitVec 32) (hw : w.toNat < 2 ^ 31) : IntOp.cmpi .slt w 0#32 = 0#1 :=
  eq_zero_of_ne_one fun e => Nat.not_lt_zero _ ((StableHlo.Predicate.slt_iff_toNat hw (by decide)).1 e)

/-- The wrap of a negative index (add the extent where the word is below zero) keeps a non-negative word. -/
private theorem wrap_apply (c : IVec S200000x1 32) (k : BitVec 32) (j : S200000x1.Idx) (hc : (c j).toNat < 2 ^ 31) :
    select (cmpi .slt c (broadcastInDim S200000x1 ![] bcast_S_S200000x1 (constantI S_ 32 0#32)))
      (addi c (broadcastInDim S200000x1 ![] bcast_S_S200000x1 (constantI S_ 32 k))) c j = c j := by
  rw [select_apply]
  have hb : cmpi .slt c (broadcastInDim S200000x1 ![] bcast_S_S200000x1 (constantI S_ 32 0#32)) j = 0#1 :=
    slt_zero_of_small (c j) hc
  rw [hb, select_zero]

/-- A column given two unit axes reads, at (n, 0, 0), the column at (n, 0). -/
private theorem cast3_apply {α : Type} (c : S200000x1.Idx → α) (n : Fin 200000) :
    shapeCast S200000x1x1 c shapeCasts_S200000x1_S200000x1x1 (ix3 n (0 : Fin 1) (0 : Fin 1)) = c (ix2 n (0 : Fin 1)) :=
  shapeCast_apply _ _ _ _ (by
    rw [Shape.rowMajor_val_two, Shape.rowMajor_val_three]
    show n.val * 1 + 0 = (n.val * 1 + 0) * 1 + 0
    omega)

/-- A column read as a vector reads, at n, the column at (n, 0). -/
private theorem cast1_apply {α : Type} (c : S200000x1.Idx → α) (n : Fin 200000) :
    shapeCast S200000 c shapeCasts_S200000x1_S200000 (ix1 n) = c (ix2 n (0 : Fin 1)) :=
  shapeCast_apply _ _ _ _ (by
    rw [Shape.rowMajor_val_two, Shape.rowMajor_val_one]
    show n.val * 1 + 0 = n.val
    omega)

/-- A left fold by `and` from 1 over bits that are all 1 is 1. -/
private theorem foldl_andi_one {ι : Type} (f : ι → BitVec 1) (hf : ∀ i, f i = 1#1) :
    ∀ l : List ι, l.foldl (fun r i => IntOp.andi r (f i)) 1#1 = 1#1
  | [] => rfl
  | a :: l => by
    have h11 : IntOp.andi 1#1 1#1 = 1#1 := by decide
    rw [List.foldl_cons, hf a, h11]
    exact foldl_andi_one f hf l

/-- The in-range mask of the take: every index word is one of 0 … 15, so every bit of the mask is set. -/
private theorem mask_apply (c5 : IVec S200000x1x1 32) (hc : ∀ i, (c5 i).toNat < 16) (j : S200000x1.Idx) :
    Host.reduce IntOp.andi
      (andi (cmpi .sge c5 (broadcastInDim S200000x1x1 ![] bcast_S_S200000x1x1 (constantI S_ 32 0#32)))
        (cmpi .sle c5 (broadcastInDim S200000x1x1 ![0, 1, 2] bcast_S1x1x1_S200000x1x1_0_1_2
          (broadcastInDim S1x1x1 ![2] bcast_S1_S1x1x1_2 (constantI S1 32 15#32)))))
      (constantI S_ 1 1#1) reducesTo_S200000x1x1_S200000x1_d2 h_S_ j = 1#1 := by
  rw [Host.reduce_eq_foldl]
  refine foldl_andi_one _ (fun i => ?_) _
  have hi := hc i
  show IntOp.andi (IntOp.cmpi .sge (c5 i) 0#32) (IntOp.cmpi .sle (c5 i) 15#32) = 1#1
  rw [(StableHlo.Predicate.sge_iff_toNat (by omega) (by decide)).2 (Nat.zero_le _),
    (StableHlo.Predicate.sle_iff_toNat (by omega) (by decide)).2 (show (c5 i).toNat ≤ 15 by omega)]
  decide

/-- The take's index words: the type words (none is negative), as an [N, 1, 1] array. -/
private theorem takeIdx_apply (v0 : IVec S200000 32) (h0 : ∀ n : Fin 200000, (v0 (ix1 n)).toNat < 16) (m : Fin 200000) :
    shapeCast S200000x1x1
      (select (cmpi .slt (broadcastInDim S200000x1 ![0] bcast_S200000_S200000x1_0 v0)
          (broadcastInDim S200000x1 ![] bcast_S_S200000x1 (constantI S_ 32 0#32)))
        (addi (broadcastInDim S200000x1 ![0] bcast_S200000_S200000x1_0 v0)
          (broadcastInDim S200000x1 ![] bcast_S_S200000x1 (constantI S_ 32 16#32)))
        (broadcastInDim S200000x1 ![0] bcast_S200000_S200000x1_0 v0)) shapeCasts_S200000x1_S200000x1x1
      (ix3 m (0 : Fin 1) (0 : Fin 1)) = v0 (ix1 m) := by
  rw [cast3_apply, wrap_apply _ _ _ (by rw [col_apply]; have := h0 m; omega), col_apply]

/-- Rank: row n's running count at its own type, less one. -/
theorem rankOf_apply (v0 : IVec S200000 32) (h0 : ∀ n : Fin 200000, (v0 (ix1 n)).toNat < 16) (n : Fin 200000) :
    rankOf v0 (runCount v0) (ix1 n)
      = BitVec.ofNat 32 (Cert.Route.cum (Cert.Spec.tyOf v0) n (Cert.Spec.tyOf v0 n) - 1) := by
  have hw := h0 n
  have hcum1 := Cert.Route.one_le_cum (Cert.Spec.tyOf v0) n
  have hcum : Cert.Route.cum (Cert.Spec.tyOf v0) n (Cert.Spec.tyOf v0 n) ≤ 200000 :=
    (Cert.Route.cum_le_cnt _ n _).trans (Cert.Route.cnt_le _ _)
  simp only [rankOf]
  rw [subi_apply', cast1_apply, select_apply, mask_apply]
  · rw [select_one, Cert.ScatterVec.gather_along_cols _ rfl rfl rfl rfl rfl rfl _ _ n (by norm_num)]
    simp only [takeIdx_apply v0 h0 n]
    have hcolidx : ∀ hlt : min (v0 (ix1 n)).toInt.toNat (16 - 1) < 16,
        (⟨min (v0 (ix1 n)).toInt.toNat (16 - 1), hlt⟩ : Fin 16) = Cert.Spec.tyOf v0 n := by
      intro hlt
      apply Fin.ext
      show min (v0 (ix1 n)).toInt.toNat (16 - 1) = (v0 (ix1 n)).toNat % 16
      rw [StableHlo.Predicate.toInt_eq_toNat_of_lt (by omega), Int.toNat_natCast]
      omega
    rw [hcolidx, runCount_apply v0 h0]
    exact StableHlo.Predicate.sub_one_ofNat _ hcum1 (by omega)
  · intro i
    obtain ⟨a, b, c, rfl⟩ : ∃ a b c, i = ix3 a b c := ⟨_, _, _, eq_ix3 i⟩
    obtain rfl : b = 0 := Subsingleton.elim _ _
    obtain rfl : c = 0 := Subsingleton.elim _ _
    rw [takeIdx_apply v0 h0 a]
    exact h0 a

/-! ### The block counts -/

/-- The last row of a rectangle of per-type words, as a vector: element t is the rectangle's (199999, t). -/
private theorem lastRow_apply {α : Type} (v8 : S200000x16.Idx → α) (t : Fin 16) :
    shapeCast S16 (extractStridedSlice S1x16 ![199999, 0] v8 slices_S200000x16_S1x16_199999_0) shapeCasts_S1x16_S16 (ix1 t)
      = v8 (ix2 (⟨199999, by norm_num⟩ : Fin 200000) t) := by
  rw [shapeCast_apply _ _ _ (ix2 (0 : Fin 1) t) (by
    rw [Shape.rowMajor_val_two, Shape.rowMajor_val_one]
    show 0 * 16 + t.val = t.val
    omega)]
  exact extractStridedSlice_apply _ _ _ _ _ (fun a => by
    match a with
    | ⟨0, _⟩ => rfl
    | ⟨1, _⟩ => show t.val = 0 + t.val; omega)

/-- The sign of a positive word below 2³¹ is one. -/
private theorem sign_pos (a : BitVec 32) (ha0 : 0 < a.toNat) (ha : a.toNat < 2 ^ 31) :
    (if a = 0 then (0 : BitVec 32) else if a.msb then -1 else 1) = 1 := by
  have hne : ¬ a = 0 := fun e => by rw [e] at ha0; exact absurd ha0 (by decide)
  have hm : a.msb = false := BitVec.msb_eq_false_iff_two_mul_lt.mpr (by omega)
  rw [if_neg hne, hm]
  rfl

/-- A word below 2³¹ divided by 1024, signed: no corner, both signs clear, so the quotient of the values. -/
private theorem divsi_1024 (u : ArithUnit) (a : BitVec 32) (ha : a.toNat < 2 ^ 31) :
    IntOp.divsi u a 1024#32 = BitVec.ofNat 32 (a.toNat / 1024) := by
  have hcorner : ¬ IntOp.SDivCorner a 1024#32 := by
    intro hc; rcases hc with hc | ⟨_, hc⟩ <;> exact absurd hc (by decide)
  have hm : a.msb = false := BitVec.msb_eq_false_iff_two_mul_lt.mpr (by omega)
  apply BitVec.eq_of_toNat_eq
  simp only [IntOp.divsi, if_neg hcorner, BitVec.sdiv_eq, hm, show (1024#32 : BitVec 32).msb = false from by decide, BitVec.udiv_eq,
    BitVec.toNat_udiv, BitVec.toNat_ofNat, show (1024 % 2 ^ 32 : ℕ) = 1024 from by norm_num]
  omega

/-- The division rounding toward −∞ of a positive word below 2³¹ by 1024: the two signs agree, the correction is not
    taken, and the result is the quotient of the values. -/
private theorem floordiv_apply (v17 : IVec S16 32) (t : Fin 16) (ha0 : 0 < (v17 (ix1 t)).toNat) (ha : (v17 (ix1 t)).toNat < 2 ^ 31) :
    (let f0 : IVec S_ 32 := id (constantI S_ 32 1024#32)
     let f1 : IVec S16 32 := broadcastInDim S16 ![] bcast_S_S16 f0
     let f2 : IVec S16 32 := Host.divsi v17 f1
     let f3 : IVec S16 32 := signi v17
     let f4 : IVec S_ 32 := signi f0
     let f5 : IVec S16 32 := broadcastInDim S16 ![] bcast_S_S16 f4
     let f6 : IVec S16 1 := cmpi .ne f3 f5
     let f7 : IVec S16 32 := broadcastInDim S16 ![] bcast_S_S16 f0
     let f8 : IVec S16 32 := Host.remsi v17 f7
     let f9 : IVec S16 32 := broadcastInDim S16 ![] bcast_S_S16 (constantI S_ 32 0#32)
     let f10 : IVec S16 1 := cmpi .ne f8 f9
     let f11 : IVec S16 1 := andi f6 f10
     let f12 : IVec S16 32 := broadcastInDim S16 ![] bcast_S_S16 (constantI S_ 32 1#32)
     let f13 : IVec S16 32 := subi f2 f12
     select f11 f13 f2) (ix1 t) = BitVec.ofNat 32 ((v17 (ix1 t)).toNat / 1024) := by
  show Scalar.select
      (IntOp.andi
        (IntOp.cmpi .ne (if v17 (ix1 t) = 0 then (0 : BitVec 32) else if (v17 (ix1 t)).msb then -1 else 1)
          (if (1024#32 : BitVec 32) = 0 then (0 : BitVec 32) else if (1024#32 : BitVec 32).msb then -1 else 1))
        (IntOp.cmpi .ne (IntOp.remsi .host (v17 (ix1 t)) 1024#32) 0#32))
      (IntOp.subi (IntOp.divsi .host (v17 (ix1 t)) 1024#32) 1#32)
      (IntOp.divsi .host (v17 (ix1 t)) 1024#32) = _
  have h1024 : (if (1024#32 : BitVec 32) = 0 then (0 : BitVec 32) else if (1024#32 : BitVec 32).msb then -1 else 1) = 1 := by decide
  have hne : IntOp.cmpi .ne (1 : BitVec 32) 1 = 0#1 := by decide
  rw [sign_pos _ ha0 ha, h1024, hne]
  have hand : ∀ b : BitVec 1, IntOp.andi 0#1 b = 0#1 := fun b => BitVec.zero_and
  rw [hand, select_zero]
  exact divsi_1024 _ _ ha

/-- Blocks per type: ⌈total / 1024⌉. -/
theorem blocksOf_apply (v0 : IVec S200000 32) (h0 : ∀ n : Fin 200000, (v0 (ix1 n)).toNat < 16) (t : Fin 16) :
    blocksOf (runCount v0) (ix1 t) = BitVec.ofNat 32 (Cert.Route.blocks 1024 (Cert.Spec.tyOf v0) t) := by
  have hcnt : Cert.Route.cnt (Cert.Spec.tyOf v0) t ≤ 200000 := Cert.Route.cnt_le _ t
  have hv17 : addi (shapeCast S16 (extractStridedSlice S1x16 ![199999, 0] (runCount v0) slices_S200000x16_S1x16_199999_0)
        shapeCasts_S1x16_S16) (broadcastInDim S16 ![] bcast_S_S16 (constantI S_ 32 1023#32)) (ix1 t)
      = BitVec.ofNat 32 (Cert.Route.cnt (Cert.Spec.tyOf v0) t + 1023) := by
    show IntOp.addi (shapeCast S16 (extractStridedSlice S1x16 ![199999, 0] (runCount v0) slices_S200000x16_S1x16_199999_0)
        shapeCasts_S1x16_S16 (ix1 t)) 1023#32 = _
    rw [lastRow_apply, runCount_apply v0 h0, Cert.Route.cum_last _ _ (by norm_num) t]
    exact (BitVec.ofNat_add _ _).symm
  have hval : (addi (shapeCast S16 (extractStridedSlice S1x16 ![199999, 0] (runCount v0) slices_S200000x16_S1x16_199999_0)
        shapeCasts_S1x16_S16) (broadcastInDim S16 ![] bcast_S_S16 (constantI S_ 32 1023#32)) (ix1 t)).toNat
      = Cert.Route.cnt (Cert.Spec.tyOf v0) t + 1023 := by
    rw [hv17, BitVec.toNat_ofNat]
    exact Nat.mod_eq_of_lt (by omega)
  refine (floordiv_apply _ t (by rw [hval]; omega) (by rw [hval]; omega)).trans ?_
  rw [hval]
  rfl

end Cert.KernelIdeal.Stages

end
-- ==== Proof.StageBlocks.lean ====
/-
  The per-type block tables read at one element.

  A type's first padded row is 1024 times the running total of the blocks of the types before it (the running totals
  shifted up one type, zero in front). A block's type is found by marking, for every type, the block where it starts,
  summing the marks through the block, and subtracting one: the number of types that start at or before the block, less one;
  it is then read out of the identity table 0 … 15 and clipped into [0, 15], so it is below 16 whatever the inputs.
-/
import proofs.«408881_j53489522704783_3_alg».proof.Proof.Stages
import proofs.«408881_j53489522704783_3_alg».proof.Proof.Route
import proofs.«408881_j53489522704783_3_alg».proof.Proof.Spec
import proofs.«408881_j53489522704783_3_alg».proof.Proof.LibPrefixSum
import proofs.«408881_j53489522704783_3_alg».proof.Proof.LibScatterVec
import proofs.«408881_j53489522704783_3_alg».proof.Proof.LibRowGatherScatter
import proofs.«408881_j53489522704783_3_alg».proof.Proof.StageCounts
import Idealize.ShloMosaic.Lib.StableHlo.Predicate
import Idealize.ShloMosaic.Lib.ValueIdx
import Idealize.ShloMosaic.Lib.Pipeline.Value

noncomputable section

namespace Cert.KernelIdeal.Stages

open Idealize.ShloMosaic Idealize.ShloMosaic.ValueIdx Cert.KernelIdeal Cert.KernelIdeal.Facts₀ Cert.KernelIdeal.Facts

variable [Facts]

/-- A word clipped into [0, 15], signed: the result is below 16 whatever the word. -/
private theorem clip_lt (z : BitVec 32) : (IntOp.minsi 15#32 (IntOp.maxsi 0#32 z)).toNat < 16 := by
  have h15 : (15#32 : BitVec 32).toInt = 15 := by decide
  have h0 : (0#32 : BitVec 32).toInt = 0 := by decide
  have hz := BitVec.toInt_eq_toNat_cond z
  have hlt := z.isLt
  unfold IntOp.minsi IntOp.maxsi
  by_cases hc : z.slt 0#32 = true
  · rw [if_pos hc]
    split <;> decide
  · rw [if_neg hc]
    simp only [BitVec.slt, h0, decide_eq_true_eq] at hc
    split
    · decide
    · rename_i hd
      simp only [BitVec.slt, h15, decide_eq_true_eq] at hd
      split at hz <;> omega

/-- The word of a sum of naturals is the ring sum of the words. -/
private theorem ofNat_sum {ι : Type} (S : Finset ι) (f : ι → ℕ) :
    BitVec.ofNat 32 (∑ i ∈ S, f i) = ∑ i ∈ S, BitVec.ofNat 32 (f i) := by
  induction S using Finset.cons_induction with
  | empty => rfl
  | cons a S ha ih => rw [Finset.sum_cons, Finset.sum_cons, BitVec.ofNat_add, ih]

/-- The running totals of a sixteen-entry table: entry p is the ring sum of entries 0 … p. -/
private theorem cum16_apply (w : IVec S16 32) (p : Fin 16) :
    Host.reduceWindow IntOp.addi ![16] ![1] ![15] ![0] w
      (broadcastInDim S_ ![] bcast_S_S_ (constantI S_ 32 0#32)) reduceWindows_S16_S16_w16s1p15_0 h_S_ (ix1 p)
      = ∑ q ∈ Finset.univ.filter (fun q : Fin 16 => q ≤ p), w (ix1 q) :=
  Cert.PrefixSum.cumsum_vec (by norm_num) w _ h_S_ rfl _ p

/-- One entry put in front of fifteen: entry 0 is the one, entry t > 0 is the fifteen's entry t − 1. -/
private theorem cons16_apply (a : IVec S1 32) (b : IVec S15 32) (t : Fin 16) :
    concatenate S16 0 [⟨S1, a⟩, ⟨S15, b⟩] concatenates_S1_S15_S16_d0 (ix1 t)
      = if h : t.val = 0 then a (ix1 0) else b (ix1 ⟨t.val - 1, by omega⟩) := by
  split
  · next h =>
    refine concatenate_pair_apply_left (0 : Fin 1) a b _ (ix1 t) rfl (ix1 0) (fun c => ?_)
    match c with
    | ⟨0, _⟩ => exact h.symm
  · next h =>
    refine concatenate_pair_apply_right (0 : Fin 1) a b _ (ix1 t) rfl rfl (ix1 ⟨t.val - 1, by omega⟩) (fun c hc => ?_) ?_
    · match c with
      | ⟨0, _⟩ => exact absurd rfl hc
    · show t.val - 1 + 1 = t.val
      omega

/-- The first fifteen entries of a sixteen-entry table. -/
private theorem take15_apply (w : IVec S16 32) (q : Fin 15) :
    extractStridedSlice S15 ![0] w slices_S16_S15_0 (ix1 q) = w (ix1 ⟨q.val, by omega⟩) := by
  refine extractStridedSlice_apply _ w _ (ix1 q) (ix1 ⟨q.val, by omega⟩) (fun c => ?_)
  match c with
  | ⟨0, _⟩ => show q.val = 0 + q.val; omega

/-- Group start of any block table: the running total up to the type before, times 1024; zero at the first type. -/
private theorem groupStart_read (w : IVec S16 32) (t : Fin 16) :
    groupStart w (ix1 t)
      = (if h : t.val = 0 then 0#32
          else ∑ q ∈ Finset.univ.filter (fun q : Fin 16 => q.val ≤ t.val - 1), w (ix1 q)) * 1024#32 := by
  unfold groupStart
  show IntOp.muli (concatenate S16 0 [⟨S1, _⟩, ⟨S15, _⟩] concatenates_S1_S15_S16_d0 (ix1 t)) 1024#32 = _
  rw [cons16_apply]
  show _ * 1024#32 = _
  congr 1
  split
  · rfl
  · next h =>
    rw [take15_apply, cum16_apply]
    refine Finset.sum_congr (Finset.filter_congr (fun q _ => ?_)) (fun _ _ => rfl)
    exact Fin.le_def

/-- Group start: type t's first padded row. -/
theorem groupStart_apply (v0 : IVec S200000 32) (h0 : ∀ n : Fin 200000, (v0 (ix1 n)).toNat < 16) (t : Fin 16) :
    groupStart (blocksOf (runCount v0)) (ix1 t)
      = BitVec.ofNat 32 (Cert.Route.start 1024 (Cert.Spec.tyOf v0) t * 1024) := by
  rw [groupStart_read, BitVec.ofNat_mul]
  congr 1
  split
  · next h => rw [Cert.Route.start_zero 1024 _ t h]
  · next h =>
    rw [Cert.Route.start_eq_sum_le_pred 1024 _ t (by omega), ofNat_sum]
    exact Finset.sum_congr rfl (fun q _ => blocksOf_apply v0 h0 q)

/-- A block's type word is one of the sixteen types, whatever the block counts are: the last operation clips it. -/
theorem blockType_lt (v18 : IVec S16 32) (i : Fin 212) : (blockType v18 (ix1 i)).toNat < 16 := by
  unfold blockType takeClip
  exact clip_lt _

/-- The one-update scatter of zero at position zero: entry 0 becomes zero, every other is kept. -/
private theorem zeroFront_apply (x : IVec S16 32) (i : Fin 16) :
    Host.scatter scatter_S16_S1_S__n_0_0_0 (fun _ b => b) x
        (broadcastInDim S1 ![] bcast_S_S1 (constantI S_ 32 0#32)) (constantI S_ 32 0#32) (ix1 i)
      = if i.val = 0 then 0#32 else x (ix1 i) := by
  rw [Cert.ScatterVec.scatter_set_one scatter_S16_S1_S__n_0_0_0 rfl rfl rfl rfl]
  show (if (0#32 : BitVec 32).toInt = (i.val : ℤ) then 0#32 else x (ix1 i)) = _
  have hz : (0#32 : BitVec 32).toInt = 0 := by decide
  rw [hz]
  by_cases h : i.val = 0
  · rw [if_pos h, if_pos (by omega)]
  · rw [if_neg h, if_neg (by omega)]

/-- The running total of a table shifted up one entry, zero in front. -/
private theorem startsOf_read (w : IVec S16 32) (t : Fin 16) :
    startsOf w (ix1 t)
      = ∑ t' ∈ Finset.univ.filter (fun t' : Fin 16 => t' ≤ t),
          (if h : t'.val = 0 then 0#32 else w (ix1 ⟨t'.val - 1, by omega⟩)) := by
  unfold startsOf
  rw [cum16_apply]
  refine Finset.sum_congr rfl (fun t' _ => ?_)
  rw [zeroFront_apply]
  split
  · rfl
  · next h => rw [cons16_apply, dif_neg h, take15_apply]

/-- The starts table: type t's first block. -/
private theorem startsOf_apply (v0 : IVec S200000 32) (h0 : ∀ n : Fin 200000, (v0 (ix1 n)).toNat < 16) (t : Fin 16) :
    startsOf (blocksOf (runCount v0)) (ix1 t) = BitVec.ofNat 32 (Cert.Route.start 1024 (Cert.Spec.tyOf v0) t) := by
  rw [startsOf_read, Cert.Route.start_eq_sum_shift 1024 _ t, ofNat_sum]
  refine Finset.sum_congr rfl (fun t' _ => ?_)
  split
  · rfl
  · exact blocksOf_apply v0 h0 _

/-- The marks: block i's entry counts the types whose start is i, when the starts are small naturals. -/
private theorem marksOf_apply (s : IVec S16 32) (st : Fin 16 → ℕ) (hs : ∀ e : Fin 16, s (ix1 e) = BitVec.ofNat 32 (st e))
    (hb : ∀ e : Fin 16, st e < 2 ^ 31) (i : Fin 212) :
    marksOf s (ix1 i) = BitVec.ofNat 32 (Finset.univ.filter fun e : Fin 16 => st e = i.val).card := by
  unfold marksOf
  rw [Cert.ScatterVec.scatter_add scatter_S212_S16x1_S16_n_0_0_1 rfl rfl rfl rfl]
  show 0#32 + _ = _
  rw [BitVec.zero_add, Finset.card_eq_sum_ones, ofNat_sum]
  refine Finset.sum_congr (Finset.filter_congr (fun e _ => ?_)) (fun _ _ => rfl)
  have hcol : broadcastInDim S16x1 ![0] bcast_S16_S16x1_0
      (select (cmpi .slt s (broadcastInDim S16 ![] bcast_S_S16 (constantI S_ 32 0#32)))
        (addi s (broadcastInDim S16 ![] bcast_S_S16 (constantI S_ 32 212#32))) s) (ix2 e (0 : Fin 1))
      = BitVec.ofNat 32 (st e) := by
    rw [broadcastInDim_apply _ _ _ (ix2 e (0 : Fin 1)) (ix1 e) (fun a => by
      match a with
      | ⟨0, _⟩ => rfl)]
    show Scalar.select (IntOp.cmpi .slt (s (ix1 e)) 0#32) (IntOp.addi (s (ix1 e)) 212#32) (s (ix1 e)) = _
    have hn : ¬ IntOp.cmpi .slt (s (ix1 e)) 0#32 = 1#1 := by
      rw [StableHlo.Predicate.slt_iff_toNat (by rw [hs, BitVec.toNat_ofNat]; have := hb e; omega) (by decide)]
      exact Nat.not_lt_zero _
    rw [eq_zero_of_ne_one hn, select_zero, hs]
  rw [hcol, StableHlo.Predicate.toInt_ofNat_small _ (hb e)]
  omega

/-- The marks summed through block i, less one. -/
private theorem blockIdx_read (m : IVec S212 32) (i : Fin 212) :
    blockIdx m (ix1 i) = (∑ i' ∈ Finset.univ.filter (fun i' : Fin 212 => i' ≤ i), m (ix1 i')) - 1#32 := by
  unfold blockIdx
  show IntOp.subi _ 1#32 = _
  rw [Cert.PrefixSum.cumsum_vec (by norm_num) m _ h_S_ rfl _ i]
  rfl

/-- A word already in [0, 15] is kept by the clip. -/
private theorem clip_id (z : BitVec 32) (hz : z.toNat ≤ 15) : IntOp.minsi 15#32 (IntOp.maxsi 0#32 z) = z := by
  have h15 : (15#32 : BitVec 32).toInt = 15 := by decide
  have h0 : (0#32 : BitVec 32).toInt = 0 := by decide
  have hti : z.toInt = z.toNat := StableHlo.Predicate.toInt_eq_toNat_of_lt (by omega)
  have hmax : IntOp.maxsi 0#32 z = z := by
    unfold IntOp.maxsi
    rw [if_neg]
    simp only [BitVec.slt, hti, h0, decide_eq_true_eq]
    omega
  rw [hmax]
  unfold IntOp.minsi
  rw [if_neg]
  simp only [BitVec.slt, hti, h15, decide_eq_true_eq]
  omega

/-- The two spellings of a rank-1 index by its coordinate agree. -/
private theorem ix1_eq_ofFin {n : Nat} (p : Fin n) : (ix1 p : (⟨1, ![n]⟩ : Shape).Idx) = Shape.Idx.ofFin p := by
  funext a
  match a with
  | ⟨0, _⟩ => rfl

/-- The two spellings of row p of a one-column rectangle agree. -/
private theorem ixP_eq_ix2 {n : Nat} (p : Fin n) : StableHlo.Predicate.ixP p = ix2 p (0 : Fin 1) := by
  funext a
  match a with
  | ⟨0, _⟩ => rfl
  | ⟨1, _⟩ => rfl

/-- The negative-index normalisation keeps a small natural. -/
private theorem norm212_apply (v : IVec S212 32) (i : Fin 212) (k : ℕ) (hk : k < 2 ^ 31) (h : v (ix1 i) = BitVec.ofNat 32 k) :
    select (cmpi .slt v (broadcastInDim S212 ![] bcast_S_S212 (constantI S_ 32 0#32)))
      (addi v (broadcastInDim S212 ![] bcast_S_S212 (constantI S_ 32 16#32))) v (ix1 i) = BitVec.ofNat 32 k := by
  show Scalar.select (IntOp.cmpi .slt (v (ix1 i)) 0#32) (IntOp.addi (v (ix1 i)) 16#32) (v (ix1 i)) = _
  have hn : ¬ IntOp.cmpi .slt (v (ix1 i)) 0#32 = 1#1 := by
    rw [StableHlo.Predicate.slt_iff_toNat (by rw [h, BitVec.toNat_ofNat]; omega) (by decide)]
    exact Nat.not_lt_zero _
  rw [eq_zero_of_ne_one hn, select_zero, h]

/-- A 212-entry table kept as a column reads, at (i, 0), its entry i. -/
private theorem col212_apply (v : IVec S212 32) (i : Fin 212) :
    broadcastInDim S212x1 ![0] bcast_S212_S212x1_0 v (ix2 i (0 : Fin 1)) = v (ix1 i) :=
  broadcastInDim_apply _ _ _ (ix2 i (0 : Fin 1)) (ix1 i) (fun a => by
    match a with
    | ⟨0, _⟩ => rfl)

/-- A conjunction of one-bit words that are all one is one. -/
private theorem fold_andi_one {ι : Type} (S : Finset ι) (f : ι → BitVec 1) (h : ∀ x ∈ S, f x = 1#1) :
    S.fold IntOp.andi 1#1 f = 1#1 := by
  induction S using Finset.cons_induction with
  | empty => rfl
  | cons a S ha ih =>
    rw [Finset.fold_cons, h a (Finset.mem_cons_self a S), ih (fun x hx => h x (Finset.mem_cons_of_mem hx))]
    rfl

/-- The in-range mask of the take: one where the index column holds a natural at most 15. -/
private theorem mask212_apply (c : IVec S212x1 32) (i : Fin 212) (k : ℕ) (hk : k ≤ 15)
    (h : c (ix2 i (0 : Fin 1)) = BitVec.ofNat 32 k) :
    Host.reduce IntOp.andi
      (andi (cmpi .sge c (broadcastInDim S212x1 ![] bcast_S_S212x1 (constantI S_ 32 0#32)))
        (cmpi .sle c (broadcastInDim S212x1 ![0, 1] bcast_S1x1_S212x1_0_1
          (broadcastInDim S1x1 ![1] bcast_S1_S1x1_1 (constantI S1 32 15#32)))))
      (constantI S_ 1 1#1) reducesTo_S212x1_S212_d1 h_S_ (ix1 i) = 1#1 := by
  rw [Host.reduce_eq_fold]
  refine fold_andi_one _ _ (fun x hx => ?_)
  have hd := (Finset.mem_filter.1 hx).2
  have hv : (reducesTo_S212x1_S212_d1.drop x 0 : Nat) = x 0 := Shape.ReducesTo.drop_apply_val _ x 0
  rw [hd] at hv
  have hx' : x = ix2 i (0 : Fin 1) := by
    funext a
    match a with
    | ⟨0, _⟩ => exact Fin.ext hv.symm
    | ⟨1, _⟩ => exact Subsingleton.elim (α := Fin 1) _ _
  subst hx'
  show IntOp.andi (IntOp.cmpi .sge (c (ix2 i (0 : Fin 1))) 0#32) (IntOp.cmpi .sle (c (ix2 i (0 : Fin 1))) 15#32) = 1#1
  have hlt : (c (ix2 i (0 : Fin 1))).toNat = k := by rw [h, BitVec.toNat_ofNat]; omega
  rw [(StableHlo.Predicate.sge_iff_toNat (by omega) (by decide)).2 (Nat.zero_le _),
    (StableHlo.Predicate.sle_iff_toNat (by omega) (by decide)).2 (by rw [hlt]; exact hk)]
  rfl

/-- The take of the identity table 0 … 15 at an index column holding a natural at most 15 reads that natural. -/
private theorem take212_apply (c : IVec S212x1 32) (i : Fin 212) (k : ℕ) (hk : k ≤ 15)
    (h : c (ix2 i (0 : Fin 1)) = BitVec.ofNat 32 k) :
    Host.gather gather_S16_S212x1_S212_n_0_n_n_0_1_1 (iotaInDim S16 32 0) c (ix1 i) = BitVec.ofNat 32 k := by
  rw [ix1_eq_ofFin, StableHlo.Predicate.gather_take gather_S16_S212x1_S212_n_0_n_n_0_1_1 rfl rfl rfl rfl _ c i (by norm_num)]
  show BitVec.ofNat 32 (min (c (StableHlo.Predicate.ixP i)).toInt.toNat (16 - 1)) = _
  rw [ixP_eq_ix2, h, StableHlo.Predicate.toInt_ofNat_small k (by omega), Int.toNat_natCast]
  congr 1
  omega

/-- The table read and clip at a block index that is a natural at most 15: that natural. -/
private theorem takeClip_read (v66 : IVec S212 32) (i : Fin 212) (k : ℕ) (hk : k ≤ 15) (h : v66 (ix1 i) = BitVec.ofNat 32 k) :
    takeClip v66 (ix1 i) = BitVec.ofNat 32 k := by
  have hcol : broadcastInDim S212x1 ![0] bcast_S212_S212x1_0
      (select (cmpi .slt v66 (broadcastInDim S212 ![] bcast_S_S212 (constantI S_ 32 0#32)))
        (addi v66 (broadcastInDim S212 ![] bcast_S_S212 (constantI S_ 32 16#32))) v66) (ix2 i (0 : Fin 1))
      = BitVec.ofNat 32 k := by
    rw [col212_apply, norm212_apply v66 i k (by omega) h]
  unfold takeClip
  show IntOp.minsi 15#32 (IntOp.maxsi 0#32 (Scalar.select (Host.reduce IntOp.andi _ _ _ _ (ix1 i))
    (Host.gather gather_S16_S212x1_S212_n_0_n_n_0_1_1 _ _ (ix1 i)) 2147483648#32)) = _
  rw [mask212_apply _ i k hk hcol, take212_apply _ i k hk hcol, select_one]
  exact clip_id _ (by rw [BitVec.toNat_ofNat]; omega)

/-- A block's type: the number of types starting at or before it, less one. -/
theorem blockType_apply (v0 : IVec S200000 32) (h0 : ∀ n : Fin 200000, (v0 (ix1 n)).toNat < 16) (i : Fin 212) :
    (blockType (blocksOf (runCount v0)) (ix1 i)).toNat = Cert.Route.below 1024 (Cert.Spec.tyOf v0) i.val - 1 := by
  have hb1 : 1 ≤ Cert.Route.below 1024 (Cert.Spec.tyOf v0) i.val :=
    Cert.Route.one_le_below 1024 (Cert.Spec.tyOf v0) (by norm_num) i.val
  have hb16 : Cert.Route.below 1024 (Cert.Spec.tyOf v0) i.val ≤ 16 := Cert.Route.below_le 1024 (Cert.Spec.tyOf v0) i.val
  have hstart : ∀ e : Fin 16, Cert.Route.start 1024 (Cert.Spec.tyOf v0) e < 2 ^ 31 := fun e => by
    have h1 := Cert.Route.start_add_blocks_le 1024 (Cert.Spec.tyOf v0) e
    have h2 := Cert.Route.sum_blocks_le 1024 (Cert.Spec.tyOf v0) (by norm_num)
    omega
  have hm : ∀ i' : Fin 212, marksOf (startsOf (blocksOf (runCount v0))) (ix1 i')
      = BitVec.ofNat 32 (Finset.univ.filter fun e : Fin 16 => Cert.Route.start 1024 (Cert.Spec.tyOf v0) e = i'.val).card :=
    fun i' => marksOf_apply _ _ (startsOf_apply v0 h0) hstart i'
  have hidx : blockIdx (marksOf (startsOf (blocksOf (runCount v0)))) (ix1 i)
      = BitVec.ofNat 32 (Cert.Route.below 1024 (Cert.Spec.tyOf v0) i.val - 1) := by
    rw [blockIdx_read]
    simp only [hm]
    rw [← ofNat_sum, Cert.Route.sum_starts_eq_below 1024 (Cert.Spec.tyOf v0) i]
    exact StableHlo.Predicate.sub_one_ofNat _ hb1 (by omega)
  unfold blockType
  rw [takeClip_read _ i _ (by omega) hidx, BitVec.toNat_ofNat]
  omega

end Cert.KernelIdeal.Stages

end
-- ==== Proof.StageDest.lean ====
/-
  Destinations, and the gathers through them, read at one element.

  A row's destination is its type's first padded row plus its rank; it lies below the padded total 217088 (the sixteen types
  fill at most 211 blocks of 1024 rows). The scatter of the row numbers to the destinations, which are pairwise distinct,
  leaves row n's number at row n's destination; gathering the rows of x through that table puts row n of x at its
  destination; and gathering the padded result back through the destinations reads, for row n, the padded row at its
  destination. Every index met is non-negative and in range, so no negative-index wrap and no clamp changes it.
-/
import proofs.«408881_j53489522704783_3_alg».proof.Proof.Stages
import proofs.«408881_j53489522704783_3_alg».proof.Proof.Route
import proofs.«408881_j53489522704783_3_alg».proof.Proof.Spec
import proofs.«408881_j53489522704783_3_alg».proof.Proof.LibPrefixSum
import proofs.«408881_j53489522704783_3_alg».proof.Proof.LibScatterVec
import proofs.«408881_j53489522704783_3_alg».proof.Proof.LibRowGatherScatter
import proofs.«408881_j53489522704783_3_alg».proof.Proof.StageCounts
import proofs.«408881_j53489522704783_3_alg».proof.Proof.StageBlocks
import Idealize.ShloMosaic.PureOps.Ideal
import Idealize.ShloMosaic.Lib.StableHlo.Predicate
import Idealize.ShloMosaic.Lib.ValueIdx

noncomputable section

namespace Cert.KernelIdeal.Stages

open Idealize.ShloMosaic Idealize.ShloMosaic.ValueIdx Cert.KernelIdeal Cert.KernelIdeal.Facts₀ Cert.KernelIdeal.Facts

variable [Facts]

/-! ### Words and indices -/

/-- The one-coordinate index, written either way. -/
private theorem ofFin_eq_ix1 {n : Nat} (p : Fin n) : (Shape.Idx.ofFin p : (⟨1, ![n]⟩ : Shape).Idx) = ix1 p := by
  funext a
  match a with
  | ⟨0, _⟩ => exact Fin.ext rfl

/-- Row p of a one-column rectangle, written either way. -/
private theorem ixP_eq_ix2 {n : Nat} (p : Fin n) :
    (StableHlo.Predicate.ixP p : (⟨2, ![n, 1]⟩ : Shape).Idx) = ix2 p (0 : Fin 1) := by
  funext a
  match a with
  | ⟨0, _⟩ => rfl
  | ⟨1, _⟩ => rfl

/-- A word below 2³¹ is not negative: the wrap of negative indices keeps it. -/
private theorem wrap_keep (a c : BitVec 32) (ha : a.toNat < 2 ^ 31) :
    Scalar.select (IntOp.cmpi .slt a 0#32) (IntOp.addi a c) a = a := by
  have h : ¬ IntOp.cmpi .slt a 0#32 = 1#1 := by
    intro h1
    have h2 := (StableHlo.Predicate.slt_iff_toNat ha (by decide)).mp h1
    simp at h2
  rw [eq_zero_of_ne_one h, select_zero]

/-- A vector as a one-column rectangle reads, at (p, 0), the vector at p. -/
private theorem col1_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← ixP_eq_ix2, StableHlo.Predicate.bcast_col1, ofFin_eq_ix1]

/-- A small natural number as a word has itself as its value. -/
private theorem toNat_ofNat_small (k : ℕ) (hk : k < 2 ^ 32) : (BitVec.ofNat 32 k).toNat = k := by
  rw [BitVec.toNat_ofNat]; exact Nat.mod_eq_of_lt hk

/-- A function of a rectangle's elements depends on the row through the row's number only. -/
private theorem ix2_row_congr {α : Type} {N C : Nat} (f : (⟨2, ![N, C]⟩ : Shape).Idx → α) (a b : Fin N) (q : Fin C)
    (h : a.val = b.val) : f (ix2 a q) = f (ix2 b q) := by
  rw [Fin.ext h]

/-- Every destination is a padded row. -/
theorem dest_lt (ty : Fin 200000 → Fin 16) (n : Fin 200000) : Cert.Route.dest 1024 ty n < 217088 := by
  have h := Cert.Route.dest_lt_total 1024 ty (by norm_num) n
  have e : ((200000 + 16 * (1024 - 1)) / 1024) * 1024 = 216064 := by norm_num
  omega

/-- The destination stage read at one row: the type starts read at the wrapped type word, plus the rank word. -/
private theorem destOf_eq (v0 : IVec S200000 32) (v24 : IVec S16 32) (v15 : IVec S200000 32) (n : Fin 200000) :
    destOf v0 v24 v15 (ix1 n)
      = Host.gather gather_S16_S200000x1_S200000_n_0_n_n_0_1_1 v24
          (broadcastInDim S200000x1 ![0] bcast_S200000_S200000x1_0
            (select (cmpi .slt v0 (broadcastInDim S200000 ![] bcast_S_S200000 (constantI S_ 32 0#32)))
              (addi v0 (broadcastInDim S200000 ![] bcast_S_S200000 (constantI S_ 32 16#32))) v0)) (ix1 n)
        + v15 (ix1 n) := rfl

/-- Destination: type start plus rank. -/
theorem destOf_apply (v0 : IVec S200000 32) (h0 : ∀ n : Fin 200000, (v0 (ix1 n)).toNat < 16) (n : Fin 200000) :
    destOf v0 (groupStart (blocksOf (runCount v0))) (rankOf v0 (runCount v0)) (ix1 n)
      = BitVec.ofNat 32 (Cert.Route.dest 1024 (Cert.Spec.tyOf v0) n) := by
  have hlt := h0 n
  have hty : (Cert.Spec.tyOf v0 n).val = (v0 (ix1 n)).toNat := Cert.Spec.fin16_val _ hlt
  -- the table of type starts, read at a column that holds row n's type word, gives the start of row n's type
  have hg : ∀ (tbl : IVec S16 32) (w : IVec S200000 32), w (ix1 n) = v0 (ix1 n) →
      Host.gather gather_S16_S200000x1_S200000_n_0_n_n_0_1_1 tbl
        (broadcastInDim S200000x1 ![0] bcast_S200000_S200000x1_0 w) (ix1 n) = tbl (ix1 (Cert.Spec.tyOf v0 n)) := by
    intro tbl w hw
    rw [← ofFin_eq_ix1, StableHlo.Predicate.gather_take _ rfl rfl rfl rfl _ _ _ (by norm_num), ofFin_eq_ix1]
    congr 2
    apply Fin.ext
    show min (broadcastInDim S200000x1 ![0] bcast_S200000_S200000x1_0 w (StableHlo.Predicate.ixP n)).toInt.toNat (16 - 1)
      = (Cert.Spec.tyOf v0 n).val
    rw [ixP_eq_ix2, col1_apply, hw, hty, StableHlo.Predicate.toInt_eq_toNat_of_lt (by omega), Int.toNat_natCast]
    omega
  rw [destOf_eq, hg, groupStart_apply v0 h0, rankOf_apply v0 h0, ← BitVec.ofNat_add, Cert.Route.dest]
  exact wrap_keep _ _ (by omega)

/-- The scattered table of row numbers, before the last wrap. -/
private def srcTable (v32 : IVec S200000 32) : IVec S217088 32 :=
  Host.scatter scatter_S217088_S200000x1_S200000_n_0_0_1 (fun _ b => b)
    (broadcastInDim S217088 ![] bcast_S_S217088 (constantI S_ 32 0#32))
    (broadcastInDim S200000x1 ![0] bcast_S200000_S200000x1_0
      (select (cmpi .slt v32 (broadcastInDim S200000 ![] bcast_S_S200000 (constantI S_ 32 0#32)))
        (addi v32 (broadcastInDim S200000 ![] bcast_S_S200000 (constantI S_ 32 217088#32))) v32))
    (iotaInDim S200000 32 0)

/-- The source stage read at one padded row: the scattered table's word there, wrapped. -/
private theorem srcOf_eq (v32 : IVec S200000 32) (p : S217088.Idx) :
    srcOf v32 p
      = Scalar.select (IntOp.cmpi .slt (srcTable v32 p) 0#32) (IntOp.addi (srcTable v32 p) 200000#32) (srcTable v32 p) := rfl

/-- The scattered table holds n at row n's destination: the destinations are pairwise distinct. -/
private theorem srcTable_apply (d : IVec S200000 32) (ty : Fin 200000 → Fin 16)
    (hd : ∀ n : Fin 200000, d (ix1 n) = BitVec.ofNat 32 (Cert.Route.dest 1024 ty n)) (n : Fin 200000) :
    srcTable d (ix1 ⟨Cert.Route.dest 1024 ty n, dest_lt ty n⟩) = BitVec.ofNat 32 n.val := by
  -- the index column holds, at row e, row e's destination, read signed
  have hidx : ∀ e : Fin 200000,
      ((broadcastInDim S200000x1 ![0] bcast_S200000_S200000x1_0
        (select (cmpi .slt d (broadcastInDim S200000 ![] bcast_S_S200000 (constantI S_ 32 0#32)))
          (addi d (broadcastInDim S200000 ![] bcast_S_S200000 (constantI S_ 32 217088#32))) d)) (ix2 e (0 : Fin 1))).toInt
        = (Cert.Route.dest 1024 ty e : ℤ) := by
    intro e
    have hlt := dest_lt ty e
    have hnat : (d (ix1 e)).toNat = Cert.Route.dest 1024 ty e := by rw [hd, toNat_ofNat_small _ (by omega)]
    rw [col1_apply]
    show (Scalar.select (IntOp.cmpi .slt (d (ix1 e)) 0#32) (IntOp.addi (d (ix1 e)) 217088#32) (d (ix1 e))).toInt = _
    rw [wrap_keep _ _ (by omega), StableHlo.Predicate.toInt_eq_toNat_of_lt (by omega), hnat]
  unfold srcTable
  rw [Cert.ScatterVec.scatter_set_hit _ rfl rfl rfl rfl _ _ _ n ⟨Cert.Route.dest 1024 ty n, dest_lt ty n⟩ (hidx n)]
  · rfl
  · intro e he
    rw [hidx e] at he
    exact Cert.Route.dest_injective 1024 ty (by norm_num) (by exact_mod_cast he)

/-- The source table holds n at row n's destination. -/
theorem srcOf_apply (d : IVec S200000 32) (ty : Fin 200000 → Fin 16)
    (hd : ∀ n : Fin 200000, d (ix1 n) = BitVec.ofNat 32 (Cert.Route.dest 1024 ty n)) (n : Fin 200000) :
    srcOf d (ix1 ⟨Cert.Route.dest 1024 ty n, dest_lt ty n⟩) = BitVec.ofNat 32 n.val := by
  have hn := n.isLt
  rw [srcOf_eq, srcTable_apply d ty hd n]
  exact wrap_keep _ _ (by rw [toNat_ofNat_small _ (by omega)]; omega)

/-- The padding stage read at one element: the gather of x's rows through the source table (the change of float format is
    the identity at the extended reals). -/
private theorem xPad_eq (x : FVec Ideal S200000x256 .f32) (v46 : IVec S217088 32) (j : S217088x256.Idx) :
    (xPad (F := Ideal) x v46 j : EReal)
      = Host.gather gather_S200000x256_S217088x1_S217088x256_1_0_n_n_0_1_1256 x
          (broadcastInDim S217088x1 ![0] bcast_S217088_S217088x1_0 v46) j := rfl

/-- Padded x holds row n of x at row n's destination (a change of float format is the identity at the extended reals). -/
theorem xPad_apply (x : FVec Ideal S200000x256 .f32) (d : IVec S200000 32) (ty : Fin 200000 → Fin 16)
    (hd : ∀ n : Fin 200000, d (ix1 n) = BitVec.ofNat 32 (Cert.Route.dest 1024 ty n)) (n : Fin 200000) (k : Fin 256) :
    (xPad (F := Ideal) x (srcOf d) (ix2 ⟨Cert.Route.dest 1024 ty n, dest_lt ty n⟩ k) : EReal) = x (ix2 n k) := by
  have hn := n.isLt
  rw [xPad_eq, Cert.Gcn.gather_rows _ rfl rfl rfl rfl rfl _ _ _ _ (by norm_num)]
  refine ix2_row_congr _ _ _ _ ?_
  show min ((broadcastInDim S217088x1 ![0] bcast_S217088_S217088x1_0 (srcOf d))
      (ix2 ⟨Cert.Route.dest 1024 ty n, dest_lt ty n⟩ (0 : Fin 1))).toInt.toNat (200000 - 1) = n.val
  rw [col1_apply, srcOf_apply d ty hd n, StableHlo.Predicate.toInt_ofNat_small _ (by omega), Int.toNat_natCast]
  omega

/-- The gathering-back stage read at one element: the gather of the padded rows through the wrapped destinations. -/
private theorem gatherBack_eq {F : FTy → Type} [FloatOps F] (y : FVec F S217088x256 .f32) (v32 : IVec S200000 32)
    (j : S200000x256.Idx) :
    gatherBack y v32 j
      = Host.gather gather_S217088x256_S200000x1_S200000x256_1_0_n_n_0_1_1256 y
          (broadcastInDim S200000x1 ![0] bcast_S200000_S200000x1_0
            (select (cmpi .slt v32 (broadcastInDim S200000 ![] bcast_S_S200000 (constantI S_ 32 0#32)))
              (addi v32 (broadcastInDim S200000 ![] bcast_S_S200000 (constantI S_ 32 217088#32))) v32)) j := rfl

/-- Gathering back: row n of the result is the padded row at row n's destination. -/
theorem gatherBack_apply {F : FTy → Type} [FloatOps F] (y : FVec F S217088x256 .f32) (d : IVec S200000 32) (ty : Fin 200000 → Fin 16)
    (hd : ∀ n : Fin 200000, d (ix1 n) = BitVec.ofNat 32 (Cert.Route.dest 1024 ty n)) (n : Fin 200000) (o : Fin 256) :
    gatherBack y d (ix2 n o) = y (ix2 ⟨Cert.Route.dest 1024 ty n, dest_lt ty n⟩ o) := by
  have hlt := dest_lt ty n
  have hnat : (d (ix1 n)).toNat = Cert.Route.dest 1024 ty n := by rw [hd, toNat_ofNat_small _ (by omega)]
  rw [gatherBack_eq, Cert.Gcn.gather_rows _ rfl rfl rfl rfl rfl _ _ _ _ (by norm_num)]
  refine ix2_row_congr _ _ _ _ ?_
  show min ((broadcastInDim S200000x1 ![0] bcast_S200000_S200000x1_0
      (select (cmpi .slt d (broadcastInDim S200000 ![] bcast_S_S200000 (constantI S_ 32 0#32)))
        (addi d (broadcastInDim S200000 ![] bcast_S_S200000 (constantI S_ 32 217088#32))) d))
      (ix2 n (0 : Fin 1))).toInt.toNat (217088 - 1) = Cert.Route.dest 1024 ty n
  rw [col1_apply]
  show min (Scalar.select (IntOp.cmpi .slt (d (ix1 n)) 0#32) (IntOp.addi (d (ix1 n)) 217088#32) (d (ix1 n))).toInt.toNat
      (217088 - 1) = Cert.Route.dest 1024 ty n
  rw [wrap_keep _ _ (by omega), StableHlo.Predicate.toInt_eq_toNat_of_lt (by omega), Int.toNat_natCast, hnat]
  omega

end Cert.KernelIdeal.Stages

end
-- ==== Proof.HostFacts.lean ====
/-
  From the stages to the routed linear layer.

  With every type word one of the sixteen types the clip changes nothing; row n is sent to its destination d(n), a padded
  row of its own; the padded x holds row n of x there; the block holding d(n) has row n's type, because exactly the types
  up to it start at or before that block; the transposed weights read W[t, o, k] at (t, k, o) and the bias with its unit
  axis reads b[t, o] at (t, 0, o). So a padded result whose row p is (padded x)[p] · wT[type of p's block] + b3[that type]
  gathers back, at row n, to x[n] · W[type n]ᵀ + b[type n].
-/
import proofs.«408881_j53489522704783_3_alg».proof.Proof.StageCounts
import proofs.«408881_j53489522704783_3_alg».proof.Proof.StageBlocks
import proofs.«408881_j53489522704783_3_alg».proof.Proof.StageDest
import Idealize.ShloMosaic.PureOps.Ideal
import Idealize.ShloMosaic.Lib.Pipeline.Value
import Idealize.ShloMosaic.Lib.StableHlo.Predicate

noncomputable section

namespace Cert.KernelIdeal.Stages

open Idealize.ShloMosaic Idealize.ShloMosaic.ValueIdx Cert.KernelIdeal Cert.KernelIdeal.Facts₀ Cert.KernelIdeal.Facts
open Idealize.ShloMosaic.StableHlo.Predicate (toInt_eq_toNat_of_lt)

variable [Facts]

/-- A word below sixteen is kept by the clip into [0, 15]. -/
theorem clip_word (w : BitVec 32) (hw : w.toNat < 16) : IntOp.minsi 15#32 (IntOp.maxsi 0#32 w) = w := by
  have hti : w.toInt = w.toNat := toInt_eq_toNat_of_lt (by omega)
  have h0 : (0#32 : BitVec 32).toInt = 0 := by decide
  have h15 : (15#32 : BitVec 32).toInt = 15 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h15, decide_eq_true_eq] at hc
  all_goals first | rfl | (apply BitVec.eq_of_toNat_eq; simp only [BitVec.toNat_ofNat]; omega)

/-- The clip keeps type words that are already types. -/
theorem clipTy_eq (a1 : IVec S200000 32) (h : ∀ n : Fin 200000, (a1 (ix1 n)).toNat < 16) : clipTy a1 = a1 := by
  funext i
  rw [eq_ix1 i]
  exact clip_word _ (h (i 0))

/-- The transposed weights at (t, k, o) are W at (t, o, k). -/
theorem wT_apply (W : FVec Ideal S16x256x256 .f32) (t : Fin 16) (k o : Fin 256) :
    wT (F := Ideal) W (ix3 t k o) = W (ix3 t o k) := by
  unfold wT
  rw [truncf_apply]
  exact transpose_apply _ W _ (ix3 t k o) (ix3 t o k) (fun b => by
    match b with
    | ⟨0, _⟩ => rfl
    | ⟨1, _⟩ => rfl
    | ⟨2, _⟩ => rfl)

/-- The bias with its unit axis at (t, 0, o) is b at (t, o). -/
theorem b3_apply (b : FVec Ideal S16x256 .f32) (t : Fin 16) (o : Fin 256) :
    b3 (F := Ideal) b (ix3 t (0 : Fin 1) o) = b (ix2 t o) := by
  unfold b3
  refine shapeCast_apply b _ (ix3 t (0 : Fin 1) o) (ix2 t o) ?_
  rw [Shape.rowMajor_val_two, Shape.rowMajor_val_three]
  show t.val * 256 + o.val = (t.val * 1 + 0) * 256 + o.val
  omega

/-- The routed layer: a padded result that is, row by row, padded x times the block's transposed weights plus the block's
    bias, gathered back through the destinations, is the routed linear layer. -/
theorem routed (x : FVec Ideal S200000x256 .f32) (a1 : IVec S200000 32) (W : FVec Ideal S16x256x256 .f32)
    (b : FVec Ideal S16x256 .f32) (h : ∀ n : Fin 200000, (a1 (ix1 n)).toNat < 16)
    (y : FVec Ideal S217088x256 .f32)
    (hy : ∀ (p : Fin 217088) (o : Fin 256), y (ix2 p o)
        = (∑ k : Fin 256, xPad (F := Ideal) x (srcOf (destAll a1)) (ix2 p k)
              * wT (F := Ideal) W (ix3 (Cert.Spec.fin16 (blockTypeAll a1 (ix1 (Cert.Spec.blockOf p)))) k o))
          + b3 (F := Ideal) b (ix3 (Cert.Spec.fin16 (blockTypeAll a1 (ix1 (Cert.Spec.blockOf p)))) (0 : Fin 1) o)) :
    gatherBack (F := Ideal) y (destAll a1) = Cert.Spec.G x a1 W b := by
  have hc : clipTy a1 = a1 := clipTy_eq a1 h
  have hd : ∀ n : Fin 200000, destAll a1 (ix1 n) = BitVec.ofNat 32 (Cert.Route.dest 1024 (Cert.Spec.tyOf a1) n) := by
    intro n
    unfold destAll
    simp only [hc]
    exact destOf_apply a1 h n
  funext j
  obtain ⟨n, o, rfl⟩ : ∃ (n : Fin 200000) (o : Fin 256), j = ix2 n o := ⟨j 0, j 1, eq_ix2 j⟩
  rw [gatherBack_apply y (destAll a1) (Cert.Spec.tyOf a1) hd n o, hy]
  -- the block of row n's destination has row n's type
  have hblk : Cert.Spec.fin16 (blockTypeAll a1 (ix1 (Cert.Spec.blockOf ⟨Cert.Route.dest 1024 (Cert.Spec.tyOf a1) n, dest_lt _ n⟩)))
      = Cert.Spec.tyOf a1 n := by
    apply Fin.ext
    have hlt := blockType_lt (blocksOf (runCount a1)) (Cert.Spec.blockOf ⟨Cert.Route.dest 1024 (Cert.Spec.tyOf a1) n, dest_lt _ n⟩)
    have hval := blockType_apply a1 h (Cert.Spec.blockOf ⟨Cert.Route.dest 1024 (Cert.Spec.tyOf a1) n, dest_lt _ n⟩)
    have hbelow := Cert.Route.below_dest 1024 (Cert.Spec.tyOf a1) (by decide : 0 < 1024) n
    unfold blockTypeAll
    simp only [hc]
    rw [Cert.Spec.fin16_val _ hlt, hval]
    show Cert.Route.below 1024 (Cert.Spec.tyOf a1) (Cert.Route.dest 1024 (Cert.Spec.tyOf a1) n / 1024) - 1 = _
    rw [hbelow]
    omega
  rw [hblk]
  unfold Cert.Spec.G
  show _ = (∑ k : Fin 256, x (ix2 n k) * W (ix3 (Cert.Spec.tyOf a1 n) o k)) + b (ix2 (Cert.Spec.tyOf a1 n) o)
  rw [b3_apply]
  congr 1
  refine Finset.sum_congr rfl (fun k _ => ?_)
  rw [xPad_apply x (destAll a1) (Cert.Spec.tyOf a1) hd n k, wT_apply]

end Cert.KernelIdeal.Stages

end
-- ==== Proof.Region.lean ====
/-
  The region's value: what the padded result array holds after the pallas_call, read at one element.

  Grid point i stages block i of the padded rows (1024 rows by 256), the weight matrix and the bias row of the type the
  block-type table names for block i, and stores rows · weights + bias (the bias row laid along the rows) into block i
  of the result. The blocks tile the padded result, so padded row p, column o ends at
      Σ_k xpad[p, k] · wT[type of block p / 1024, k, o] + b3[type of block p / 1024, 0, o].
-/
import proofs.«408881_j53489522704783_3_alg».proof.Proof.Gen.KernelIdeal.Frame
import proofs.«408881_j53489522704783_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The type the block-type table names for block i. -/
def btOf (i : Fin 212) : Fin 16 := Cert.Spec.fin16 ((tbl m 0 : S212.Idx → BitVec 32) (ix1 i))

/-- The padded rows of x, the transposed weights, the bias with its unit axis, as the region finds them; the padded result
    after the region: each at its literal type over the extended reals. -/
abbrev xpA (c : Dev nD) : S217088x256.Idx → EReal := V m c main_v49
abbrev wtA (c : Dev nD) : S16x256x256.Idx → EReal := V m c main_v70
abbrev b3A (c : Dev nD) : S16x1x256.Idx → EReal := V m c main_v71
abbrev outA (hO : Ok m) (c : Dev nD) : S217088x256.Idx → EReal := (dats m hO 0 c).arrAt 3 (cfgM m hO).N

private theorem hz : (![0, 0] : Fin 2 → Nat) = fun _ => 0 := funext fun a => by fin_cases a <;> rfl
private theorem hz3 : (![0, 0, 0] : Fin 3 → Nat) = fun _ => 0 := funext fun a => by fin_cases a <;> rfl

section Piece
variable {F : FTy → Type} [FloatOps F]

/-- The body's one store covers the staging block, so the block the body leaves is the payload of the loaded blocks. -/
private theorem piece_eq (c : Dev nD) (i : grid0.Coords) (arg2 : Memref sig .tc .vmem S1024x256 .bf16) (harg2 : arg2.IsWhole)
    (arg3 : Memref sig .tc .vmem S1x256x256 .bf16) (harg3 : arg3.IsWhole) (arg4 : Memref sig .tc .vmem S1x1x256 .f32) (harg4 : arg4.IsWhole)
    (arg5 : Memref sig .tc .vmem S1024x256 .f32) (harg5 : arg5.IsWhole)
    (x0 : Vec F S1024x256 .bf16) (x1 : Vec F S1x256x256 .bf16) (x2 : Vec F S1x1x256 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  rw [View.canon_unit_zero hz]
  simp only [View.readAt_eq_ld, harg2.read_unread, harg3.read_unread, harg4.read_unread,
    View.ld_unit_zero (S := S1024x256) hz, View.ld_unit_zero (S := S1x256x256) hz3, View.ld_unit_zero (S := S1x1x256) hz3]

end Piece

section Payload

/-- The block product's dimension numbers: rows by the contraction, the contraction by columns. -/
private abbrev DD : DotDims S1024x256 S256x256 S1024x256 := dot_S1024x256_S256x256_S1024x256_1_0_0_1_n_n

private theorem DD_rank : DD.contr.rank = 1 := rfl
private theorem DD_size : DD.contr.size ⟨0, by rw [DD_rank]; exact Nat.one_pos⟩ = 256 := rfl

/-- The left operand's row is the result's row. -/
private theorem DD_lhs0 (j : S1024x256.Idx) (q : DD.contr.Idx) : (DD.lhsIdx j q (0 : Fin 2)).val = (j 0).val := by
  simp [DotDims.lhsIdx, DD, dot_S1024x256_S256x256_S1024x256_1_0_0_1_n_n]; rfl
/-- The left operand's column is the contraction position. -/
private theorem DD_lhs1 (j : S1024x256.Idx) (q : DD.contr.Idx) : (DD.lhsIdx j q (1 : Fin 2)).val = (q ⟨0, by rw [DD_rank]; exact Nat.one_pos⟩).val :=
  DD.lhsIdx_val_of_single (cl := (1 : Fin 2)) rfl j q
/-- The right operand's row is the contraction position. -/
private theorem DD_rhs0 (j : S1024x256.Idx) (q : DD.contr.Idx) : (DD.rhsIdx j q (0 : Fin 2)).val = (q ⟨0, by rw [DD_rank]; exact Nat.one_pos⟩).val :=
  DD.rhsIdx_val_of_single (cr := (0 : Fin 2)) rfl j q
/-- The right operand's column is the result's column. -/
private theorem DD_rhs1 (j : S1024x256.Idx) (q : DD.contr.Idx) : (DD.rhsIdx j q (1 : Fin 2)).val = (j 1).val := by
  simp [DotDims.rhsIdx, DD, dot_S1024x256_S256x256_S1024x256_1_0_0_1_n_n]; rfl

/-- The payload at an element: the row of the rows block times the column of the weight block, plus the bias entry. -/
private theorem pay_apply (x0 : S1024x256.Idx → EReal) (x1 : S1x256x256.Idx → EReal) (x2 : S1x1x256.Idx → EReal)
    (r : Fin 1024) (o : Fin 256) :
    k0_pay1 (F := Ideal) x0 x1 x2 (ix2 r o)
      = (∑ k : Fin 256, x0 (ix2 r k) * x1 (ix3 (0 : Fin 1) k o)) + x2 (ix3 (0 : Fin 1) (0 : Fin 1) o) := by
  unfold k0_pay1
  rw [addf_apply, broadcastTo_1b_ab_apply, shapeCast_a_1a_apply, shapeCast_1a_a_apply, shapeCast_1ab_ab_apply, shapeCast_self]
  simp only [matmul]
  rw [Ideal.matmul_constant_zero_apply, ← Equiv.sum_comp (contrEquiv1 DD 256 DD_rank DD_size).symm]
  refine congrArg (· + _) (Finset.sum_congr rfl fun k _ => ?_)
  have hl : DD.lhsIdx (ix2 r o) ((contrEquiv1 DD 256 DD_rank DD_size).symm k) = ix2 r k := by
    funext a; apply Fin.ext
    match a with
    | ⟨0, _⟩ => exact DD_lhs0 _ _
    | ⟨1, _⟩ => exact (DD_lhs1 _ _).trans (contrEquiv1_symm_val DD 256 DD_rank DD_size k)
  have hr : DD.rhsIdx (ix2 r o) ((contrEquiv1 DD 256 DD_rank DD_size).symm k) = ix2 k o := by
    funext a; apply Fin.ext
    match a with
    | ⟨0, _⟩ => exact (DD_rhs0 _ _).trans (contrEquiv1_symm_val DD 256 DD_rank DD_size k)
    | ⟨1, _⟩ => exact DD_rhs1 _ _
  rw [hl, hr, shapeCast_1ab_ab_apply]

end Payload

section Index

/-- Over the 212 grid points: the point's one coordinate is its number, and the rows' and the result's block index is
    (the point, 0). -/
private theorem idx_facts : ∀ t : Fin grid0.N, (grid0.coords t (0 : Fin 1)).val = t.val
    ∧ cc0_transform_0 (grid0.coords t) (0 : Fin 2) = t.val ∧ cc0_transform_0 (grid0.coords t) (1 : Fin 2) = 0
    ∧ cc0_transform_3 (grid0.coords t) (0 : Fin 2) = t.val ∧ cc0_transform_3 (grid0.coords t) (1 : Fin 2) = 0 := by
  decide +kernel

/-- The word of the block-type table a scalar load at offset (the coordinate) reads is the table's entry there. -/
private theorem table_at (pf : pre0.Contents (Elt Ideal)) (i : grid0.Coords)
    (inb : ∀ a, (![(Scalar.indexCast (BitVec.ofNat 32 (i 0).val)).toNat] : Fin 1 → Nat) a + S1.size a ≤ S212.size a) (h1 : S1.numel = 1) :
    pf.at 0 (Rect.unit (s := S212) ![(Scalar.indexCast (BitVec.ofNat 32 (i 0).val)).toNat] S1.size inb) h1
      = (pf 0 : S212.Idx → BitVec 32) (ix1 (i 0)) := by
  show (pf 0 : S212.Idx → BitVec 32) _ = _
  congr 1
  funext a
  apply Fin.ext
  match a with
  | ⟨0, _⟩ =>
    show (BitVec.ofNat 32 (i 0).val).toNat + 1 * 0 = (i 0).val
    have h : (i 0).val < 212 := (i 0).isLt
    rw [BitVec.toNat_ofNat, Nat.mod_eq_of_lt (by omega)]; omega

/-- The weights' block index at a grid point is (the table's word there, 0, 0). -/
private theorem tr1_eq (pf : pre0.Contents (Elt Ideal)) (i : grid0.Coords) :
    cc0_transform_1 k0_off1_inb numel1_S1 pf i (0 : Fin 3) = ((pf 0 : S212.Idx → BitVec 32) (ix1 (i 0))).toNat
    ∧ cc0_transform_1 k0_off1_inb numel1_S1 pf i (1 : Fin 3) = 0 ∧ cc0_transform_1 k0_off1_inb numel1_S1 pf i (2 : Fin 3) = 0 := by
  refine ⟨?_, rfl, rfl⟩
  exact congrArg BitVec.toNat (table_at pf i _ _)

/-- The bias's block index at a grid point is (the table's word there, 0, 0). -/
private theorem tr2_eq (pf : pre0.Contents (Elt Ideal)) (i : grid0.Coords) :
    cc0_transform_2 k0_off1_inb numel1_S1 pf i (0 : Fin 3) = ((pf 0 : S212.Idx → BitVec 32) (ix1 (i 0))).toNat
    ∧ cc0_transform_2 k0_off1_inb numel1_S1 pf i (1 : Fin 3) = 0 ∧ cc0_transform_2 k0_off1_inb numel1_S1 pf i (2 : Fin 3) = 0 := by
  refine ⟨?_, rfl, rfl⟩
  exact congrArg BitVec.toNat (table_at pf i _ _)

end Index

section Blocks

/-- The one-coordinate grid point of a block number. -/
private def crd (b : Fin 212) : grid0.Coords := fun a => match a with | ⟨0, _⟩ => b

/-- The grid point's coordinate is the block number. -/
private theorem coords_eq (t : Fin grid0.N) (b : Fin 212) (hb : b.val = t.val) : grid0.coords t (0 : Fin 1) = b :=
  Fin.ext ((idx_facts t).1.trans hb.symm)

/-! Each window's block at a point, read off ANY contents of its array, at any admissible table. -/

/-- Rows: block t at (r, k) is the array at (1024 t + r, k). -/
private theorem blk0_read (pf : pre0.Contents (Elt Ideal)) (h : ok0 pf) (t : Fin (cfg0 ⟨pf, h⟩).N) (X : S217088x256.Idx → EReal) (r : Fin 1024) (k : Fin 256)
    (p : Fin 217088) (hp : p.val = t.val * 1024 + r.val) :
    (((cfg0 ⟨pf, h⟩).win 0).blk t).view.read (Elt Ideal) X (ix2 r k) = X (ix2 p k) := by
  show X _ = X _
  congr 1
  funext ax; apply Fin.ext
  match ax with
  | ⟨0, _⟩ =>
    show cc0_transform_0 (grid0.coords t) (0 : Fin 2) * 1024 + 1 * r.val = p.val
    rw [(idx_facts t).2.1, hp]; omega
  | ⟨1, _⟩ =>
    show cc0_transform_0 (grid0.coords t) (1 : Fin 2) * 256 + 1 * k.val = k.val
    rw [(idx_facts t).2.2.1]; omega

/-- Result: block t at (r, o) is the array at (1024 t + r, o). -/
private theorem blk3_read (pf : pre0.Contents (Elt Ideal)) (h : ok0 pf) (t : Fin (cfg0 ⟨pf, h⟩).N) (X : S217088x256.Idx → EReal) (r : Fin 1024) (o : Fin 256)
    (p : Fin 217088) (hp : p.val = t.val * 1024 + r.val) :
    (((cfg0 ⟨pf, h⟩).win 3).blk t).view.read (Elt Ideal) X (ix2 r o) = X (ix2 p o) := by
  show X _ = X _
  congr 1
  funext ax; apply Fin.ext
  match ax with
  | ⟨0, _⟩ =>
    show cc0_transform_3 (grid0.coords t) (0 : Fin 2) * 1024 + 1 * r.val = p.val
    rw [(idx_facts t).2.2.2.1, hp]; omega
  | ⟨1, _⟩ =>
    show cc0_transform_3 (grid0.coords t) (1 : Fin 2) * 256 + 1 * o.val = o.val
    rw [(idx_facts t).2.2.2.2]; omega

/-- Weights: block t at (0, k, o) is the array at (the table's word at t, k, o). -/
private theorem blk1_read (pf : pre0.Contents (Elt Ideal)) (h : ok0 pf) (t : Fin (cfg0 ⟨pf, h⟩).N) (X : S16x256x256.Idx → EReal) (k : Fin 256) (o : Fin 256)
    (y : Fin 16) (b : Fin 212) (hb : b.val = t.val) (hy : y.val = ((pf 0 : S212.Idx → BitVec 32) (ix1 b)).toNat) :
    (((cfg0 ⟨pf, h⟩).win 1).blk t).view.read (Elt Ideal) X (ix3 (0 : Fin 1) k o) = X (ix3 y k o) := by
  show X _ = X _
  congr 1
  funext ax; apply Fin.ext
  obtain ⟨e0, e1, e2⟩ := tr1_eq pf (grid0.coords t)
  rw [coords_eq t b hb] at e0
  match ax with
  | ⟨0, _⟩ =>
    show cc0_transform_1 k0_off1_inb numel1_S1 pf (grid0.coords t) (0 : Fin 3) * 1 + 1 * 0 = y.val
    rw [e0, hy]; omega
  | ⟨1, _⟩ =>
    show cc0_transform_1 k0_off1_inb numel1_S1 pf (grid0.coords t) (1 : Fin 3) * 256 + 1 * k.val = k.val
    rw [e1]; omega
  | ⟨2, _⟩ =>
    show cc0_transform_1 k0_off1_inb numel1_S1 pf (grid0.coords t) (2 : Fin 3) * 256 + 1 * o.val = o.val
    rw [e2]; omega

/-- Bias: block t at (0, 0, o) is the array at (the table's word at t, 0, o). -/
private theorem blk2_read (pf : pre0.Contents (Elt Ideal)) (h : ok0 pf) (t : Fin (cfg0 ⟨pf, h⟩).N) (X : S16x1x256.Idx → EReal) (o : Fin 256)
    (y : Fin 16) (b : Fin 212) (hb : b.val = t.val) (hy : y.val = ((pf 0 : S212.Idx → BitVec 32) (ix1 b)).toNat) :
    (((cfg0 ⟨pf, h⟩).win 2).blk t).view.read (Elt Ideal) X (ix3 (0 : Fin 1) (0 : Fin 1) o) = X (ix3 y (0 : Fin 1) o) := by
  show X _ = X _
  congr 1
  funext ax; apply Fin.ext
  obtain ⟨e0, e1, e2⟩ := tr2_eq pf (grid0.coords t)
  rw [coords_eq t b hb] at e0
  match ax with
  | ⟨0, _⟩ =>
    show cc0_transform_2 k0_off1_inb numel1_S1 pf (grid0.coords t) (0 : Fin 3) * 1 + 1 * 0 = y.val
    rw [e0, hy]; omega
  | ⟨1, _⟩ =>
    show cc0_transform_2 k0_off1_inb numel1_S1 pf (grid0.coords t) (1 : Fin 3) * 1 + 1 * 0 = 0
    rw [e1]
  | ⟨2, _⟩ =>
    show cc0_transform_2 k0_off1_inb numel1_S1 pf (grid0.coords t) (2 : Fin 3) * 256 + 1 * o.val = o.val
    rw [e2]; omega

end Blocks

section Words

/-- Under the side condition every word of the block-type table is one of the sixteen types. -/
private theorem word_lt (hO : Ok m) (b : Fin 212) : ((tbl m 0 : S212.Idx → BitVec 32) (ix1 b)).toNat < 16 := by
  obtain ⟨h, -⟩ := hO.1 (crd b)
  have h0 : (cc0_transform_1 k0_off1_inb numel1_S1 (tbl m) (crd b) (0 : Fin 3) + 1) * 1 ≤ 16 := h 0
  rw [(tr1_eq (tbl m) (crd b)).1] at h0
  have e : ((tbl m 0 : S212.Idx → BitVec 32) (ix1 (crd b 0))).toNat = ((tbl m 0 : S212.Idx → BitVec 32) (ix1 b)).toNat := rfl
  omega

/-- So the type named for block b is that word. -/
private theorem btOf_val (hO : Ok m) (b : Fin 212) : (btOf m b).val = ((tbl m 0 : S212.Idx → BitVec 32) (ix1 b)).toNat :=
  Cert.Spec.fin16_val _ (word_lt m hO b)

end Words

section IBlocks

/-- The rows block at point t, at (r, k), is padded row 1024 t + r, column k. -/
private theorem iblk0_apply (hO : Ok m) (c : Dev nD) (t : Fin (cfgM m hO).N) (r : Fin 1024) (k : Fin 256) (p : Fin 217088)
    (hp : p.val = t.val * 1024 + r.val) :
    (iblk m hO c 0 t : S1024x256.Idx → EReal) (ix2 r k) = xpA m c (ix2 p k) := by
  unfold iblk
  exact blk0_read (tbl m) hO t (V m c main_v49) r k p hp

/-- The weight block at point t, at (0, k, o), is the weights of block t's type at (k, o). -/
private theorem iblk1_apply (hO : Ok m) (c : Dev nD) (t : Fin (cfgM m hO).N) (k : Fin 256) (o : Fin 256) (b : Fin 212) (hb : b.val = t.val) :
    (iblk m hO c 1 t : S1x256x256.Idx → EReal) (ix3 (0 : Fin 1) k o) = wtA m c (ix3 (btOf m b) k o) := by
  have hy := btOf_val m hO b
  unfold iblk
  exact blk1_read (tbl m) hO t (V m c main_v70) k o (btOf m b) b hb hy

/-- The bias block at point t, at (0, 0, o), is the bias of block t's type at o. -/
private theorem iblk2_apply (hO : Ok m) (c : Dev nD) (t : Fin (cfgM m hO).N) (o : Fin 256) (b : Fin 212) (hb : b.val = t.val) :
    (iblk m hO c 2 t : S1x1x256.Idx → EReal) (ix3 (0 : Fin 1) (0 : Fin 1) o) = b3A m c (ix3 (btOf m b) (0 : Fin 1) o) := by
  have hy := btOf_val m hO b
  unfold iblk
  exact blk2_read (tbl m) hO t (V m c main_v71) o (btOf m b) b hb hy

end IBlocks

section Flushed

/-- The padded result as one function of the arrays the region finds. -/
private def Gf (c : Dev nD) : S217088x256.Idx → EReal := fun i =>
  (∑ k : Fin 256, xpA m c (ix2 (i 0) k) * wtA m c (ix3 (btOf m (Cert.Spec.blockOf (i 0))) k (i 1)))
    + b3A m c (ix3 (btOf m (Cert.Spec.blockOf (i 0))) (0 : Fin 1) (i 1))

/-- What the body leaves at point t is the payload of the three blocks fetched there. -/
private theorem outsAt_eq (hO : Ok m) (c : Dev nD) (t : Fin (cfgM m hO).N) :
    outsAt0 m hO c t = k0_pay1 (F := Ideal) (iblk m hO c 0 t) (iblk m hO c 1 t) (iblk m hO c 2 t) :=
  piece_eq c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)

/-- What point t writes back is block t of that function. -/
private theorem flushed_eq (hO : Ok m) (c : Dev nD) (t : Fin (cfgM m hO).N) (hf : ((cfgM m hO).win 3).flush t = true) :
    (dats m hO 0 c).flushed 3 t = (((cfgM m hO).win 3).blk t).view.read (Elt Ideal) (Gf m c) := by
  show ((cfgM m hO).win 3).cut ((cfgM m hO).grid.coords t) ((dats m hO 0 c).after 3 t) = _
  rw [after0_3, outsAt_eq]
  show (k0_pay1 (F := Ideal) (iblk m hO c 0 t) (iblk m hO c 1 t) (iblk m hO c 2 t) : S1024x256.Idx → EReal) = _
  funext j
  obtain ⟨r, o, rfl⟩ : ∃ r o, j = ix2 r o := ⟨j 0, j 1, eq_ix2 j⟩
  have hN : t.val < 212 := t.isLt.trans_eq N_0
  have hr : r.val < 1024 := r.isLt
  let p : Fin 217088 := ⟨t.val * 1024 + r.val, by omega⟩
  have hp : p.val = t.val * 1024 + r.val := rfl
  have hb : (Cert.Spec.blockOf p).val = t.val := by
    show (t.val * 1024 + r.val) / 1024 = t.val
    omega
  refine (pay_apply (iblk m hO c 0 t) (iblk m hO c 1 t) (iblk m hO c 2 t) r o).trans ?_
  refine Eq.trans ?_ (blk3_read (tbl m) hO t (Gf m c) r o p hp).symm
  show _ = (∑ k : Fin 256, xpA m c (ix2 p k) * wtA m c (ix3 (btOf m (Cert.Spec.blockOf p)) k o))
    + b3A m c (ix3 (btOf m (Cert.Spec.blockOf p)) (0 : Fin 1) o)
  exact congrArg₂ (· + ·)
    (Finset.sum_congr rfl fun k _ => congrArg₂ (· * ·) (iblk0_apply m hO c t r k p hp) (iblk1_apply m hO c t k o _ hb))
    (iblk2_apply m hO c t o _ hb)

end Flushed

section Final

/-- Block t's element (r, o) sits in the padded result at (1024 t + r, o). -/
private theorem blk3_emb (pf : pre0.Contents (Elt Ideal)) (h : ok0 pf) (t : Fin (cfg0 ⟨pf, h⟩).N) (r : Fin 1024) (o : Fin 256)
    (i : S217088x256.Idx) (h0 : (i 0).val = t.val * 1024 + r.val) (h1 : (i 1).val = o.val) :
    (((cfg0 ⟨pf, h⟩).win 3).blk t).view.emb (ix2 r o) = i := by
  funext ax; apply Fin.ext
  match ax with
  | ⟨0, _⟩ =>
    show cc0_transform_3 (grid0.coords t) (0 : Fin 2) * 1024 + 1 * r.val = (i 0).val
    rw [(idx_facts t).2.2.2.1, h0]; omega
  | ⟨1, _⟩ =>
    show cc0_transform_3 (grid0.coords t) (1 : Fin 2) * 256 + 1 * o.val = (i 1).val
    rw [(idx_facts t).2.2.2.2, h1]; omega

/-- Padded row p, any column, is in the block of point p / 1024, which is written back. -/
private theorem cover (hO : Ok m) (i : S217088x256.Idx) :
    ∃ t : Fin (cfgM m hO).N, ((cfgM m hO).win 3).flush t = true ∧ i ∈ (((cfgM m hO).win 3).blk t).view.set := by
  have hi0 : (i 0).val < 217088 := (i 0).isLt
  have hN : (cfgM m hO).N = 212 := N_0
  obtain ⟨t, ht⟩ : ∃ t : Fin (cfgM m hO).N, t.val = (i 0).val / 1024 := ⟨⟨(i 0).val / 1024, by rw [hN]; omega⟩, rfl⟩
  refine ⟨t, flush0_3 (adm m hO) t, ?_⟩
  have hy := blk3_emb (tbl m) hO t ⟨(i 0).val % 1024, Nat.mod_lt _ (by decide)⟩ (i 1) i
    (by show (i 0).val = t.val * 1024 + (i 0).val % 1024; omega) rfl
  exact hy ▸ View.emb_mem_set _ _

/-- The padded result after the region is that function. -/
private theorem final (hO : Ok m) (c : Dev nD) : outA m hO c = Gf m c :=
  (dats m hO 0 c).arrAt_eq_of_cover 3 (Gf m c) (flushed_eq m hO c) (cover m hO)

end Final

/-- Padded row p, column o of the result after the region. -/
theorem out_padded (hO : Ok m) (c : Dev nD) (p : Fin 217088) (o : Fin 256) :
    outA m hO c (ix2 p o)
      = (∑ k : Fin 256, xpA m c (ix2 p k) * wtA m c (ix3 (btOf m (Cert.Spec.blockOf p)) k o))
        + b3A m c (ix3 (btOf m (Cert.Spec.blockOf p)) (0 : Fin 1) o) := by
  rw [final]
  rfl

end Cert.KernelIdeal.Region

end
-- ==== Proof.KernelValue.lean ====
/-
  The idealized kernel's run: every weakly fair execution of its @main terminates with the result at the routed linear layer
  of the arguments, and the arguments unchanged.

  The frame run leaves the padded result at what the region computes and every other buffer as the lines after the region
  leave it; those lines gather the padded result's rows back at the rows' destinations. The region's rows are padded x times
  the block's transposed weights plus the block's bias, the buffers it reads are the stage functions of the arguments, and the
  routed-layer theorem joins them.
-/
import proofs.«408881_j53489522704783_3_alg».proof.Proof.Gen.KernelIdeal.Frame
import proofs.«408881_j53489522704783_3_alg».proof.Proof.HostRead
import proofs.«408881_j53489522704783_3_alg».proof.Proof.HostFacts
import proofs.«408881_j53489522704783_3_alg».proof.Proof.Region
import proofs.«408881_j53489522704783_3_alg».proof.Proof.OkIdeal
import proofs.«408881_j53489522704783_3_alg».proof.Proof.Spec
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.ValueIdx Cert.KernelIdeal.Stages

variable (m : (ℓ : Loc nD τ sig) → Buf (Elt Ideal) ℓ) (ρ : Dev nD → PrngReg)

/-- The lines after the region leave, in the result buffer, the padded result's rows gathered back at the destinations. -/
theorem tail_result (hO : Ok m) (c : Dev nD) :
    Pipeline.afterTail (pcfgs (F := Ideal)) (fun _ => adm m hO) (dats m hO) 0 (V0 m) [hostOps1 (F := Ideal)] c main_v79
      = gatherBack (F := Ideal) (Cert.KernelIdeal.Region.outA m hO c) (V m c main_v32) := by
  unfold Pipeline.afterTail
  simp only [hostOps1, List.flatten_cons, List.flatten_nil, List.append_nil]
  after_results_simp
  rw [Pipeline.withArrays_arr spec0 (launch0 (F := Ideal)).win.arr_inj c _ _ 3,
    Pipeline.withArrays_of_ne _ c (V0 m c) _ main_v32 (by exact (by decide : ∀ w, Pipeline.arrRef spec0 w ≠ main_v32))]
  rfl

/-- The table the region reads is the block-type stage of the type words (there is one device). -/
theorem btOf_eq (c : Dev nD) (i : Fin 212) :
    Cert.KernelIdeal.Region.btOf m i
      = Cert.Spec.fin16 (blockTypeAll (m ((c : Thread nD τ).loc main_arg1)) (ix1 i)) := by
  obtain rfl : c = 0 := Subsingleton.elim _ _
  unfold Cert.KernelIdeal.Region.btOf
  rw [show (tbl m 0 : S212.Idx → BitVec 32) = V m (0 : Dev nD) main_v68 from rfl, Cert.KernelIdeal.HostRead.read_blockType m 0]

/-- Every weakly fair execution terminates with the result at the routed linear layer of the arguments, the arguments unchanged. -/
theorem run (hty : ∀ (c : Dev nD) (n : Fin 200000), ((m ((c : Thread nD τ).loc main_arg1) : IVec S200000 32) (ix1 n)).toNat < 16) :
    θ_run defs (onTc (τ := τ) (main (F := Ideal))) ⟨m, fun _ => 0, ρ⟩ (fun r => ∀ c : Dev nD,
      r.2.mem ((c.tc : Thread nD τ).loc main_v79)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hO : Ok m := Cert.KernelIdeal.OkOfPre.ok m
  refine (θ_run defs _ _).mono (fun r h c => ⟨?_,
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c))⟩)
    (run_main m ρ hO)
  refine ((h c).2 main_v79 (by decide : main_v79 ∈ Pipeline.restRefs sig spec0)).trans ((tail_result m hO c).trans ?_)
  rw [Cert.KernelIdeal.HostRead.read_dest m c]
  refine routed (m ((c : Thread nD τ).loc main_arg0)) (m ((c : Thread nD τ).loc main_arg1)) (m ((c : Thread nD τ).loc main_arg2))
    (m ((c : Thread nD τ).loc main_arg3)) (hty c) (Cert.KernelIdeal.Region.outA m hO c) (fun p o => ?_)
  have e1 : Cert.KernelIdeal.Region.xpA m c = xPad (F := Ideal) (m ((c : Thread nD τ).loc main_arg0)) (srcOf (destAll (m ((c : Thread nD τ).loc main_arg1)))) :=
    Cert.KernelIdeal.HostRead.read_xPad m c
  have e2 : Cert.KernelIdeal.Region.wtA m c = wT (F := Ideal) (m ((c : Thread nD τ).loc main_arg2)) := Cert.KernelIdeal.HostRead.read_wT m c
  have e3 : Cert.KernelIdeal.Region.b3A m c = b3 (F := Ideal) (m ((c : Thread nD τ).loc main_arg3)) := Cert.KernelIdeal.HostRead.read_b3 m c
  rw [Cert.KernelIdeal.Region.out_padded m hO c p o, e1, e2, e3, btOf_eq m c]

end Cert.KernelIdeal.KernelValue

end
-- ==== Proof.RefStages.lean ====
/-
  The reference, as a pure function of the arrays: sixteen steps, one per type. Step i computes the whole linear of type i —
  every row of x against type i's weight matrix, plus type i's bias row — and keeps it on the rows whose type word is i,
  the previous result elsewhere; the first step starts from zeros. The step is one function of the type's number and of
  where its weight matrix and bias row are sliced from; its operations are the program's own, in program order.
-/
import proofs.«408881_j53489522704783_3_alg».proof.ReferenceIdeal

noncomputable section

namespace Cert.ReferenceIdeal.Stages

open Idealize.ShloMosaic Cert.ReferenceIdeal Cert.ReferenceIdeal.Facts₀ Cert.ReferenceIdeal.Facts

variable [Facts] {F : FTy → Type} [FloatOps F]

/-- One type's step: the linear of the type whose word is `i`, its weights sliced at `offW` and its bias at `offB`, selected
    on the rows of that type over `prev`. -/
def step (i : BitVec 32) (offW : Fin 3 → Nat) (hW : S16x256x256.Slices offW S1x256x256) (offB : Fin 2 → Nat)
    (hB : S16x256.Slices offB S1x256) (x : FVec F S200000x256 .f32) (ty : IVec S200000 32) (W : FVec F S16x256x256 .f32)
    (b : FVec F S16x256 .f32) (prev : FVec F S200000x256 .f32) : FVec F S200000x256 .f32 :=
  let v1 : IVec S200000 32 := broadcastInDim S200000 ![] bcast_S_S200000 (constantI S_ 32 i)
  let v2 : IVec S200000 1 := cmpi .eq ty v1
  let v3 : IVec S200000x1 1 := broadcastInDim S200000x1 ![0] bcast_S200000_S200000x1_0 v2
  let v4 : FVec F S1x256x256 .f32 := extractStridedSlice S1x256x256 offW W hW
  let v5 : FVec F S256x256 .f32 := shapeCast S256x256 v4 shapeCasts_S1x256x256_S256x256
  let v6 : FVec F S200000x256 .f32 := Host.dotGeneral dot_S200000x256_S256x256_S200000x256_1_1_0_0_n_n none x v5
  let v7 : FVec F S1x256 .f32 := extractStridedSlice S1x256 offB b hB
  let v8 : FVec F S256 .f32 := shapeCast S256 v7 shapeCasts_S1x256_S256
  let v9 : FVec F S1x256 .f32 := broadcastInDim S1x256 ![1] bcast_S256_S1x256_1 v8
  let v10 : FVec F S200000x256 .f32 := broadcastInDim S200000x256 ![0, 1] bcast_S1x256_S200000x256_0_1 v9
  let v11 : FVec F S200000x256 .f32 := addf v6 v10
  let w0 : IVec S200000x256 1 := broadcastInDim S200000x256 ![0, 1] bcast_S200000x1_S200000x256_0_1 v3
  select w0 v11 prev

/-- The reference: the sixteen steps in type order, from zeros. -/
def refAll (x : FVec F S200000x256 .f32) (ty : IVec S200000 32) (W : FVec F S16x256x256 .f32) (b : FVec F S16x256 .f32) :
    FVec F S200000x256 .f32 :=
  (step 15#32 ![15, 0, 0] slices_S16x256x256_S1x256x256_15_0_0 ![15, 0] slices_S16x256_S1x256_15_0 x ty W b
    (step 14#32 ![14, 0, 0] slices_S16x256x256_S1x256x256_14_0_0 ![14, 0] slices_S16x256_S1x256_14_0 x ty W b
    (step 13#32 ![13, 0, 0] slices_S16x256x256_S1x256x256_13_0_0 ![13, 0] slices_S16x256_S1x256_13_0 x ty W b
    (step 12#32 ![12, 0, 0] slices_S16x256x256_S1x256x256_12_0_0 ![12, 0] slices_S16x256_S1x256_12_0 x ty W b
    (step 11#32 ![11, 0, 0] slices_S16x256x256_S1x256x256_11_0_0 ![11, 0] slices_S16x256_S1x256_11_0 x ty W b
    (step 10#32 ![10, 0, 0] slices_S16x256x256_S1x256x256_10_0_0 ![10, 0] slices_S16x256_S1x256_10_0 x ty W b
    (step 9#32 ![9, 0, 0] slices_S16x256x256_S1x256x256_9_0_0 ![9, 0] slices_S16x256_S1x256_9_0 x ty W b
    (step 8#32 ![8, 0, 0] slices_S16x256x256_S1x256x256_8_0_0 ![8, 0] slices_S16x256_S1x256_8_0 x ty W b
    (step 7#32 ![7, 0, 0] slices_S16x256x256_S1x256x256_7_0_0 ![7, 0] slices_S16x256_S1x256_7_0 x ty W b
    (step 6#32 ![6, 0, 0] slices_S16x256x256_S1x256x256_6_0_0 ![6, 0] slices_S16x256_S1x256_6_0 x ty W b
    (step 5#32 ![5, 0, 0] slices_S16x256x256_S1x256x256_5_0_0 ![5, 0] slices_S16x256_S1x256_5_0 x ty W b
    (step 4#32 ![4, 0, 0] slices_S16x256x256_S1x256x256_4_0_0 ![4, 0] slices_S16x256_S1x256_4_0 x ty W b
    (step 3#32 ![3, 0, 0] slices_S16x256x256_S1x256x256_3_0_0 ![3, 0] slices_S16x256_S1x256_3_0 x ty W b
    (step 2#32 ![2, 0, 0] slices_S16x256x256_S1x256x256_2_0_0 ![2, 0] slices_S16x256_S1x256_2_0 x ty W b
    (step 1#32 ![1, 0, 0] slices_S16x256x256_S1x256x256_1_0_0 ![1, 0] slices_S16x256_S1x256_1_0 x ty W b
    (step 0#32 ![0, 0, 0] slices_S16x256x256_S1x256x256_0_0_0 ![0, 0] slices_S16x256_S1x256_0_0 x ty W b
    (broadcastInDim S200000x256 ![] bcast_S_S200000x256 (constant S_ .f32 0x00000000#32))))))))))))))))))

end Cert.ReferenceIdeal.Stages

end
-- ==== Proof.RefRun.lean ====
/-
  The reference's run: every weakly fair execution of its @main terminates with the result at the sixteen steps of the
  arguments and the arguments unchanged. @main is a straight line of host operations: one step's operations at a time, the
  result buffer after the line is the step function of the arguments and of the result of the line before.
-/
import proofs.«408881_j53489522704783_3_alg».proof.Proof.RefStages
import proofs.«408881_j53489522704783_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lines run one after the other -/

/-- The contents after two lines in a row: the second line's, from the first line's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Reading a line at one buffer -/

/-- Computes what one buffer holds after a literal line of operations: the fold is opened one operation at a time, then each
    operation's result is read at its own result buffer as its function's value and at any other buffer as what was there. -/
local macro "line_results" : tactic =>
  `(tactic| ((repeat rw [after_cons]); rw [after_nil];
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The zeros -/

/-- The zeros the first step starts from: the zero constant, spread over every row and column. -/
def ops_head : List (HloOp τ sig (Elt F)) :=
  [ nullary main_cst (constant S_ .f32 0x00000000#32),
    unary main_cst main_v0 (broadcastInDim S200000x256 ![] bcast_S_S200000x256 : (⟨S_, .f32⟩ : BufTy).Contents (Elt F) → (⟨S200000x256, .f32⟩ : BufTy).Contents (Elt F)) ]

theorem ops_head_sub : (ops_head : List (HloOp τ sig (Elt F))).Forall fun op => op.bufs ⊆ tcRefs τ sig :=
  ⟨nullary_bufs_sub .., unary_bufs_sub ..⟩

theorem ops_head_fresh : ∀ op ∈ (ops_head : List (HloOp τ sig (Elt F))), op.fresh = ∅ := by
  intro _ h; (repeat (cases h with | head => rfl | tail _ h => ?_)); exact nomatch h

/-- After the zeros' line the zero buffer holds zeros. -/
theorem read_head (V : Valuation τ sig (Elt F)) :
    after ops_head V (Proc.devRef .tc main_v0) = broadcastInDim S200000x256 ![] bcast_S_S200000x256 (constant S_ .f32 0x00000000#32) := by
  delta ops_head; line_results

theorem keep_head_arg0 (V : Valuation τ sig (Elt F)) : after ops_head V (Proc.devRef .tc main_arg0) = V (Proc.devRef .tc main_arg0) := by
  delta ops_head; line_results
theorem keep_head_arg1 (V : Valuation τ sig (Elt F)) : after ops_head V (Proc.devRef .tc main_arg1) = V (Proc.devRef .tc main_arg1) := by
  delta ops_head; line_results
theorem keep_head_arg2 (V : Valuation τ sig (Elt F)) : after ops_head V (Proc.devRef .tc main_arg2) = V (Proc.devRef .tc main_arg2) := by
  delta ops_head; line_results
theorem keep_head_arg3 (V : Valuation τ sig (Elt F)) : after ops_head V (Proc.devRef .tc main_arg3) = V (Proc.devRef .tc main_arg3) := by
  delta ops_head; line_results

/-! ## Type 0's step -/

/-- Type 0's step: the rows whose type word is 0 as a mask, type 0's weight matrix and bias row sliced out, the whole linear
    of x against them, and the selection of it on the masked rows over the result before. -/
def ops_0 : List (HloOp τ sig (Elt F)) :=
  [ nullary main_c (constantI S_ 32 0#32),
    unary main_c main_v1 (broadcastInDim S200000 ![] bcast_S_S200000 : (⟨S_, .i32⟩ : BufTy).Contents (Elt F) → (⟨S200000, .i32⟩ : BufTy).Contents (Elt F)),
    binary main_arg1 main_v1 main_v2 (cmpi .eq : (⟨S200000, .i32⟩ : BufTy).Contents (Elt F) → (⟨S200000, .i32⟩ : BufTy).Contents (Elt F) → (⟨S200000, .i1⟩ : BufTy).Contents (Elt F)),
    unary main_v2 main_v3 (broadcastInDim S200000x1 ![0] bcast_S200000_S200000x1_0 : (⟨S200000, .i1⟩ : BufTy).Contents (Elt F) → (⟨S200000x1, .i1⟩ : BufTy).Contents (Elt F)),
    unary main_arg2 main_v4 ((extractStridedSlice S1x256x256 ![0, 0, 0] · slices_S16x256x256_S1x256x256_0_0_0) : (⟨S16x256x256, .f32⟩ : BufTy).Contents (Elt F) → (⟨S1x256x256, .f32⟩ : BufTy).Contents (Elt F)),
    reshape main_v4 main_v5 rfl shapeCasts_S1x256x256_S256x256,
    binary main_arg0 main_v5 main_v6 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v7 ((extractStridedSlice S1x256 ![0, 0] · slices_S16x256_S1x256_0_0) : (⟨S16x256, .f32⟩ : BufTy).Contents (Elt F) → (⟨S1x256, .f32⟩ : BufTy).Contents (Elt F)),
    reshape main_v7 main_v8 rfl shapeCasts_S1x256_S256,
    unary main_v8 main_v9 (broadcastInDim S1x256 ![1] bcast_S256_S1x256_1 : (⟨S256, .f32⟩ : BufTy).Contents (Elt F) → (⟨S1x256, .f32⟩ : BufTy).Contents (Elt F)),
    unary main_v9 main_v10 (broadcastInDim S200000x256 ![0, 1] bcast_S1x256_S200000x256_0_1 : (⟨S1x256, .f32⟩ : BufTy).Contents (Elt F) → (⟨S200000x256, .f32⟩ : BufTy).Contents (Elt F)),
    binary main_v6 main_v10 main_v11 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v3) (TRef.of (T := ⟨S200000x256, .i1⟩) main_call0_v0) (broadcastInDim S200000x256 ![0, 1] bcast_S200000x1_S200000x256_0_1),
    TRef.ternary (TRef.of (T := ⟨S200000x256, .i1⟩) main_call0_v0) (TRef.of (T := ⟨S200000x256, .f32⟩) main_v11) (TRef.of (T := ⟨S200000x256, .f32⟩) main_v0) (TRef.of (T := ⟨S200000x256, .f32⟩) main_v12) select ]

theorem ops_0_sub : (ops_0 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_0_fresh : ∀ op ∈ (ops_0 : List (HloOp τ sig (Elt F))), op.fresh = ∅ := by
  intro _ h; (repeat (cases h with | head => rfl | tail _ h => ?_)); exact nomatch h

/-- After type 0's line its result buffer holds type 0's step of the arguments and of the result before. -/
theorem read_0 (V : Valuation τ sig (Elt F)) :
    after ops_0 V (Proc.devRef .tc main_v12)
      = Stages.step 0#32 ![0, 0, 0] slices_S16x256x256_S1x256x256_0_0_0 ![0, 0] slices_S16x256_S1x256_0_0
          (V (Proc.devRef .tc main_arg0)) (V (Proc.devRef .tc main_arg1)) (V (Proc.devRef .tc main_arg2)) (V (Proc.devRef .tc main_arg3))
          (V (Proc.devRef .tc main_v0)) := by
  delta ops_0; line_results
  rfl

theorem keep_0_arg0 (V : Valuation τ sig (Elt F)) : after ops_0 V (Proc.devRef .tc main_arg0) = V (Proc.devRef .tc main_arg0) := by
  delta ops_0; line_results
theorem keep_0_arg1 (V : Valuation τ sig (Elt F)) : after ops_0 V (Proc.devRef .tc main_arg1) = V (Proc.devRef .tc main_arg1) := by
  delta ops_0; line_results
theorem keep_0_arg2 (V : Valuation τ sig (Elt F)) : after ops_0 V (Proc.devRef .tc main_arg2) = V (Proc.devRef .tc main_arg2) := by
  delta ops_0; line_results
theorem keep_0_arg3 (V : Valuation τ sig (Elt F)) : after ops_0 V (Proc.devRef .tc main_arg3) = V (Proc.devRef .tc main_arg3) := by
  delta ops_0; line_results

/-! ## Type 1's step -/

/-- Type 1's step: the rows whose type word is 1 as a mask, type 1's weight matrix and bias row sliced out, the whole linear
    of x against them, and the selection of it on the masked rows over the result before. -/
def ops_1 : List (HloOp τ sig (Elt F)) :=
  [ nullary main_c_0 (constantI S_ 32 1#32),
    unary main_c_0 main_v13 (broadcastInDim S200000 ![] bcast_S_S200000 : (⟨S_, .i32⟩ : BufTy).Contents (Elt F) → (⟨S200000, .i32⟩ : BufTy).Contents (Elt F)),
    binary main_arg1 main_v13 main_v14 (cmpi .eq : (⟨S200000, .i32⟩ : BufTy).Contents (Elt F) → (⟨S200000, .i32⟩ : BufTy).Contents (Elt F) → (⟨S200000, .i1⟩ : BufTy).Contents (Elt F)),
    unary main_v14 main_v15 (broadcastInDim S200000x1 ![0] bcast_S200000_S200000x1_0 : (⟨S200000, .i1⟩ : BufTy).Contents (Elt F) → (⟨S200000x1, .i1⟩ : BufTy).Contents (Elt F)),
    unary main_arg2 main_v16 ((extractStridedSlice S1x256x256 ![1, 0, 0] · slices_S16x256x256_S1x256x256_1_0_0) : (⟨S16x256x256, .f32⟩ : BufTy).Contents (Elt F) → (⟨S1x256x256, .f32⟩ : BufTy).Contents (Elt F)),
    reshape main_v16 main_v17 rfl shapeCasts_S1x256x256_S256x256,
    binary main_arg0 main_v17 main_v18 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v19 ((extractStridedSlice S1x256 ![1, 0] · slices_S16x256_S1x256_1_0) : (⟨S16x256, .f32⟩ : BufTy).Contents (Elt F) → (⟨S1x256, .f32⟩ : BufTy).Contents (Elt F)),
    reshape main_v19 main_v20 rfl shapeCasts_S1x256_S256,
    unary main_v20 main_v21 (broadcastInDim S1x256 ![1] bcast_S256_S1x256_1 : (⟨S256, .f32⟩ : BufTy).Contents (Elt F) → (⟨S1x256, .f32⟩ : BufTy).Contents (Elt F)),
    unary main_v21 main_v22 (broadcastInDim S200000x256 ![0, 1] bcast_S1x256_S200000x256_0_1 : (⟨S1x256, .f32⟩ : BufTy).Contents (Elt F) → (⟨S200000x256, .f32⟩ : BufTy).Contents (Elt F)),
    binary main_v18 main_v22 main_v23 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v15) (TRef.of (T := ⟨S200000x256, .i1⟩) main_call1_v0) (broadcastInDim S200000x256 ![0, 1] bcast_S200000x1_S200000x256_0_1),
    TRef.ternary (TRef.of (T := ⟨S200000x256, .i1⟩) main_call1_v0) (TRef.of (T := ⟨S200000x256, .f32⟩) main_v23) (TRef.of (T := ⟨S200000x256, .f32⟩) main_v12) (TRef.of (T := ⟨S200000x256, .f32⟩) main_v24) select ]

theorem ops_1_sub : (ops_1 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_1_fresh : ∀ op ∈ (ops_1 : List (HloOp τ sig (Elt F))), op.fresh = ∅ := by
  intro _ h; (repeat (cases h with | head => rfl | tail _ h => ?_)); exact nomatch h

/-- After type 1's line its result buffer holds type 1's step of the arguments and of the result before. -/
theorem read_1 (V : Valuation τ sig (Elt F)) :
    after ops_1 V (Proc.devRef .tc main_v24)
      = Stages.step 1#32 ![1, 0, 0] slices_S16x256x256_S1x256x256_1_0_0 ![1, 0] slices_S16x256_S1x256_1_0
          (V (Proc.devRef .tc main_arg0)) (V (Proc.devRef .tc main_arg1)) (V (Proc.devRef .tc main_arg2)) (V (Proc.devRef .tc main_arg3))
          (V (Proc.devRef .tc main_v12)) := by
  delta ops_1; line_results
  rfl

theorem keep_1_arg0 (V : Valuation τ sig (Elt F)) : after ops_1 V (Proc.devRef .tc main_arg0) = V (Proc.devRef .tc main_arg0) := by
  delta ops_1; line_results
theorem keep_1_arg1 (V : Valuation τ sig (Elt F)) : after ops_1 V (Proc.devRef .tc main_arg1) = V (Proc.devRef .tc main_arg1) := by
  delta ops_1; line_results
theorem keep_1_arg2 (V : Valuation τ sig (Elt F)) : after ops_1 V (Proc.devRef .tc main_arg2) = V (Proc.devRef .tc main_arg2) := by
  delta ops_1; line_results
theorem keep_1_arg3 (V : Valuation τ sig (Elt F)) : after ops_1 V (Proc.devRef .tc main_arg3) = V (Proc.devRef .tc main_arg3) := by
  delta ops_1; line_results

/-! ## Type 2's step -/

/-- Type 2's step: the rows whose type word is 2 as a mask, type 2's weight matrix and bias row sliced out, the whole linear
    of x against them, and the selection of it on the masked rows over the result before. -/
def ops_2 : List (HloOp τ sig (Elt F)) :=
  [ nullary main_c_1 (constantI S_ 32 2#32),
    unary main_c_1 main_v25 (broadcastInDim S200000 ![] bcast_S_S200000 : (⟨S_, .i32⟩ : BufTy).Contents (Elt F) → (⟨S200000, .i32⟩ : BufTy).Contents (Elt F)),
    binary main_arg1 main_v25 main_v26 (cmpi .eq : (⟨S200000, .i32⟩ : BufTy).Contents (Elt F) → (⟨S200000, .i32⟩ : BufTy).Contents (Elt F) → (⟨S200000, .i1⟩ : BufTy).Contents (Elt F)),
    unary main_v26 main_v27 (broadcastInDim S200000x1 ![0] bcast_S200000_S200000x1_0 : (⟨S200000, .i1⟩ : BufTy).Contents (Elt F) → (⟨S200000x1, .i1⟩ : BufTy).Contents (Elt F)),
    unary main_arg2 main_v28 ((extractStridedSlice S1x256x256 ![2, 0, 0] · slices_S16x256x256_S1x256x256_2_0_0) : (⟨S16x256x256, .f32⟩ : BufTy).Contents (Elt F) → (⟨S1x256x256, .f32⟩ : BufTy).Contents (Elt F)),
    reshape main_v28 main_v29 rfl shapeCasts_S1x256x256_S256x256,
    binary main_arg0 main_v29 main_v30 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v31 ((extractStridedSlice S1x256 ![2, 0] · slices_S16x256_S1x256_2_0) : (⟨S16x256, .f32⟩ : BufTy).Contents (Elt F) → (⟨S1x256, .f32⟩ : BufTy).Contents (Elt F)),
    reshape main_v31 main_v32 rfl shapeCasts_S1x256_S256,
    unary main_v32 main_v33 (broadcastInDim S1x256 ![1] bcast_S256_S1x256_1 : (⟨S256, .f32⟩ : BufTy).Contents (Elt F) → (⟨S1x256, .f32⟩ : BufTy).Contents (Elt F)),
    unary main_v33 main_v34 (broadcastInDim S200000x256 ![0, 1] bcast_S1x256_S200000x256_0_1 : (⟨S1x256, .f32⟩ : BufTy).Contents (Elt F) → (⟨S200000x256, .f32⟩ : BufTy).Contents (Elt F)),
    binary main_v30 main_v34 main_v35 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v27) (TRef.of (T := ⟨S200000x256, .i1⟩) main_call2_v0) (broadcastInDim S200000x256 ![0, 1] bcast_S200000x1_S200000x256_0_1),
    TRef.ternary (TRef.of (T := ⟨S200000x256, .i1⟩) main_call2_v0) (TRef.of (T := ⟨S200000x256, .f32⟩) main_v35) (TRef.of (T := ⟨S200000x256, .f32⟩) main_v24) (TRef.of (T := ⟨S200000x256, .f32⟩) main_v36) select ]

theorem ops_2_sub : (ops_2 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_2_fresh : ∀ op ∈ (ops_2 : List (HloOp τ sig (Elt F))), op.fresh = ∅ := by
  intro _ h; (repeat (cases h with | head => rfl | tail _ h => ?_)); exact nomatch h

/-- After type 2's line its result buffer holds type 2's step of the arguments and of the result before. -/
theorem read_2 (V : Valuation τ sig (Elt F)) :
    after ops_2 V (Proc.devRef .tc main_v36)
      = Stages.step 2#32 ![2, 0, 0] slices_S16x256x256_S1x256x256_2_0_0 ![2, 0] slices_S16x256_S1x256_2_0
          (V (Proc.devRef .tc main_arg0)) (V (Proc.devRef .tc main_arg1)) (V (Proc.devRef .tc main_arg2)) (V (Proc.devRef .tc main_arg3))
          (V (Proc.devRef .tc main_v24)) := by
  delta ops_2; line_results
  rfl

theorem keep_2_arg0 (V : Valuation τ sig (Elt F)) : after ops_2 V (Proc.devRef .tc main_arg0) = V (Proc.devRef .tc main_arg0) := by
  delta ops_2; line_results
theorem keep_2_arg1 (V : Valuation τ sig (Elt F)) : after ops_2 V (Proc.devRef .tc main_arg1) = V (Proc.devRef .tc main_arg1) := by
  delta ops_2; line_results
theorem keep_2_arg2 (V : Valuation τ sig (Elt F)) : after ops_2 V (Proc.devRef .tc main_arg2) = V (Proc.devRef .tc main_arg2) := by
  delta ops_2; line_results
theorem keep_2_arg3 (V : Valuation τ sig (Elt F)) : after ops_2 V (Proc.devRef .tc main_arg3) = V (Proc.devRef .tc main_arg3) := by
  delta ops_2; line_results

/-! ## Type 3's step -/

/-- Type 3's step: the rows whose type word is 3 as a mask, type 3's weight matrix and bias row sliced out, the whole linear
    of x against them, and the selection of it on the masked rows over the result before. -/
def ops_3 : List (HloOp τ sig (Elt F)) :=
  [ nullary main_c_2 (constantI S_ 32 3#32),
    unary main_c_2 main_v37 (broadcastInDim S200000 ![] bcast_S_S200000 : (⟨S_, .i32⟩ : BufTy).Contents (Elt F) → (⟨S200000, .i32⟩ : BufTy).Contents (Elt F)),
    binary main_arg1 main_v37 main_v38 (cmpi .eq : (⟨S200000, .i32⟩ : BufTy).Contents (Elt F) → (⟨S200000, .i32⟩ : BufTy).Contents (Elt F) → (⟨S200000, .i1⟩ : BufTy).Contents (Elt F)),
    unary main_v38 main_v39 (broadcastInDim S200000x1 ![0] bcast_S200000_S200000x1_0 : (⟨S200000, .i1⟩ : BufTy).Contents (Elt F) → (⟨S200000x1, .i1⟩ : BufTy).Contents (Elt F)),
    unary main_arg2 main_v40 ((extractStridedSlice S1x256x256 ![3, 0, 0] · slices_S16x256x256_S1x256x256_3_0_0) : (⟨S16x256x256, .f32⟩ : BufTy).Contents (Elt F) → (⟨S1x256x256, .f32⟩ : BufTy).Contents (Elt F)),
    reshape main_v40 main_v41 rfl shapeCasts_S1x256x256_S256x256,
    binary main_arg0 main_v41 main_v42 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v43 ((extractStridedSlice S1x256 ![3, 0] · slices_S16x256_S1x256_3_0) : (⟨S16x256, .f32⟩ : BufTy).Contents (Elt F) → (⟨S1x256, .f32⟩ : BufTy).Contents (Elt F)),
    reshape main_v43 main_v44 rfl shapeCasts_S1x256_S256,
    unary main_v44 main_v45 (broadcastInDim S1x256 ![1] bcast_S256_S1x256_1 : (⟨S256, .f32⟩ : BufTy).Contents (Elt F) → (⟨S1x256, .f32⟩ : BufTy).Contents (Elt F)),
    unary main_v45 main_v46 (broadcastInDim S200000x256 ![0, 1] bcast_S1x256_S200000x256_0_1 : (⟨S1x256, .f32⟩ : BufTy).Contents (Elt F) → (⟨S200000x256, .f32⟩ : BufTy).Contents (Elt F)),
    binary main_v42 main_v46 main_v47 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v39) (TRef.of (T := ⟨S200000x256, .i1⟩) main_call3_v0) (broadcastInDim S200000x256 ![0, 1] bcast_S200000x1_S200000x256_0_1),
    TRef.ternary (TRef.of (T := ⟨S200000x256, .i1⟩) main_call3_v0) (TRef.of (T := ⟨S200000x256, .f32⟩) main_v47) (TRef.of (T := ⟨S200000x256, .f32⟩) main_v36) (TRef.of (T := ⟨S200000x256, .f32⟩) main_v48) select ]

theorem ops_3_sub : (ops_3 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_3_fresh : ∀ op ∈ (ops_3 : List (HloOp τ sig (Elt F))), op.fresh = ∅ := by
  intro _ h; (repeat (cases h with | head => rfl | tail _ h => ?_)); exact nomatch h

/-- After type 3's line its result buffer holds type 3's step of the arguments and of the result before. -/
theorem read_3 (V : Valuation τ sig (Elt F)) :
    after ops_3 V (Proc.devRef .tc main_v48)
      = Stages.step 3#32 ![3, 0, 0] slices_S16x256x256_S1x256x256_3_0_0 ![3, 0] slices_S16x256_S1x256_3_0
          (V (Proc.devRef .tc main_arg0)) (V (Proc.devRef .tc main_arg1)) (V (Proc.devRef .tc main_arg2)) (V (Proc.devRef .tc main_arg3))
          (V (Proc.devRef .tc main_v36)) := by
  delta ops_3; line_results
  rfl

theorem keep_3_arg0 (V : Valuation τ sig (Elt F)) : after ops_3 V (Proc.devRef .tc main_arg0) = V (Proc.devRef .tc main_arg0) := by
  delta ops_3; line_results
theorem keep_3_arg1 (V : Valuation τ sig (Elt F)) : after ops_3 V (Proc.devRef .tc main_arg1) = V (Proc.devRef .tc main_arg1) := by
  delta ops_3; line_results
theorem keep_3_arg2 (V : Valuation τ sig (Elt F)) : after ops_3 V (Proc.devRef .tc main_arg2) = V (Proc.devRef .tc main_arg2) := by
  delta ops_3; line_results
theorem keep_3_arg3 (V : Valuation τ sig (Elt F)) : after ops_3 V (Proc.devRef .tc main_arg3) = V (Proc.devRef .tc main_arg3) := by
  delta ops_3; line_results

/-! ## Type 4's step -/

/-- Type 4's step: the rows whose type word is 4 as a mask, type 4's weight matrix and bias row sliced out, the whole linear
    of x against them, and the selection of it on the masked rows over the result before. -/
def ops_4 : List (HloOp τ sig (Elt F)) :=
  [ nullary main_c_3 (constantI S_ 32 4#32),
    unary main_c_3 main_v49 (broadcastInDim S200000 ![] bcast_S_S200000 : (⟨S_, .i32⟩ : BufTy).Contents (Elt F) → (⟨S200000, .i32⟩ : BufTy).Contents (Elt F)),
    binary main_arg1 main_v49 main_v50 (cmpi .eq : (⟨S200000, .i32⟩ : BufTy).Contents (Elt F) → (⟨S200000, .i32⟩ : BufTy).Contents (Elt F) → (⟨S200000, .i1⟩ : BufTy).Contents (Elt F)),
    unary main_v50 main_v51 (broadcastInDim S200000x1 ![0] bcast_S200000_S200000x1_0 : (⟨S200000, .i1⟩ : BufTy).Contents (Elt F) → (⟨S200000x1, .i1⟩ : BufTy).Contents (Elt F)),
    unary main_arg2 main_v52 ((extractStridedSlice S1x256x256 ![4, 0, 0] · slices_S16x256x256_S1x256x256_4_0_0) : (⟨S16x256x256, .f32⟩ : BufTy).Contents (Elt F) → (⟨S1x256x256, .f32⟩ : BufTy).Contents (Elt F)),
    reshape main_v52 main_v53 rfl shapeCasts_S1x256x256_S256x256,
    binary main_arg0 main_v53 main_v54 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v55 ((extractStridedSlice S1x256 ![4, 0] · slices_S16x256_S1x256_4_0) : (⟨S16x256, .f32⟩ : BufTy).Contents (Elt F) → (⟨S1x256, .f32⟩ : BufTy).Contents (Elt F)),
    reshape main_v55 main_v56 rfl shapeCasts_S1x256_S256,
    unary main_v56 main_v57 (broadcastInDim S1x256 ![1] bcast_S256_S1x256_1 : (⟨S256, .f32⟩ : BufTy).Contents (Elt F) → (⟨S1x256, .f32⟩ : BufTy).Contents (Elt F)),
    unary main_v57 main_v58 (broadcastInDim S200000x256 ![0, 1] bcast_S1x256_S200000x256_0_1 : (⟨S1x256, .f32⟩ : BufTy).Contents (Elt F) → (⟨S200000x256, .f32⟩ : BufTy).Contents (Elt F)),
    binary main_v54 main_v58 main_v59 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v51) (TRef.of (T := ⟨S200000x256, .i1⟩) main_call4_v0) (broadcastInDim S200000x256 ![0, 1] bcast_S200000x1_S200000x256_0_1),
    TRef.ternary (TRef.of (T := ⟨S200000x256, .i1⟩) main_call4_v0) (TRef.of (T := ⟨S200000x256, .f32⟩) main_v59) (TRef.of (T := ⟨S200000x256, .f32⟩) main_v48) (TRef.of (T := ⟨S200000x256, .f32⟩) main_v60) select ]

theorem ops_4_sub : (ops_4 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_4_fresh : ∀ op ∈ (ops_4 : List (HloOp τ sig (Elt F))), op.fresh = ∅ := by
  intro _ h; (repeat (cases h with | head => rfl | tail _ h => ?_)); exact nomatch h

/-- After type 4's line its result buffer holds type 4's step of the arguments and of the result before. -/
theorem read_4 (V : Valuation τ sig (Elt F)) :
    after ops_4 V (Proc.devRef .tc main_v60)
      = Stages.step 4#32 ![4, 0, 0] slices_S16x256x256_S1x256x256_4_0_0 ![4, 0] slices_S16x256_S1x256_4_0
          (V (Proc.devRef .tc main_arg0)) (V (Proc.devRef .tc main_arg1)) (V (Proc.devRef .tc main_arg2)) (V (Proc.devRef .tc main_arg3))
          (V (Proc.devRef .tc main_v48)) := by
  delta ops_4; line_results
  rfl

theorem keep_4_arg0 (V : Valuation τ sig (Elt F)) : after ops_4 V (Proc.devRef .tc main_arg0) = V (Proc.devRef .tc main_arg0) := by
  delta ops_4; line_results
theorem keep_4_arg1 (V : Valuation τ sig (Elt F)) : after ops_4 V (Proc.devRef .tc main_arg1) = V (Proc.devRef .tc main_arg1) := by
  delta ops_4; line_results
theorem keep_4_arg2 (V : Valuation τ sig (Elt F)) : after ops_4 V (Proc.devRef .tc main_arg2) = V (Proc.devRef .tc main_arg2) := by
  delta ops_4; line_results
theorem keep_4_arg3 (V : Valuation τ sig (Elt F)) : after ops_4 V (Proc.devRef .tc main_arg3) = V (Proc.devRef .tc main_arg3) := by
  delta ops_4; line_results

/-! ## Type 5's step -/

/-- Type 5's step: the rows whose type word is 5 as a mask, type 5's weight matrix and bias row sliced out, the whole linear
    of x against them, and the selection of it on the masked rows over the result before. -/
def ops_5 : List (HloOp τ sig (Elt F)) :=
  [ nullary main_c_4 (constantI S_ 32 5#32),
    unary main_c_4 main_v61 (broadcastInDim S200000 ![] bcast_S_S200000 : (⟨S_, .i32⟩ : BufTy).Contents (Elt F) → (⟨S200000, .i32⟩ : BufTy).Contents (Elt F)),
    binary main_arg1 main_v61 main_v62 (cmpi .eq : (⟨S200000, .i32⟩ : BufTy).Contents (Elt F) → (⟨S200000, .i32⟩ : BufTy).Contents (Elt F) → (⟨S200000, .i1⟩ : BufTy).Contents (Elt F)),
    unary main_v62 main_v63 (broadcastInDim S200000x1 ![0] bcast_S200000_S200000x1_0 : (⟨S200000, .i1⟩ : BufTy).Contents (Elt F) → (⟨S200000x1, .i1⟩ : BufTy).Contents (Elt F)),
    unary main_arg2 main_v64 ((extractStridedSlice S1x256x256 ![5, 0, 0] · slices_S16x256x256_S1x256x256_5_0_0) : (⟨S16x256x256, .f32⟩ : BufTy).Contents (Elt F) → (⟨S1x256x256, .f32⟩ : BufTy).Contents (Elt F)),
    reshape main_v64 main_v65 rfl shapeCasts_S1x256x256_S256x256,
    binary main_arg0 main_v65 main_v66 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v67 ((extractStridedSlice S1x256 ![5, 0] · slices_S16x256_S1x256_5_0) : (⟨S16x256, .f32⟩ : BufTy).Contents (Elt F) → (⟨S1x256, .f32⟩ : BufTy).Contents (Elt F)),
    reshape main_v67 main_v68 rfl shapeCasts_S1x256_S256,
    unary main_v68 main_v69 (broadcastInDim S1x256 ![1] bcast_S256_S1x256_1 : (⟨S256, .f32⟩ : BufTy).Contents (Elt F) → (⟨S1x256, .f32⟩ : BufTy).Contents (Elt F)),
    unary main_v69 main_v70 (broadcastInDim S200000x256 ![0, 1] bcast_S1x256_S200000x256_0_1 : (⟨S1x256, .f32⟩ : BufTy).Contents (Elt F) → (⟨S200000x256, .f32⟩ : BufTy).Contents (Elt F)),
    binary main_v66 main_v70 main_v71 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v63) (TRef.of (T := ⟨S200000x256, .i1⟩) main_call5_v0) (broadcastInDim S200000x256 ![0, 1] bcast_S200000x1_S200000x256_0_1),
    TRef.ternary (TRef.of (T := ⟨S200000x256, .i1⟩) main_call5_v0) (TRef.of (T := ⟨S200000x256, .f32⟩) main_v71) (TRef.of (T := ⟨S200000x256, .f32⟩) main_v60) (TRef.of (T := ⟨S200000x256, .f32⟩) main_v72) select ]

theorem ops_5_sub : (ops_5 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_5_fresh : ∀ op ∈ (ops_5 : List (HloOp τ sig (Elt F))), op.fresh = ∅ := by
  intro _ h; (repeat (cases h with | head => rfl | tail _ h => ?_)); exact nomatch h

/-- After type 5's line its result buffer holds type 5's step of the arguments and of the result before. -/
theorem read_5 (V : Valuation τ sig (Elt F)) :
    after ops_5 V (Proc.devRef .tc main_v72)
      = Stages.step 5#32 ![5, 0, 0] slices_S16x256x256_S1x256x256_5_0_0 ![5, 0] slices_S16x256_S1x256_5_0
          (V (Proc.devRef .tc main_arg0)) (V (Proc.devRef .tc main_arg1)) (V (Proc.devRef .tc main_arg2)) (V (Proc.devRef .tc main_arg3))
          (V (Proc.devRef .tc main_v60)) := by
  delta ops_5; line_results
  rfl

theorem keep_5_arg0 (V : Valuation τ sig (Elt F)) : after ops_5 V (Proc.devRef .tc main_arg0) = V (Proc.devRef .tc main_arg0) := by
  delta ops_5; line_results
theorem keep_5_arg1 (V : Valuation τ sig (Elt F)) : after ops_5 V (Proc.devRef .tc main_arg1) = V (Proc.devRef .tc main_arg1) := by
  delta ops_5; line_results
theorem keep_5_arg2 (V : Valuation τ sig (Elt F)) : after ops_5 V (Proc.devRef .tc main_arg2) = V (Proc.devRef .tc main_arg2) := by
  delta ops_5; line_results
theorem keep_5_arg3 (V : Valuation τ sig (Elt F)) : after ops_5 V (Proc.devRef .tc main_arg3) = V (Proc.devRef .tc main_arg3) := by
  delta ops_5; line_results

/-! ## Type 6's step -/

/-- Type 6's step: the rows whose type word is 6 as a mask, type 6's weight matrix and bias row sliced out, the whole linear
    of x against them, and the selection of it on the masked rows over the result before. -/
def ops_6 : List (HloOp τ sig (Elt F)) :=
  [ nullary main_c_5 (constantI S_ 32 6#32),
    unary main_c_5 main_v73 (broadcastInDim S200000 ![] bcast_S_S200000 : (⟨S_, .i32⟩ : BufTy).Contents (Elt F) → (⟨S200000, .i32⟩ : BufTy).Contents (Elt F)),
    binary main_arg1 main_v73 main_v74 (cmpi .eq : (⟨S200000, .i32⟩ : BufTy).Contents (Elt F) → (⟨S200000, .i32⟩ : BufTy).Contents (Elt F) → (⟨S200000, .i1⟩ : BufTy).Contents (Elt F)),
    unary main_v74 main_v75 (broadcastInDim S200000x1 ![0] bcast_S200000_S200000x1_0 : (⟨S200000, .i1⟩ : BufTy).Contents (Elt F) → (⟨S200000x1, .i1⟩ : BufTy).Contents (Elt F)),
    unary main_arg2 main_v76 ((extractStridedSlice S1x256x256 ![6, 0, 0] · slices_S16x256x256_S1x256x256_6_0_0) : (⟨S16x256x256, .f32⟩ : BufTy).Contents (Elt F) → (⟨S1x256x256, .f32⟩ : BufTy).Contents (Elt F)),
    reshape main_v76 main_v77 rfl shapeCasts_S1x256x256_S256x256,
    binary main_arg0 main_v77 main_v78 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v79 ((extractStridedSlice S1x256 ![6, 0] · slices_S16x256_S1x256_6_0) : (⟨S16x256, .f32⟩ : BufTy).Contents (Elt F) → (⟨S1x256, .f32⟩ : BufTy).Contents (Elt F)),
    reshape main_v79 main_v80 rfl shapeCasts_S1x256_S256,
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S200000x256 ![0, 1] bcast_S1x256_S200000x256_0_1 : (⟨S1x256, .f32⟩ : BufTy).Contents (Elt F) → (⟨S200000x256, .f32⟩ : BufTy).Contents (Elt F)),
    binary main_v78 main_v82 main_v83 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v75) (TRef.of (T := ⟨S200000x256, .i1⟩) main_call6_v0) (broadcastInDim S200000x256 ![0, 1] bcast_S200000x1_S200000x256_0_1),
    TRef.ternary (TRef.of (T := ⟨S200000x256, .i1⟩) main_call6_v0) (TRef.of (T := ⟨S200000x256, .f32⟩) main_v83) (TRef.of (T := ⟨S200000x256, .f32⟩) main_v72) (TRef.of (T := ⟨S200000x256, .f32⟩) main_v84) select ]

theorem ops_6_sub : (ops_6 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_6_fresh : ∀ op ∈ (ops_6 : List (HloOp τ sig (Elt F))), op.fresh = ∅ := by
  intro _ h; (repeat (cases h with | head => rfl | tail _ h => ?_)); exact nomatch h

/-- After type 6's line its result buffer holds type 6's step of the arguments and of the result before. -/
theorem read_6 (V : Valuation τ sig (Elt F)) :
    after ops_6 V (Proc.devRef .tc main_v84)
      = Stages.step 6#32 ![6, 0, 0] slices_S16x256x256_S1x256x256_6_0_0 ![6, 0] slices_S16x256_S1x256_6_0
          (V (Proc.devRef .tc main_arg0)) (V (Proc.devRef .tc main_arg1)) (V (Proc.devRef .tc main_arg2)) (V (Proc.devRef .tc main_arg3))
          (V (Proc.devRef .tc main_v72)) := by
  delta ops_6; line_results
  rfl

theorem keep_6_arg0 (V : Valuation τ sig (Elt F)) : after ops_6 V (Proc.devRef .tc main_arg0) = V (Proc.devRef .tc main_arg0) := by
  delta ops_6; line_results
theorem keep_6_arg1 (V : Valuation τ sig (Elt F)) : after ops_6 V (Proc.devRef .tc main_arg1) = V (Proc.devRef .tc main_arg1) := by
  delta ops_6; line_results
theorem keep_6_arg2 (V : Valuation τ sig (Elt F)) : after ops_6 V (Proc.devRef .tc main_arg2) = V (Proc.devRef .tc main_arg2) := by
  delta ops_6; line_results
theorem keep_6_arg3 (V : Valuation τ sig (Elt F)) : after ops_6 V (Proc.devRef .tc main_arg3) = V (Proc.devRef .tc main_arg3) := by
  delta ops_6; line_results

/-! ## Type 7's step -/

/-- Type 7's step: the rows whose type word is 7 as a mask, type 7's weight matrix and bias row sliced out, the whole linear
    of x against them, and the selection of it on the masked rows over the result before. -/
def ops_7 : List (HloOp τ sig (Elt F)) :=
  [ nullary main_c_6 (constantI S_ 32 7#32),
    unary main_c_6 main_v85 (broadcastInDim S200000 ![] bcast_S_S200000 : (⟨S_, .i32⟩ : BufTy).Contents (Elt F) → (⟨S200000, .i32⟩ : BufTy).Contents (Elt F)),
    binary main_arg1 main_v85 main_v86 (cmpi .eq : (⟨S200000, .i32⟩ : BufTy).Contents (Elt F) → (⟨S200000, .i32⟩ : BufTy).Contents (Elt F) → (⟨S200000, .i1⟩ : BufTy).Contents (Elt F)),
    unary main_v86 main_v87 (broadcastInDim S200000x1 ![0] bcast_S200000_S200000x1_0 : (⟨S200000, .i1⟩ : BufTy).Contents (Elt F) → (⟨S200000x1, .i1⟩ : BufTy).Contents (Elt F)),
    unary main_arg2 main_v88 ((extractStridedSlice S1x256x256 ![7, 0, 0] · slices_S16x256x256_S1x256x256_7_0_0) : (⟨S16x256x256, .f32⟩ : BufTy).Contents (Elt F) → (⟨S1x256x256, .f32⟩ : BufTy).Contents (Elt F)),
    reshape main_v88 main_v89 rfl shapeCasts_S1x256x256_S256x256,
    binary main_arg0 main_v89 main_v90 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v91 ((extractStridedSlice S1x256 ![7, 0] · slices_S16x256_S1x256_7_0) : (⟨S16x256, .f32⟩ : BufTy).Contents (Elt F) → (⟨S1x256, .f32⟩ : BufTy).Contents (Elt F)),
    reshape main_v91 main_v92 rfl shapeCasts_S1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S200000x256 ![0, 1] bcast_S1x256_S200000x256_0_1 : (⟨S1x256, .f32⟩ : BufTy).Contents (Elt F) → (⟨S200000x256, .f32⟩ : BufTy).Contents (Elt F)),
    binary main_v90 main_v94 main_v95 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v87) (TRef.of (T := ⟨S200000x256, .i1⟩) main_call7_v0) (broadcastInDim S200000x256 ![0, 1] bcast_S200000x1_S200000x256_0_1),
    TRef.ternary (TRef.of (T := ⟨S200000x256, .i1⟩) main_call7_v0) (TRef.of (T := ⟨S200000x256, .f32⟩) main_v95) (TRef.of (T := ⟨S200000x256, .f32⟩) main_v84) (TRef.of (T := ⟨S200000x256, .f32⟩) main_v96) select ]

theorem ops_7_sub : (ops_7 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_7_fresh : ∀ op ∈ (ops_7 : List (HloOp τ sig (Elt F))), op.fresh = ∅ := by
  intro _ h; (repeat (cases h with | head => rfl | tail _ h => ?_)); exact nomatch h

/-- After type 7's line its result buffer holds type 7's step of the arguments and of the result before. -/
theorem read_7 (V : Valuation τ sig (Elt F)) :
    after ops_7 V (Proc.devRef .tc main_v96)
      = Stages.step 7#32 ![7, 0, 0] slices_S16x256x256_S1x256x256_7_0_0 ![7, 0] slices_S16x256_S1x256_7_0
          (V (Proc.devRef .tc main_arg0)) (V (Proc.devRef .tc main_arg1)) (V (Proc.devRef .tc main_arg2)) (V (Proc.devRef .tc main_arg3))
          (V (Proc.devRef .tc main_v84)) := by
  delta ops_7; line_results
  rfl

theorem keep_7_arg0 (V : Valuation τ sig (Elt F)) : after ops_7 V (Proc.devRef .tc main_arg0) = V (Proc.devRef .tc main_arg0) := by
  delta ops_7; line_results
theorem keep_7_arg1 (V : Valuation τ sig (Elt F)) : after ops_7 V (Proc.devRef .tc main_arg1) = V (Proc.devRef .tc main_arg1) := by
  delta ops_7; line_results
theorem keep_7_arg2 (V : Valuation τ sig (Elt F)) : after ops_7 V (Proc.devRef .tc main_arg2) = V (Proc.devRef .tc main_arg2) := by
  delta ops_7; line_results
theorem keep_7_arg3 (V : Valuation τ sig (Elt F)) : after ops_7 V (Proc.devRef .tc main_arg3) = V (Proc.devRef .tc main_arg3) := by
  delta ops_7; line_results

/-! ## Type 8's step -/

/-- Type 8's step: the rows whose type word is 8 as a mask, type 8's weight matrix and bias row sliced out, the whole linear
    of x against them, and the selection of it on the masked rows over the result before. -/
def ops_8 : List (HloOp τ sig (Elt F)) :=
  [ nullary main_c_7 (constantI S_ 32 8#32),
    unary main_c_7 main_v97 (broadcastInDim S200000 ![] bcast_S_S200000 : (⟨S_, .i32⟩ : BufTy).Contents (Elt F) → (⟨S200000, .i32⟩ : BufTy).Contents (Elt F)),
    binary main_arg1 main_v97 main_v98 (cmpi .eq : (⟨S200000, .i32⟩ : BufTy).Contents (Elt F) → (⟨S200000, .i32⟩ : BufTy).Contents (Elt F) → (⟨S200000, .i1⟩ : BufTy).Contents (Elt F)),
    unary main_v98 main_v99 (broadcastInDim S200000x1 ![0] bcast_S200000_S200000x1_0 : (⟨S200000, .i1⟩ : BufTy).Contents (Elt F) → (⟨S200000x1, .i1⟩ : BufTy).Contents (Elt F)),
    unary main_arg2 main_v100 ((extractStridedSlice S1x256x256 ![8, 0, 0] · slices_S16x256x256_S1x256x256_8_0_0) : (⟨S16x256x256, .f32⟩ : BufTy).Contents (Elt F) → (⟨S1x256x256, .f32⟩ : BufTy).Contents (Elt F)),
    reshape main_v100 main_v101 rfl shapeCasts_S1x256x256_S256x256,
    binary main_arg0 main_v101 main_v102 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v103 ((extractStridedSlice S1x256 ![8, 0] · slices_S16x256_S1x256_8_0) : (⟨S16x256, .f32⟩ : BufTy).Contents (Elt F) → (⟨S1x256, .f32⟩ : BufTy).Contents (Elt F)),
    reshape main_v103 main_v104 rfl shapeCasts_S1x256_S256,
    unary main_v104 main_v105 (broadcastInDim S1x256 ![1] bcast_S256_S1x256_1 : (⟨S256, .f32⟩ : BufTy).Contents (Elt F) → (⟨S1x256, .f32⟩ : BufTy).Contents (Elt F)),
    unary main_v105 main_v106 (broadcastInDim S200000x256 ![0, 1] bcast_S1x256_S200000x256_0_1 : (⟨S1x256, .f32⟩ : BufTy).Contents (Elt F) → (⟨S200000x256, .f32⟩ : BufTy).Contents (Elt F)),
    binary main_v102 main_v106 main_v107 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v99) (TRef.of (T := ⟨S200000x256, .i1⟩) main_call8_v0) (broadcastInDim S200000x256 ![0, 1] bcast_S200000x1_S200000x256_0_1),
    TRef.ternary (TRef.of (T := ⟨S200000x256, .i1⟩) main_call8_v0) (TRef.of (T := ⟨S200000x256, .f32⟩) main_v107) (TRef.of (T := ⟨S200000x256, .f32⟩) main_v96) (TRef.of (T := ⟨S200000x256, .f32⟩) main_v108) select ]

theorem ops_8_sub : (ops_8 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_8_fresh : ∀ op ∈ (ops_8 : List (HloOp τ sig (Elt F))), op.fresh = ∅ := by
  intro _ h; (repeat (cases h with | head => rfl | tail _ h => ?_)); exact nomatch h

/-- After type 8's line its result buffer holds type 8's step of the arguments and of the result before. -/
theorem read_8 (V : Valuation τ sig (Elt F)) :
    after ops_8 V (Proc.devRef .tc main_v108)
      = Stages.step 8#32 ![8, 0, 0] slices_S16x256x256_S1x256x256_8_0_0 ![8, 0] slices_S16x256_S1x256_8_0
          (V (Proc.devRef .tc main_arg0)) (V (Proc.devRef .tc main_arg1)) (V (Proc.devRef .tc main_arg2)) (V (Proc.devRef .tc main_arg3))
          (V (Proc.devRef .tc main_v96)) := by
  delta ops_8; line_results
  rfl

theorem keep_8_arg0 (V : Valuation τ sig (Elt F)) : after ops_8 V (Proc.devRef .tc main_arg0) = V (Proc.devRef .tc main_arg0) := by
  delta ops_8; line_results
theorem keep_8_arg1 (V : Valuation τ sig (Elt F)) : after ops_8 V (Proc.devRef .tc main_arg1) = V (Proc.devRef .tc main_arg1) := by
  delta ops_8; line_results
theorem keep_8_arg2 (V : Valuation τ sig (Elt F)) : after ops_8 V (Proc.devRef .tc main_arg2) = V (Proc.devRef .tc main_arg2) := by
  delta ops_8; line_results
theorem keep_8_arg3 (V : Valuation τ sig (Elt F)) : after ops_8 V (Proc.devRef .tc main_arg3) = V (Proc.devRef .tc main_arg3) := by
  delta ops_8; line_results

/-! ## Type 9's step -/

/-- Type 9's step: the rows whose type word is 9 as a mask, type 9's weight matrix and bias row sliced out, the whole linear
    of x against them, and the selection of it on the masked rows over the result before. -/
def ops_9 : List (HloOp τ sig (Elt F)) :=
  [ nullary main_c_8 (constantI S_ 32 9#32),
    unary main_c_8 main_v109 (broadcastInDim S200000 ![] bcast_S_S200000 : (⟨S_, .i32⟩ : BufTy).Contents (Elt F) → (⟨S200000, .i32⟩ : BufTy).Contents (Elt F)),
    binary main_arg1 main_v109 main_v110 (cmpi .eq : (⟨S200000, .i32⟩ : BufTy).Contents (Elt F) → (⟨S200000, .i32⟩ : BufTy).Contents (Elt F) → (⟨S200000, .i1⟩ : BufTy).Contents (Elt F)),
    unary main_v110 main_v111 (broadcastInDim S200000x1 ![0] bcast_S200000_S200000x1_0 : (⟨S200000, .i1⟩ : BufTy).Contents (Elt F) → (⟨S200000x1, .i1⟩ : BufTy).Contents (Elt F)),
    unary main_arg2 main_v112 ((extractStridedSlice S1x256x256 ![9, 0, 0] · slices_S16x256x256_S1x256x256_9_0_0) : (⟨S16x256x256, .f32⟩ : BufTy).Contents (Elt F) → (⟨S1x256x256, .f32⟩ : BufTy).Contents (Elt F)),
    reshape main_v112 main_v113 rfl shapeCasts_S1x256x256_S256x256,
    binary main_arg0 main_v113 main_v114 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v115 ((extractStridedSlice S1x256 ![9, 0] · slices_S16x256_S1x256_9_0) : (⟨S16x256, .f32⟩ : BufTy).Contents (Elt F) → (⟨S1x256, .f32⟩ : BufTy).Contents (Elt F)),
    reshape main_v115 main_v116 rfl shapeCasts_S1x256_S256,
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S200000x256 ![0, 1] bcast_S1x256_S200000x256_0_1 : (⟨S1x256, .f32⟩ : BufTy).Contents (Elt F) → (⟨S200000x256, .f32⟩ : BufTy).Contents (Elt F)),
    binary main_v114 main_v118 main_v119 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v111) (TRef.of (T := ⟨S200000x256, .i1⟩) main_call9_v0) (broadcastInDim S200000x256 ![0, 1] bcast_S200000x1_S200000x256_0_1),
    TRef.ternary (TRef.of (T := ⟨S200000x256, .i1⟩) main_call9_v0) (TRef.of (T := ⟨S200000x256, .f32⟩) main_v119) (TRef.of (T := ⟨S200000x256, .f32⟩) main_v108) (TRef.of (T := ⟨S200000x256, .f32⟩) main_v120) select ]

theorem ops_9_sub : (ops_9 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_9_fresh : ∀ op ∈ (ops_9 : List (HloOp τ sig (Elt F))), op.fresh = ∅ := by
  intro _ h; (repeat (cases h with | head => rfl | tail _ h => ?_)); exact nomatch h

/-- After type 9's line its result buffer holds type 9's step of the arguments and of the result before. -/
theorem read_9 (V : Valuation τ sig (Elt F)) :
    after ops_9 V (Proc.devRef .tc main_v120)
      = Stages.step 9#32 ![9, 0, 0] slices_S16x256x256_S1x256x256_9_0_0 ![9, 0] slices_S16x256_S1x256_9_0
          (V (Proc.devRef .tc main_arg0)) (V (Proc.devRef .tc main_arg1)) (V (Proc.devRef .tc main_arg2)) (V (Proc.devRef .tc main_arg3))
          (V (Proc.devRef .tc main_v108)) := by
  delta ops_9; line_results
  rfl

theorem keep_9_arg0 (V : Valuation τ sig (Elt F)) : after ops_9 V (Proc.devRef .tc main_arg0) = V (Proc.devRef .tc main_arg0) := by
  delta ops_9; line_results
theorem keep_9_arg1 (V : Valuation τ sig (Elt F)) : after ops_9 V (Proc.devRef .tc main_arg1) = V (Proc.devRef .tc main_arg1) := by
  delta ops_9; line_results
theorem keep_9_arg2 (V : Valuation τ sig (Elt F)) : after ops_9 V (Proc.devRef .tc main_arg2) = V (Proc.devRef .tc main_arg2) := by
  delta ops_9; line_results
theorem keep_9_arg3 (V : Valuation τ sig (Elt F)) : after ops_9 V (Proc.devRef .tc main_arg3) = V (Proc.devRef .tc main_arg3) := by
  delta ops_9; line_results

/-! ## Type 10's step -/

/-- Type 10's step: the rows whose type word is 10 as a mask, type 10's weight matrix and bias row sliced out, the whole linear
    of x against them, and the selection of it on the masked rows over the result before. -/
def ops_10 : List (HloOp τ sig (Elt F)) :=
  [ nullary main_c_9 (constantI S_ 32 10#32),
    unary main_c_9 main_v121 (broadcastInDim S200000 ![] bcast_S_S200000 : (⟨S_, .i32⟩ : BufTy).Contents (Elt F) → (⟨S200000, .i32⟩ : BufTy).Contents (Elt F)),
    binary main_arg1 main_v121 main_v122 (cmpi .eq : (⟨S200000, .i32⟩ : BufTy).Contents (Elt F) → (⟨S200000, .i32⟩ : BufTy).Contents (Elt F) → (⟨S200000, .i1⟩ : BufTy).Contents (Elt F)),
    unary main_v122 main_v123 (broadcastInDim S200000x1 ![0] bcast_S200000_S200000x1_0 : (⟨S200000, .i1⟩ : BufTy).Contents (Elt F) → (⟨S200000x1, .i1⟩ : BufTy).Contents (Elt F)),
    unary main_arg2 main_v124 ((extractStridedSlice S1x256x256 ![10, 0, 0] · slices_S16x256x256_S1x256x256_10_0_0) : (⟨S16x256x256, .f32⟩ : BufTy).Contents (Elt F) → (⟨S1x256x256, .f32⟩ : BufTy).Contents (Elt F)),
    reshape main_v124 main_v125 rfl shapeCasts_S1x256x256_S256x256,
    binary main_arg0 main_v125 main_v126 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v127 ((extractStridedSlice S1x256 ![10, 0] · slices_S16x256_S1x256_10_0) : (⟨S16x256, .f32⟩ : BufTy).Contents (Elt F) → (⟨S1x256, .f32⟩ : BufTy).Contents (Elt F)),
    reshape main_v127 main_v128 rfl shapeCasts_S1x256_S256,
    unary main_v128 main_v129 (broadcastInDim S1x256 ![1] bcast_S256_S1x256_1 : (⟨S256, .f32⟩ : BufTy).Contents (Elt F) → (⟨S1x256, .f32⟩ : BufTy).Contents (Elt F)),
    unary main_v129 main_v130 (broadcastInDim S200000x256 ![0, 1] bcast_S1x256_S200000x256_0_1 : (⟨S1x256, .f32⟩ : BufTy).Contents (Elt F) → (⟨S200000x256, .f32⟩ : BufTy).Contents (Elt F)),
    binary main_v126 main_v130 main_v131 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v123) (TRef.of (T := ⟨S200000x256, .i1⟩) main_call10_v0) (broadcastInDim S200000x256 ![0, 1] bcast_S200000x1_S200000x256_0_1),
    TRef.ternary (TRef.of (T := ⟨S200000x256, .i1⟩) main_call10_v0) (TRef.of (T := ⟨S200000x256, .f32⟩) main_v131) (TRef.of (T := ⟨S200000x256, .f32⟩) main_v120) (TRef.of (T := ⟨S200000x256, .f32⟩) main_v132) select ]

theorem ops_10_sub : (ops_10 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_10_fresh : ∀ op ∈ (ops_10 : List (HloOp τ sig (Elt F))), op.fresh = ∅ := by
  intro _ h; (repeat (cases h with | head => rfl | tail _ h => ?_)); exact nomatch h

/-- After type 10's line its result buffer holds type 10's step of the arguments and of the result before. -/
theorem read_10 (V : Valuation τ sig (Elt F)) :
    after ops_10 V (Proc.devRef .tc main_v132)
      = Stages.step 10#32 ![10, 0, 0] slices_S16x256x256_S1x256x256_10_0_0 ![10, 0] slices_S16x256_S1x256_10_0
          (V (Proc.devRef .tc main_arg0)) (V (Proc.devRef .tc main_arg1)) (V (Proc.devRef .tc main_arg2)) (V (Proc.devRef .tc main_arg3))
          (V (Proc.devRef .tc main_v120)) := by
  delta ops_10; line_results
  rfl

theorem keep_10_arg0 (V : Valuation τ sig (Elt F)) : after ops_10 V (Proc.devRef .tc main_arg0) = V (Proc.devRef .tc main_arg0) := by
  delta ops_10; line_results
theorem keep_10_arg1 (V : Valuation τ sig (Elt F)) : after ops_10 V (Proc.devRef .tc main_arg1) = V (Proc.devRef .tc main_arg1) := by
  delta ops_10; line_results
theorem keep_10_arg2 (V : Valuation τ sig (Elt F)) : after ops_10 V (Proc.devRef .tc main_arg2) = V (Proc.devRef .tc main_arg2) := by
  delta ops_10; line_results
theorem keep_10_arg3 (V : Valuation τ sig (Elt F)) : after ops_10 V (Proc.devRef .tc main_arg3) = V (Proc.devRef .tc main_arg3) := by
  delta ops_10; line_results

/-! ## Type 11's step -/

/-- Type 11's step: the rows whose type word is 11 as a mask, type 11's weight matrix and bias row sliced out, the whole linear
    of x against them, and the selection of it on the masked rows over the result before. -/
def ops_11 : List (HloOp τ sig (Elt F)) :=
  [ nullary main_c_10 (constantI S_ 32 11#32),
    unary main_c_10 main_v133 (broadcastInDim S200000 ![] bcast_S_S200000 : (⟨S_, .i32⟩ : BufTy).Contents (Elt F) → (⟨S200000, .i32⟩ : BufTy).Contents (Elt F)),
    binary main_arg1 main_v133 main_v134 (cmpi .eq : (⟨S200000, .i32⟩ : BufTy).Contents (Elt F) → (⟨S200000, .i32⟩ : BufTy).Contents (Elt F) → (⟨S200000, .i1⟩ : BufTy).Contents (Elt F)),
    unary main_v134 main_v135 (broadcastInDim S200000x1 ![0] bcast_S200000_S200000x1_0 : (⟨S200000, .i1⟩ : BufTy).Contents (Elt F) → (⟨S200000x1, .i1⟩ : BufTy).Contents (Elt F)),
    unary main_arg2 main_v136 ((extractStridedSlice S1x256x256 ![11, 0, 0] · slices_S16x256x256_S1x256x256_11_0_0) : (⟨S16x256x256, .f32⟩ : BufTy).Contents (Elt F) → (⟨S1x256x256, .f32⟩ : BufTy).Contents (Elt F)),
    reshape main_v136 main_v137 rfl shapeCasts_S1x256x256_S256x256,
    binary main_arg0 main_v137 main_v138 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v139 ((extractStridedSlice S1x256 ![11, 0] · slices_S16x256_S1x256_11_0) : (⟨S16x256, .f32⟩ : BufTy).Contents (Elt F) → (⟨S1x256, .f32⟩ : BufTy).Contents (Elt F)),
    reshape main_v139 main_v140 rfl shapeCasts_S1x256_S256,
    unary main_v140 main_v141 (broadcastInDim S1x256 ![1] bcast_S256_S1x256_1 : (⟨S256, .f32⟩ : BufTy).Contents (Elt F) → (⟨S1x256, .f32⟩ : BufTy).Contents (Elt F)),
    unary main_v141 main_v142 (broadcastInDim S200000x256 ![0, 1] bcast_S1x256_S200000x256_0_1 : (⟨S1x256, .f32⟩ : BufTy).Contents (Elt F) → (⟨S200000x256, .f32⟩ : BufTy).Contents (Elt F)),
    binary main_v138 main_v142 main_v143 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v135) (TRef.of (T := ⟨S200000x256, .i1⟩) main_call11_v0) (broadcastInDim S200000x256 ![0, 1] bcast_S200000x1_S200000x256_0_1),
    TRef.ternary (TRef.of (T := ⟨S200000x256, .i1⟩) main_call11_v0) (TRef.of (T := ⟨S200000x256, .f32⟩) main_v143) (TRef.of (T := ⟨S200000x256, .f32⟩) main_v132) (TRef.of (T := ⟨S200000x256, .f32⟩) main_v144) select ]

theorem ops_11_sub : (ops_11 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_11_fresh : ∀ op ∈ (ops_11 : List (HloOp τ sig (Elt F))), op.fresh = ∅ := by
  intro _ h; (repeat (cases h with | head => rfl | tail _ h => ?_)); exact nomatch h

/-- After type 11's line its result buffer holds type 11's step of the arguments and of the result before. -/
theorem read_11 (V : Valuation τ sig (Elt F)) :
    after ops_11 V (Proc.devRef .tc main_v144)
      = Stages.step 11#32 ![11, 0, 0] slices_S16x256x256_S1x256x256_11_0_0 ![11, 0] slices_S16x256_S1x256_11_0
          (V (Proc.devRef .tc main_arg0)) (V (Proc.devRef .tc main_arg1)) (V (Proc.devRef .tc main_arg2)) (V (Proc.devRef .tc main_arg3))
          (V (Proc.devRef .tc main_v132)) := by
  delta ops_11; line_results
  rfl

theorem keep_11_arg0 (V : Valuation τ sig (Elt F)) : after ops_11 V (Proc.devRef .tc main_arg0) = V (Proc.devRef .tc main_arg0) := by
  delta ops_11; line_results
theorem keep_11_arg1 (V : Valuation τ sig (Elt F)) : after ops_11 V (Proc.devRef .tc main_arg1) = V (Proc.devRef .tc main_arg1) := by
  delta ops_11; line_results
theorem keep_11_arg2 (V : Valuation τ sig (Elt F)) : after ops_11 V (Proc.devRef .tc main_arg2) = V (Proc.devRef .tc main_arg2) := by
  delta ops_11; line_results
theorem keep_11_arg3 (V : Valuation τ sig (Elt F)) : after ops_11 V (Proc.devRef .tc main_arg3) = V (Proc.devRef .tc main_arg3) := by
  delta ops_11; line_results

/-! ## Type 12's step -/

/-- Type 12's step: the rows whose type word is 12 as a mask, type 12's weight matrix and bias row sliced out, the whole linear
    of x against them, and the selection of it on the masked rows over the result before. -/
def ops_12 : List (HloOp τ sig (Elt F)) :=
  [ nullary main_c_11 (constantI S_ 32 12#32),
    unary main_c_11 main_v145 (broadcastInDim S200000 ![] bcast_S_S200000 : (⟨S_, .i32⟩ : BufTy).Contents (Elt F) → (⟨S200000, .i32⟩ : BufTy).Contents (Elt F)),
    binary main_arg1 main_v145 main_v146 (cmpi .eq : (⟨S200000, .i32⟩ : BufTy).Contents (Elt F) → (⟨S200000, .i32⟩ : BufTy).Contents (Elt F) → (⟨S200000, .i1⟩ : BufTy).Contents (Elt F)),
    unary main_v146 main_v147 (broadcastInDim S200000x1 ![0] bcast_S200000_S200000x1_0 : (⟨S200000, .i1⟩ : BufTy).Contents (Elt F) → (⟨S200000x1, .i1⟩ : BufTy).Contents (Elt F)),
    unary main_arg2 main_v148 ((extractStridedSlice S1x256x256 ![12, 0, 0] · slices_S16x256x256_S1x256x256_12_0_0) : (⟨S16x256x256, .f32⟩ : BufTy).Contents (Elt F) → (⟨S1x256x256, .f32⟩ : BufTy).Contents (Elt F)),
    reshape main_v148 main_v149 rfl shapeCasts_S1x256x256_S256x256,
    binary main_arg0 main_v149 main_v150 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v151 ((extractStridedSlice S1x256 ![12, 0] · slices_S16x256_S1x256_12_0) : (⟨S16x256, .f32⟩ : BufTy).Contents (Elt F) → (⟨S1x256, .f32⟩ : BufTy).Contents (Elt F)),
    reshape main_v151 main_v152 rfl shapeCasts_S1x256_S256,
    unary main_v152 main_v153 (broadcastInDim S1x256 ![1] bcast_S256_S1x256_1 : (⟨S256, .f32⟩ : BufTy).Contents (Elt F) → (⟨S1x256, .f32⟩ : BufTy).Contents (Elt F)),
    unary main_v153 main_v154 (broadcastInDim S200000x256 ![0, 1] bcast_S1x256_S200000x256_0_1 : (⟨S1x256, .f32⟩ : BufTy).Contents (Elt F) → (⟨S200000x256, .f32⟩ : BufTy).Contents (Elt F)),
    binary main_v150 main_v154 main_v155 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v147) (TRef.of (T := ⟨S200000x256, .i1⟩) main_call12_v0) (broadcastInDim S200000x256 ![0, 1] bcast_S200000x1_S200000x256_0_1),
    TRef.ternary (TRef.of (T := ⟨S200000x256, .i1⟩) main_call12_v0) (TRef.of (T := ⟨S200000x256, .f32⟩) main_v155) (TRef.of (T := ⟨S200000x256, .f32⟩) main_v144) (TRef.of (T := ⟨S200000x256, .f32⟩) main_v156) select ]

theorem ops_12_sub : (ops_12 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_12_fresh : ∀ op ∈ (ops_12 : List (HloOp τ sig (Elt F))), op.fresh = ∅ := by
  intro _ h; (repeat (cases h with | head => rfl | tail _ h => ?_)); exact nomatch h

/-- After type 12's line its result buffer holds type 12's step of the arguments and of the result before. -/
theorem read_12 (V : Valuation τ sig (Elt F)) :
    after ops_12 V (Proc.devRef .tc main_v156)
      = Stages.step 12#32 ![12, 0, 0] slices_S16x256x256_S1x256x256_12_0_0 ![12, 0] slices_S16x256_S1x256_12_0
          (V (Proc.devRef .tc main_arg0)) (V (Proc.devRef .tc main_arg1)) (V (Proc.devRef .tc main_arg2)) (V (Proc.devRef .tc main_arg3))
          (V (Proc.devRef .tc main_v144)) := by
  delta ops_12; line_results
  rfl

theorem keep_12_arg0 (V : Valuation τ sig (Elt F)) : after ops_12 V (Proc.devRef .tc main_arg0) = V (Proc.devRef .tc main_arg0) := by
  delta ops_12; line_results
theorem keep_12_arg1 (V : Valuation τ sig (Elt F)) : after ops_12 V (Proc.devRef .tc main_arg1) = V (Proc.devRef .tc main_arg1) := by
  delta ops_12; line_results
theorem keep_12_arg2 (V : Valuation τ sig (Elt F)) : after ops_12 V (Proc.devRef .tc main_arg2) = V (Proc.devRef .tc main_arg2) := by
  delta ops_12; line_results
theorem keep_12_arg3 (V : Valuation τ sig (Elt F)) : after ops_12 V (Proc.devRef .tc main_arg3) = V (Proc.devRef .tc main_arg3) := by
  delta ops_12; line_results

/-! ## Type 13's step -/

/-- Type 13's step: the rows whose type word is 13 as a mask, type 13's weight matrix and bias row sliced out, the whole linear
    of x against them, and the selection of it on the masked rows over the result before. -/
def ops_13 : List (HloOp τ sig (Elt F)) :=
  [ nullary main_c_12 (constantI S_ 32 13#32),
    unary main_c_12 main_v157 (broadcastInDim S200000 ![] bcast_S_S200000 : (⟨S_, .i32⟩ : BufTy).Contents (Elt F) → (⟨S200000, .i32⟩ : BufTy).Contents (Elt F)),
    binary main_arg1 main_v157 main_v158 (cmpi .eq : (⟨S200000, .i32⟩ : BufTy).Contents (Elt F) → (⟨S200000, .i32⟩ : BufTy).Contents (Elt F) → (⟨S200000, .i1⟩ : BufTy).Contents (Elt F)),
    unary main_v158 main_v159 (broadcastInDim S200000x1 ![0] bcast_S200000_S200000x1_0 : (⟨S200000, .i1⟩ : BufTy).Contents (Elt F) → (⟨S200000x1, .i1⟩ : BufTy).Contents (Elt F)),
    unary main_arg2 main_v160 ((extractStridedSlice S1x256x256 ![13, 0, 0] · slices_S16x256x256_S1x256x256_13_0_0) : (⟨S16x256x256, .f32⟩ : BufTy).Contents (Elt F) → (⟨S1x256x256, .f32⟩ : BufTy).Contents (Elt F)),
    reshape main_v160 main_v161 rfl shapeCasts_S1x256x256_S256x256,
    binary main_arg0 main_v161 main_v162 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v163 ((extractStridedSlice S1x256 ![13, 0] · slices_S16x256_S1x256_13_0) : (⟨S16x256, .f32⟩ : BufTy).Contents (Elt F) → (⟨S1x256, .f32⟩ : BufTy).Contents (Elt F)),
    reshape main_v163 main_v164 rfl shapeCasts_S1x256_S256,
    unary main_v164 main_v165 (broadcastInDim S1x256 ![1] bcast_S256_S1x256_1 : (⟨S256, .f32⟩ : BufTy).Contents (Elt F) → (⟨S1x256, .f32⟩ : BufTy).Contents (Elt F)),
    unary main_v165 main_v166 (broadcastInDim S200000x256 ![0, 1] bcast_S1x256_S200000x256_0_1 : (⟨S1x256, .f32⟩ : BufTy).Contents (Elt F) → (⟨S200000x256, .f32⟩ : BufTy).Contents (Elt F)),
    binary main_v162 main_v166 main_v167 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v159) (TRef.of (T := ⟨S200000x256, .i1⟩) main_call13_v0) (broadcastInDim S200000x256 ![0, 1] bcast_S200000x1_S200000x256_0_1),
    TRef.ternary (TRef.of (T := ⟨S200000x256, .i1⟩) main_call13_v0) (TRef.of (T := ⟨S200000x256, .f32⟩) main_v167) (TRef.of (T := ⟨S200000x256, .f32⟩) main_v156) (TRef.of (T := ⟨S200000x256, .f32⟩) main_v168) select ]

theorem ops_13_sub : (ops_13 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_13_fresh : ∀ op ∈ (ops_13 : List (HloOp τ sig (Elt F))), op.fresh = ∅ := by
  intro _ h; (repeat (cases h with | head => rfl | tail _ h => ?_)); exact nomatch h

/-- After type 13's line its result buffer holds type 13's step of the arguments and of the result before. -/
theorem read_13 (V : Valuation τ sig (Elt F)) :
    after ops_13 V (Proc.devRef .tc main_v168)
      = Stages.step 13#32 ![13, 0, 0] slices_S16x256x256_S1x256x256_13_0_0 ![13, 0] slices_S16x256_S1x256_13_0
          (V (Proc.devRef .tc main_arg0)) (V (Proc.devRef .tc main_arg1)) (V (Proc.devRef .tc main_arg2)) (V (Proc.devRef .tc main_arg3))
          (V (Proc.devRef .tc main_v156)) := by
  delta ops_13; line_results
  rfl

theorem keep_13_arg0 (V : Valuation τ sig (Elt F)) : after ops_13 V (Proc.devRef .tc main_arg0) = V (Proc.devRef .tc main_arg0) := by
  delta ops_13; line_results
theorem keep_13_arg1 (V : Valuation τ sig (Elt F)) : after ops_13 V (Proc.devRef .tc main_arg1) = V (Proc.devRef .tc main_arg1) := by
  delta ops_13; line_results
theorem keep_13_arg2 (V : Valuation τ sig (Elt F)) : after ops_13 V (Proc.devRef .tc main_arg2) = V (Proc.devRef .tc main_arg2) := by
  delta ops_13; line_results
theorem keep_13_arg3 (V : Valuation τ sig (Elt F)) : after ops_13 V (Proc.devRef .tc main_arg3) = V (Proc.devRef .tc main_arg3) := by
  delta ops_13; line_results

/-! ## Type 14's step -/

/-- Type 14's step: the rows whose type word is 14 as a mask, type 14's weight matrix and bias row sliced out, the whole linear
    of x against them, and the selection of it on the masked rows over the result before. -/
def ops_14 : List (HloOp τ sig (Elt F)) :=
  [ nullary main_c_13 (constantI S_ 32 14#32),
    unary main_c_13 main_v169 (broadcastInDim S200000 ![] bcast_S_S200000 : (⟨S_, .i32⟩ : BufTy).Contents (Elt F) → (⟨S200000, .i32⟩ : BufTy).Contents (Elt F)),
    binary main_arg1 main_v169 main_v170 (cmpi .eq : (⟨S200000, .i32⟩ : BufTy).Contents (Elt F) → (⟨S200000, .i32⟩ : BufTy).Contents (Elt F) → (⟨S200000, .i1⟩ : BufTy).Contents (Elt F)),
    unary main_v170 main_v171 (broadcastInDim S200000x1 ![0] bcast_S200000_S200000x1_0 : (⟨S200000, .i1⟩ : BufTy).Contents (Elt F) → (⟨S200000x1, .i1⟩ : BufTy).Contents (Elt F)),
    unary main_arg2 main_v172 ((extractStridedSlice S1x256x256 ![14, 0, 0] · slices_S16x256x256_S1x256x256_14_0_0) : (⟨S16x256x256, .f32⟩ : BufTy).Contents (Elt F) → (⟨S1x256x256, .f32⟩ : BufTy).Contents (Elt F)),
    reshape main_v172 main_v173 rfl shapeCasts_S1x256x256_S256x256,
    binary main_arg0 main_v173 main_v174 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v175 ((extractStridedSlice S1x256 ![14, 0] · slices_S16x256_S1x256_14_0) : (⟨S16x256, .f32⟩ : BufTy).Contents (Elt F) → (⟨S1x256, .f32⟩ : BufTy).Contents (Elt F)),
    reshape main_v175 main_v176 rfl shapeCasts_S1x256_S256,
    unary main_v176 main_v177 (broadcastInDim S1x256 ![1] bcast_S256_S1x256_1 : (⟨S256, .f32⟩ : BufTy).Contents (Elt F) → (⟨S1x256, .f32⟩ : BufTy).Contents (Elt F)),
    unary main_v177 main_v178 (broadcastInDim S200000x256 ![0, 1] bcast_S1x256_S200000x256_0_1 : (⟨S1x256, .f32⟩ : BufTy).Contents (Elt F) → (⟨S200000x256, .f32⟩ : BufTy).Contents (Elt F)),
    binary main_v174 main_v178 main_v179 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v171) (TRef.of (T := ⟨S200000x256, .i1⟩) main_call14_v0) (broadcastInDim S200000x256 ![0, 1] bcast_S200000x1_S200000x256_0_1),
    TRef.ternary (TRef.of (T := ⟨S200000x256, .i1⟩) main_call14_v0) (TRef.of (T := ⟨S200000x256, .f32⟩) main_v179) (TRef.of (T := ⟨S200000x256, .f32⟩) main_v168) (TRef.of (T := ⟨S200000x256, .f32⟩) main_v180) select ]

theorem ops_14_sub : (ops_14 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_14_fresh : ∀ op ∈ (ops_14 : List (HloOp τ sig (Elt F))), op.fresh = ∅ := by
  intro _ h; (repeat (cases h with | head => rfl | tail _ h => ?_)); exact nomatch h

/-- After type 14's line its result buffer holds type 14's step of the arguments and of the result before. -/
theorem read_14 (V : Valuation τ sig (Elt F)) :
    after ops_14 V (Proc.devRef .tc main_v180)
      = Stages.step 14#32 ![14, 0, 0] slices_S16x256x256_S1x256x256_14_0_0 ![14, 0] slices_S16x256_S1x256_14_0
          (V (Proc.devRef .tc main_arg0)) (V (Proc.devRef .tc main_arg1)) (V (Proc.devRef .tc main_arg2)) (V (Proc.devRef .tc main_arg3))
          (V (Proc.devRef .tc main_v168)) := by
  delta ops_14; line_results
  rfl

theorem keep_14_arg0 (V : Valuation τ sig (Elt F)) : after ops_14 V (Proc.devRef .tc main_arg0) = V (Proc.devRef .tc main_arg0) := by
  delta ops_14; line_results
theorem keep_14_arg1 (V : Valuation τ sig (Elt F)) : after ops_14 V (Proc.devRef .tc main_arg1) = V (Proc.devRef .tc main_arg1) := by
  delta ops_14; line_results
theorem keep_14_arg2 (V : Valuation τ sig (Elt F)) : after ops_14 V (Proc.devRef .tc main_arg2) = V (Proc.devRef .tc main_arg2) := by
  delta ops_14; line_results
theorem keep_14_arg3 (V : Valuation τ sig (Elt F)) : after ops_14 V (Proc.devRef .tc main_arg3) = V (Proc.devRef .tc main_arg3) := by
  delta ops_14; line_results

/-! ## Type 15's step -/

/-- Type 15's step: the rows whose type word is 15 as a mask, type 15's weight matrix and bias row sliced out, the whole linear
    of x against them, and the selection of it on the masked rows over the result before. -/
def ops_15 : List (HloOp τ sig (Elt F)) :=
  [ nullary main_c_14 (constantI S_ 32 15#32),
    unary main_c_14 main_v181 (broadcastInDim S200000 ![] bcast_S_S200000 : (⟨S_, .i32⟩ : BufTy).Contents (Elt F) → (⟨S200000, .i32⟩ : BufTy).Contents (Elt F)),
    binary main_arg1 main_v181 main_v182 (cmpi .eq : (⟨S200000, .i32⟩ : BufTy).Contents (Elt F) → (⟨S200000, .i32⟩ : BufTy).Contents (Elt F) → (⟨S200000, .i1⟩ : BufTy).Contents (Elt F)),
    unary main_v182 main_v183 (broadcastInDim S200000x1 ![0] bcast_S200000_S200000x1_0 : (⟨S200000, .i1⟩ : BufTy).Contents (Elt F) → (⟨S200000x1, .i1⟩ : BufTy).Contents (Elt F)),
    unary main_arg2 main_v184 ((extractStridedSlice S1x256x256 ![15, 0, 0] · slices_S16x256x256_S1x256x256_15_0_0) : (⟨S16x256x256, .f32⟩ : BufTy).Contents (Elt F) → (⟨S1x256x256, .f32⟩ : BufTy).Contents (Elt F)),
    reshape main_v184 main_v185 rfl shapeCasts_S1x256x256_S256x256,
    binary main_arg0 main_v185 main_v186 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v187 ((extractStridedSlice S1x256 ![15, 0] · slices_S16x256_S1x256_15_0) : (⟨S16x256, .f32⟩ : BufTy).Contents (Elt F) → (⟨S1x256, .f32⟩ : BufTy).Contents (Elt F)),
    reshape main_v187 main_v188 rfl shapeCasts_S1x256_S256,
    unary main_v188 main_v189 (broadcastInDim S1x256 ![1] bcast_S256_S1x256_1 : (⟨S256, .f32⟩ : BufTy).Contents (Elt F) → (⟨S1x256, .f32⟩ : BufTy).Contents (Elt F)),
    unary main_v189 main_v190 (broadcastInDim S200000x256 ![0, 1] bcast_S1x256_S200000x256_0_1 : (⟨S1x256, .f32⟩ : BufTy).Contents (Elt F) → (⟨S200000x256, .f32⟩ : BufTy).Contents (Elt F)),
    binary main_v186 main_v190 main_v191 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v183) (TRef.of (T := ⟨S200000x256, .i1⟩) main_call15_v0) (broadcastInDim S200000x256 ![0, 1] bcast_S200000x1_S200000x256_0_1),
    TRef.ternary (TRef.of (T := ⟨S200000x256, .i1⟩) main_call15_v0) (TRef.of (T := ⟨S200000x256, .f32⟩) main_v191) (TRef.of (T := ⟨S200000x256, .f32⟩) main_v180) (TRef.of (T := ⟨S200000x256, .f32⟩) main_v192) select ]

theorem ops_15_sub : (ops_15 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., unary_bufs_sub .., ternary_bufs_sub ..⟩

theorem ops_15_fresh : ∀ op ∈ (ops_15 : List (HloOp τ sig (Elt F))), op.fresh = ∅ := by
  intro _ h; (repeat (cases h with | head => rfl | tail _ h => ?_)); exact nomatch h

/-- After type 15's line its result buffer holds type 15's step of the arguments and of the result before. -/
theorem read_15 (V : Valuation τ sig (Elt F)) :
    after ops_15 V (Proc.devRef .tc main_v192)
      = Stages.step 15#32 ![15, 0, 0] slices_S16x256x256_S1x256x256_15_0_0 ![15, 0] slices_S16x256_S1x256_15_0
          (V (Proc.devRef .tc main_arg0)) (V (Proc.devRef .tc main_arg1)) (V (Proc.devRef .tc main_arg2)) (V (Proc.devRef .tc main_arg3))
          (V (Proc.devRef .tc main_v180)) := by
  delta ops_15; line_results
  rfl

theorem keep_15_arg0 (V : Valuation τ sig (Elt F)) : after ops_15 V (Proc.devRef .tc main_arg0) = V (Proc.devRef .tc main_arg0) := by
  delta ops_15; line_results
theorem keep_15_arg1 (V : Valuation τ sig (Elt F)) : after ops_15 V (Proc.devRef .tc main_arg1) = V (Proc.devRef .tc main_arg1) := by
  delta ops_15; line_results
theorem keep_15_arg2 (V : Valuation τ sig (Elt F)) : after ops_15 V (Proc.devRef .tc main_arg2) = V (Proc.devRef .tc main_arg2) := by
  delta ops_15; line_results
theorem keep_15_arg3 (V : Valuation τ sig (Elt F)) : after ops_15 V (Proc.devRef .tc main_arg3) = V (Proc.devRef .tc main_arg3) := by
  delta ops_15; line_results

/-! ## The whole line -/

/-- @main's operations: the zeros, then the sixteen steps in type order. -/
def opsAll : List (HloOp τ sig (Elt F)) :=
  ops_head ++ (ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15))))))))))))))))

/-! @main is four parts run in order; a part ends inside type 4's, type 9's and type 13's lines, so those three lines are
    cut there. -/

/-- Type 4's line in two pieces: its first 6 operations (up to the weight matrix, reshaped), and the rest (from the linear on). -/
def ops_4a : List (HloOp τ sig (Elt F)) :=
  [ nullary main_c_3 (constantI S_ 32 4#32),
    unary main_c_3 main_v49 (broadcastInDim S200000 ![] bcast_S_S200000 : (⟨S_, .i32⟩ : BufTy).Contents (Elt F) → (⟨S200000, .i32⟩ : BufTy).Contents (Elt F)),
    binary main_arg1 main_v49 main_v50 (cmpi .eq : (⟨S200000, .i32⟩ : BufTy).Contents (Elt F) → (⟨S200000, .i32⟩ : BufTy).Contents (Elt F) → (⟨S200000, .i1⟩ : BufTy).Contents (Elt F)),
    unary main_v50 main_v51 (broadcastInDim S200000x1 ![0] bcast_S200000_S200000x1_0 : (⟨S200000, .i1⟩ : BufTy).Contents (Elt F) → (⟨S200000x1, .i1⟩ : BufTy).Contents (Elt F)),
    unary main_arg2 main_v52 ((extractStridedSlice S1x256x256 ![4, 0, 0] · slices_S16x256x256_S1x256x256_4_0_0) : (⟨S16x256x256, .f32⟩ : BufTy).Contents (Elt F) → (⟨S1x256x256, .f32⟩ : BufTy).Contents (Elt F)),
    reshape main_v52 main_v53 rfl shapeCasts_S1x256x256_S256x256 ]

@[inherit_doc ops_4a]
def ops_4b : List (HloOp τ sig (Elt F)) :=
  [ binary main_arg0 main_v53 main_v54 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v55 ((extractStridedSlice S1x256 ![4, 0] · slices_S16x256_S1x256_4_0) : (⟨S16x256, .f32⟩ : BufTy).Contents (Elt F) → (⟨S1x256, .f32⟩ : BufTy).Contents (Elt F)),
    reshape main_v55 main_v56 rfl shapeCasts_S1x256_S256,
    unary main_v56 main_v57 (broadcastInDim S1x256 ![1] bcast_S256_S1x256_1 : (⟨S256, .f32⟩ : BufTy).Contents (Elt F) → (⟨S1x256, .f32⟩ : BufTy).Contents (Elt F)),
    unary main_v57 main_v58 (broadcastInDim S200000x256 ![0, 1] bcast_S1x256_S200000x256_0_1 : (⟨S1x256, .f32⟩ : BufTy).Contents (Elt F) → (⟨S200000x256, .f32⟩ : BufTy).Contents (Elt F)),
    binary main_v54 main_v58 main_v59 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v51) (TRef.of (T := ⟨S200000x256, .i1⟩) main_call4_v0) (broadcastInDim S200000x256 ![0, 1] bcast_S200000x1_S200000x256_0_1),
    TRef.ternary (TRef.of (T := ⟨S200000x256, .i1⟩) main_call4_v0) (TRef.of (T := ⟨S200000x256, .f32⟩) main_v59) (TRef.of (T := ⟨S200000x256, .f32⟩) main_v48) (TRef.of (T := ⟨S200000x256, .f32⟩) main_v60) select ]

theorem ops_4_split : (ops_4 : List (HloOp τ sig (Elt F))) = ops_4a ++ ops_4b := rfl

/-- Type 9's line in two pieces: its first operation (the type's word), and the rest (from its spreading over the rows on). -/
def ops_9a : List (HloOp τ sig (Elt F)) :=
  [ nullary main_c_8 (constantI S_ 32 9#32) ]

@[inherit_doc ops_9a]
def ops_9b : List (HloOp τ sig (Elt F)) :=
  [ unary main_c_8 main_v109 (broadcastInDim S200000 ![] bcast_S_S200000 : (⟨S_, .i32⟩ : BufTy).Contents (Elt F) → (⟨S200000, .i32⟩ : BufTy).Contents (Elt F)),
    binary main_arg1 main_v109 main_v110 (cmpi .eq : (⟨S200000, .i32⟩ : BufTy).Contents (Elt F) → (⟨S200000, .i32⟩ : BufTy).Contents (Elt F) → (⟨S200000, .i1⟩ : BufTy).Contents (Elt F)),
    unary main_v110 main_v111 (broadcastInDim S200000x1 ![0] bcast_S200000_S200000x1_0 : (⟨S200000, .i1⟩ : BufTy).Contents (Elt F) → (⟨S200000x1, .i1⟩ : BufTy).Contents (Elt F)),
    unary main_arg2 main_v112 ((extractStridedSlice S1x256x256 ![9, 0, 0] · slices_S16x256x256_S1x256x256_9_0_0) : (⟨S16x256x256, .f32⟩ : BufTy).Contents (Elt F) → (⟨S1x256x256, .f32⟩ : BufTy).Contents (Elt F)),
    reshape main_v112 main_v113 rfl shapeCasts_S1x256x256_S256x256,
    binary main_arg0 main_v113 main_v114 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v115 ((extractStridedSlice S1x256 ![9, 0] · slices_S16x256_S1x256_9_0) : (⟨S16x256, .f32⟩ : BufTy).Contents (Elt F) → (⟨S1x256, .f32⟩ : BufTy).Contents (Elt F)),
    reshape main_v115 main_v116 rfl shapeCasts_S1x256_S256,
    unary main_v116 main_v117 (broadcastInDim S1x256 ![1] bcast_S256_S1x256_1 : (⟨S256, .f32⟩ : BufTy).Contents (Elt F) → (⟨S1x256, .f32⟩ : BufTy).Contents (Elt F)),
    unary main_v117 main_v118 (broadcastInDim S200000x256 ![0, 1] bcast_S1x256_S200000x256_0_1 : (⟨S1x256, .f32⟩ : BufTy).Contents (Elt F) → (⟨S200000x256, .f32⟩ : BufTy).Contents (Elt F)),
    binary main_v114 main_v118 main_v119 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v111) (TRef.of (T := ⟨S200000x256, .i1⟩) main_call9_v0) (broadcastInDim S200000x256 ![0, 1] bcast_S200000x1_S200000x256_0_1),
    TRef.ternary (TRef.of (T := ⟨S200000x256, .i1⟩) main_call9_v0) (TRef.of (T := ⟨S200000x256, .f32⟩) main_v119) (TRef.of (T := ⟨S200000x256, .f32⟩) main_v108) (TRef.of (T := ⟨S200000x256, .f32⟩) main_v120) select ]

theorem ops_9_split : (ops_9 : List (HloOp τ sig (Elt F))) = ops_9a ++ ops_9b := rfl

/-- Type 13's line in two pieces: its first 9 operations (up to the bias row, reshaped), and the rest (from its spreading over the columns on). -/
def ops_13a : List (HloOp τ sig (Elt F)) :=
  [ nullary main_c_12 (constantI S_ 32 13#32),
    unary main_c_12 main_v157 (broadcastInDim S200000 ![] bcast_S_S200000 : (⟨S_, .i32⟩ : BufTy).Contents (Elt F) → (⟨S200000, .i32⟩ : BufTy).Contents (Elt F)),
    binary main_arg1 main_v157 main_v158 (cmpi .eq : (⟨S200000, .i32⟩ : BufTy).Contents (Elt F) → (⟨S200000, .i32⟩ : BufTy).Contents (Elt F) → (⟨S200000, .i1⟩ : BufTy).Contents (Elt F)),
    unary main_v158 main_v159 (broadcastInDim S200000x1 ![0] bcast_S200000_S200000x1_0 : (⟨S200000, .i1⟩ : BufTy).Contents (Elt F) → (⟨S200000x1, .i1⟩ : BufTy).Contents (Elt F)),
    unary main_arg2 main_v160 ((extractStridedSlice S1x256x256 ![13, 0, 0] · slices_S16x256x256_S1x256x256_13_0_0) : (⟨S16x256x256, .f32⟩ : BufTy).Contents (Elt F) → (⟨S1x256x256, .f32⟩ : BufTy).Contents (Elt F)),
    reshape main_v160 main_v161 rfl shapeCasts_S1x256x256_S256x256,
    binary main_arg0 main_v161 main_v162 ((fun l r => Host.dotGeneral dot_S200000x256_S256x256_S200000x256_1_1_0_0_n_n none l r) : (⟨S200000x256, .f32⟩ : BufTy).Contents (Elt F) → (⟨S256x256, .f32⟩ : BufTy).Contents (Elt F) → (⟨S200000x256, .f32⟩ : BufTy).Contents (Elt F)),
    unary main_arg3 main_v163 ((extractStridedSlice S1x256 ![13, 0] · slices_S16x256_S1x256_13_0) : (⟨S16x256, .f32⟩ : BufTy).Contents (Elt F) → (⟨S1x256, .f32⟩ : BufTy).Contents (Elt F)),
    reshape main_v163 main_v164 rfl shapeCasts_S1x256_S256 ]

@[inherit_doc ops_13a]
def ops_13b : List (HloOp τ sig (Elt F)) :=
  [ unary main_v164 main_v165 (broadcastInDim S1x256 ![1] bcast_S256_S1x256_1 : (⟨S256, .f32⟩ : BufTy).Contents (Elt F) → (⟨S1x256, .f32⟩ : BufTy).Contents (Elt F)),
    unary main_v165 main_v166 (broadcastInDim S200000x256 ![0, 1] bcast_S1x256_S200000x256_0_1 : (⟨S1x256, .f32⟩ : BufTy).Contents (Elt F) → (⟨S200000x256, .f32⟩ : BufTy).Contents (Elt F)),
    binary main_v162 main_v166 main_v167 (addf : (⟨S200000x256, .f32⟩ : BufTy).Contents (Elt F) → (⟨S200000x256, .f32⟩ : BufTy).Contents (Elt F) → (⟨S200000x256, .f32⟩ : BufTy).Contents (Elt F)),
    TRef.unary (TRef.of (T := ⟨S200000x1, .i1⟩) main_v159) (TRef.of (T := ⟨S200000x256, .i1⟩) main_call13_v0) (broadcastInDim S200000x256 ![0, 1] bcast_S200000x1_S200000x256_0_1),
    TRef.ternary (TRef.of (T := ⟨S200000x256, .i1⟩) main_call13_v0) (TRef.of (T := ⟨S200000x256, .f32⟩) main_v167) (TRef.of (T := ⟨S200000x256, .f32⟩) main_v156) (TRef.of (T := ⟨S200000x256, .f32⟩) main_v168) select ]

theorem ops_13_split : (ops_13 : List (HloOp τ sig (Elt F))) = ops_13a ++ ops_13b := rfl

/-- The operations of @main's part 0. -/
def win_0 : List (HloOp τ sig (Elt F)) :=
  ops_head ++ (ops_0 ++ (ops_1 ++ (ops_2 ++ (ops_3 ++ (ops_4a)))))

set_option maxRecDepth 8192 in
set_option maxHeartbeats 4000000 in
/-- @main's part 0 runs exactly its operations, in order. -/
theorem main_part0_eq (c : Dev nD) : main_part0 (F := F) c = seq win_0 := rfl

/-- The operations of @main's part 1. -/
def win_1 : List (HloOp τ sig (Elt F)) :=
  ops_4b ++ (ops_5 ++ (ops_6 ++ (ops_7 ++ (ops_8 ++ (ops_9a)))))

set_option maxRecDepth 8192 in
set_option maxHeartbeats 4000000 in
/-- @main's part 1 runs exactly its operations, in order. -/
theorem main_part1_eq (c : Dev nD) : main_part1 (F := F) c = seq win_1 := rfl

/-- The operations of @main's part 2. -/
def win_2 : List (HloOp τ sig (Elt F)) :=
  ops_9b ++ (ops_10 ++ (ops_11 ++ (ops_12 ++ (ops_13a))))

set_option maxRecDepth 8192 in
set_option maxHeartbeats 4000000 in
/-- @main's part 2 runs exactly its operations, in order. -/
theorem main_part2_eq (c : Dev nD) : main_part2 (F := F) c = seq win_2 := rfl

/-- The operations of @main's part 3. -/
def win_3 : List (HloOp τ sig (Elt F)) :=
  ops_13b ++ (ops_14 ++ (ops_15))

set_option maxRecDepth 8192 in
set_option maxHeartbeats 4000000 in
/-- @main's part 3 runs exactly its operations, in order. -/
theorem main_part3_eq (c : Dev nD) : main_part3 (F := F) c = seq win_3 := rfl

/-- The whole line is the four parts' operations in a row. -/
theorem opsAll_eq : (opsAll : List (HloOp τ sig (Elt F))) = win_0 ++ (win_1 ++ (win_2 ++ win_3)) := by
  delta opsAll win_0 win_1 win_2 win_3
  rw [ops_4_split, ops_9_split, ops_13_split]
  repeat rw [List.append_assoc]

/-- @main runs exactly these operations, in this order. -/
theorem main_eq (c : Dev nD) : main (F := F) c = seq opsAll := by
  rw [opsAll_eq, seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Two lines whose operations touch TensorCore buffers only, in a row. -/
private theorem sub_app {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_append.mpr ⟨h₁, h₂⟩

/-- Two lines whose operations determine their results, in a row. -/
private theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op hop => (List.mem_append.mp hop).elim (h₁ op) (h₂ op)

/-- Every operation touches TensorCore buffers only. -/
theorem opsAll_sub : (opsAll : List (HloOp τ sig (Elt F))).Forall fun op => op.bufs ⊆ tcRefs τ sig := by
  delta opsAll
  exact sub_app ops_head_sub (sub_app ops_0_sub (sub_app ops_1_sub (sub_app ops_2_sub (sub_app ops_3_sub (sub_app ops_4_sub (sub_app ops_5_sub (sub_app ops_6_sub (sub_app ops_7_sub (sub_app ops_8_sub (sub_app ops_9_sub (sub_app ops_10_sub (sub_app ops_11_sub (sub_app ops_12_sub (sub_app ops_13_sub (sub_app ops_14_sub (ops_15_sub))))))))))))))))

/-- Every operation determines its result. -/
theorem opsAll_fresh : ∀ op ∈ (opsAll : List (HloOp τ sig (Elt F))), op.fresh = ∅ := by
  delta opsAll
  exact fresh_app ops_head_fresh (fresh_app ops_0_fresh (fresh_app ops_1_fresh (fresh_app ops_2_fresh (fresh_app ops_3_fresh (fresh_app ops_4_fresh (fresh_app ops_5_fresh (fresh_app ops_6_fresh (fresh_app ops_7_fresh (fresh_app ops_8_fresh (fresh_app ops_9_fresh (fresh_app ops_10_fresh (fresh_app ops_11_fresh (fresh_app ops_12_fresh (fresh_app ops_13_fresh (fresh_app ops_14_fresh (ops_15_fresh))))))))))))))))

/-- No operation of the line writes argument 0. -/
theorem after_all_arg0 (V : Valuation τ sig (Elt F)) : after opsAll V (Proc.devRef .tc main_arg0) = V (Proc.devRef .tc main_arg0) := by
  delta opsAll
  rw [after_app, after_app, after_app, after_app, after_app, after_app, after_app, after_app, after_app, after_app, after_app, after_app, after_app, after_app, after_app, after_app]
  rw [keep_15_arg0, keep_14_arg0, keep_13_arg0, keep_12_arg0, keep_11_arg0, keep_10_arg0, keep_9_arg0, keep_8_arg0, keep_7_arg0, keep_6_arg0, keep_5_arg0, keep_4_arg0, keep_3_arg0, keep_2_arg0, keep_1_arg0, keep_0_arg0, keep_head_arg0]

/-- No operation of the line writes argument 1. -/
theorem after_all_arg1 (V : Valuation τ sig (Elt F)) : after opsAll V (Proc.devRef .tc main_arg1) = V (Proc.devRef .tc main_arg1) := by
  delta opsAll
  rw [after_app, after_app, after_app, after_app, after_app, after_app, after_app, after_app, after_app, after_app, after_app, after_app, after_app, after_app, after_app, after_app]
  rw [keep_15_arg1, keep_14_arg1, keep_13_arg1, keep_12_arg1, keep_11_arg1, keep_10_arg1, keep_9_arg1, keep_8_arg1, keep_7_arg1, keep_6_arg1, keep_5_arg1, keep_4_arg1, keep_3_arg1, keep_2_arg1, keep_1_arg1, keep_0_arg1, keep_head_arg1]

/-- No operation of the line writes argument 2. -/
theorem after_all_arg2 (V : Valuation τ sig (Elt F)) : after opsAll V (Proc.devRef .tc main_arg2) = V (Proc.devRef .tc main_arg2) := by
  delta opsAll
  rw [after_app, after_app, after_app, after_app, after_app, after_app, after_app, after_app, after_app, after_app, after_app, after_app, after_app, after_app, after_app, after_app]
  rw [keep_15_arg2, keep_14_arg2, keep_13_arg2, keep_12_arg2, keep_11_arg2, keep_10_arg2, keep_9_arg2, keep_8_arg2, keep_7_arg2, keep_6_arg2, keep_5_arg2, keep_4_arg2, keep_3_arg2, keep_2_arg2, keep_1_arg2, keep_0_arg2, keep_head_arg2]

/-- No operation of the line writes argument 3. -/
theorem after_all_arg3 (V : Valuation τ sig (Elt F)) : after opsAll V (Proc.devRef .tc main_arg3) = V (Proc.devRef .tc main_arg3) := by
  delta opsAll
  rw [after_app, after_app, after_app, after_app, after_app, after_app, after_app, after_app, after_app, after_app, after_app, after_app, after_app, after_app, after_app, after_app]
  rw [keep_15_arg3, keep_14_arg3, keep_13_arg3, keep_12_arg3, keep_11_arg3, keep_10_arg3, keep_9_arg3, keep_8_arg3, keep_7_arg3, keep_6_arg3, keep_5_arg3, keep_4_arg3, keep_3_arg3, keep_2_arg3, keep_1_arg3, keep_0_arg3, keep_head_arg3]

/-- After the whole line the last step's buffer holds the sixteen steps of the arguments, from zeros: each step's line reads
    the arguments, which no line writes, and the result of the line before. -/
theorem after_all_res (V : Valuation τ sig (Elt F)) :
    after opsAll V (Proc.devRef .tc main_v192)
      = Stages.refAll (V (Proc.devRef .tc main_arg0)) (V (Proc.devRef .tc main_arg1)) (V (Proc.devRef .tc main_arg2))
          (V (Proc.devRef .tc main_arg3)) := by
  delta opsAll
  rw [after_app, after_app, after_app, after_app, after_app, after_app, after_app, after_app, after_app, after_app, after_app, after_app, after_app, after_app, after_app, after_app]
  rw [read_15, keep_14_arg0, keep_14_arg1, keep_14_arg2, keep_14_arg3,
    read_14, keep_13_arg0, keep_13_arg1, keep_13_arg2, keep_13_arg3,
    read_13, keep_12_arg0, keep_12_arg1, keep_12_arg2, keep_12_arg3,
    read_12, keep_11_arg0, keep_11_arg1, keep_11_arg2, keep_11_arg3,
    read_11, keep_10_arg0, keep_10_arg1, keep_10_arg2, keep_10_arg3,
    read_10, keep_9_arg0, keep_9_arg1, keep_9_arg2, keep_9_arg3,
    read_9, keep_8_arg0, keep_8_arg1, keep_8_arg2, keep_8_arg3,
    read_8, keep_7_arg0, keep_7_arg1, keep_7_arg2, keep_7_arg3,
    read_7, keep_6_arg0, keep_6_arg1, keep_6_arg2, keep_6_arg3,
    read_6, keep_5_arg0, keep_5_arg1, keep_5_arg2, keep_5_arg3,
    read_5, keep_4_arg0, keep_4_arg1, keep_4_arg2, keep_4_arg3,
    read_4, keep_3_arg0, keep_3_arg1, keep_3_arg2, keep_3_arg3,
    read_3, keep_2_arg0, keep_2_arg1, keep_2_arg2, keep_2_arg3,
    read_2, keep_1_arg0, keep_1_arg1, keep_1_arg2, keep_1_arg3,
    read_1, keep_0_arg0, keep_0_arg1, keep_0_arg2, keep_0_arg3,
    read_0, keep_head_arg0, keep_head_arg1, keep_head_arg2, keep_head_arg3,
    read_head]
  rfl

/-- On every device, from any memory with zero counters: @main terminates, its result the sixteen steps of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192)
          = Cert.ReferenceIdeal.Stages.refAll (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have key := run_seq scopedRefs_eq scopedSems_eq defs main (fun _ => opsAll (F := F)) main_eq (fun _ => opsAll_sub) m ρ
    (fun _ => opsAll_fresh)
  refine (θ_run defs _ _).mono (fun r h c => ?_) key
  have h192 := (h c main_v192).trans (after_all_res (launchContents m c))
  have h0 := (h c main_arg0).trans (after_all_arg0 (launchContents m c))
  have h1 := (h c main_arg1).trans (after_all_arg1 (launchContents m c))
  have h2 := (h c main_arg2).trans (after_all_arg2 (launchContents m c))
  have h3 := (h c main_arg3).trans (after_all_arg3 (launchContents m c))
  exact ⟨h192, h0, h1, h2, h3⟩

end Cert.ReferenceIdeal.RefRun

end
-- ==== Proof.RefValue.lean ====
/-
  The reference's value: each step read at one element, and the sixteen steps together.

  At row n, column o step t holds Σ_k x[n, k] · W[t, o, k] + b[t, o] when row n's type word is t, and what the step before
  left otherwise: the dot product contracts the second axis of both operands, the sliced weight matrix is W[t], the sliced
  bias row b[t] is laid along the rows, and the select's mask is the compare laid along the columns. A type word below
  sixteen meets exactly one step, so after the sixteenth the row holds its own type's linear whatever the earlier steps
  left there; on the extended reals no finiteness is needed: nothing is cancelled or distributed.
-/
import proofs.«408881_j53489522704783_3_alg».proof.Proof.RefStages
import proofs.«408881_j53489522704783_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

noncomputable section

namespace Cert.ReferenceIdeal.Stages

open Idealize.ShloMosaic Idealize.ShloMosaic.ValueIdx Cert.ReferenceIdeal Cert.ReferenceIdeal.Facts₀ Cert.ReferenceIdeal.Facts

variable [Facts]

/-! ## The mask: the compare of row n's type word with the step's word, whatever the column -/

private theorem mask_apply (i : BitVec 32) (ty : IVec S200000 32) (n : Fin 200000) (o : Fin 256) :
    broadcastInDim S200000x256 ![0, 1] bcast_S200000x1_S200000x256_0_1
      (broadcastInDim S200000x1 ![0] bcast_S200000_S200000x1_0
        (cmpi .eq ty (broadcastInDim S200000 ![] bcast_S_S200000 (constantI S_ 32 i)))) (ix2 n o)
      = IntOp.cmpi .eq (ty (ix1 n)) i := by
  refine (broadcastInDim_apply _ bcast_S200000x1_S200000x256_0_1 _ (ix2 n o) (ix2 n (0 : Fin 1)) (fun a => match a with
    | ⟨0, _⟩ => by show n.val = if (200000 : Nat) = 1 then 0 else n.val; rw [if_neg (by decide)]
    | ⟨1, _⟩ => by show 0 = if (1 : Nat) = 1 then 0 else o.val; rw [if_pos rfl])).trans ?_
  refine (broadcastInDim_apply _ bcast_S200000_S200000x1_0 _ (ix2 n (0 : Fin 1)) (ix1 n) (fun a => match a with
    | ⟨0, _⟩ => by show n.val = if (200000 : Nat) = 1 then 0 else n.val; rw [if_neg (by decide)])).trans ?_
  rfl

/-! ## The dot product: both operands contracted along their second axis -/

private theorem dot_lhs0 (i : S200000x256.Idx) (q : dot_S200000x256_S256x256_S200000x256_1_1_0_0_n_n.contr.Idx) :
    (dot_S200000x256_S256x256_S200000x256_1_1_0_0_n_n.lhsIdx i q 0).val = (i 0).val := by
  unfold DotDims.lhsIdx
  rw [dif_neg (show ¬(0 : Fin S200000x256.rank) ∈ dot_S200000x256_S256x256_S200000x256_1_1_0_0_n_n.lhsBatch from List.not_mem_nil),
    dif_pos (show (0 : Fin S200000x256.rank) ∈ dot_S200000x256_S256x256_S200000x256_1_1_0_0_n_n.lhsNonContracting from List.mem_singleton.mpr rfl)]
  rfl

private theorem dot_lhs1 (i : S200000x256.Idx) (q : dot_S200000x256_S256x256_S200000x256_1_1_0_0_n_n.contr.Idx) :
    (dot_S200000x256_S256x256_S200000x256_1_1_0_0_n_n.lhsIdx i q 1).val = (q ⟨0, Nat.one_pos⟩).val :=
  dot_S200000x256_S256x256_S200000x256_1_1_0_0_n_n.lhsIdx_val_of_single rfl i q

private theorem dot_rhs0 (i : S200000x256.Idx) (q : dot_S200000x256_S256x256_S200000x256_1_1_0_0_n_n.contr.Idx) :
    (dot_S200000x256_S256x256_S200000x256_1_1_0_0_n_n.rhsIdx i q 0).val = (i 1).val := by
  unfold DotDims.rhsIdx
  rw [dif_neg (show ¬(0 : Fin S256x256.rank) ∈ dot_S200000x256_S256x256_S200000x256_1_1_0_0_n_n.rhsBatch from List.not_mem_nil),
    dif_pos (show (0 : Fin S256x256.rank) ∈ dot_S200000x256_S256x256_S200000x256_1_1_0_0_n_n.rhsNonContracting from List.mem_singleton.mpr rfl)]
  rfl

private theorem dot_rhs1 (i : S200000x256.Idx) (q : dot_S200000x256_S256x256_S200000x256_1_1_0_0_n_n.contr.Idx) :
    (dot_S200000x256_S256x256_S200000x256_1_1_0_0_n_n.rhsIdx i q 1).val = (q ⟨0, Nat.one_pos⟩).val :=
  dot_S200000x256_S256x256_S200000x256_1_1_0_0_n_n.rhsIdx_val_of_single rfl i q

/-- Element (n, o) of x · yᵀ is Σ_k x[n, k] · y[o, k]. -/
private theorem dot_apply (x : FVec Ideal S200000x256 .f32) (y : FVec Ideal S256x256 .f32) (n : Fin 200000) (o : Fin 256) :
    Host.dotGeneral dot_S200000x256_S256x256_S200000x256_1_1_0_0_n_n none x y (ix2 n o) = ∑ k : Fin 256, x (ix2 n k) * y (ix2 o k) := by
  simp only [Host.dotGeneral]
  rw [Ideal.dotGeneral_apply, ← Equiv.sum_comp (contrEquiv1 dot_S200000x256_S256x256_S200000x256_1_1_0_0_n_n 256 rfl rfl).symm]
  refine Finset.sum_congr rfl fun k _ => ?_
  have hk := contrEquiv1_symm_val dot_S200000x256_S256x256_S200000x256_1_1_0_0_n_n 256 rfl rfl k
  have el : dot_S200000x256_S256x256_S200000x256_1_1_0_0_n_n.lhsIdx (ix2 n o) ((contrEquiv1 dot_S200000x256_S256x256_S200000x256_1_1_0_0_n_n 256 rfl rfl).symm k) = ix2 n k :=
    funext fun a => Fin.ext (by
      match a with
      | ⟨0, _⟩ => exact dot_lhs0 _ _
      | ⟨1, _⟩ => exact (dot_lhs1 _ _).trans hk)
  have er : dot_S200000x256_S256x256_S200000x256_1_1_0_0_n_n.rhsIdx (ix2 n o) ((contrEquiv1 dot_S200000x256_S256x256_S200000x256_1_1_0_0_n_n 256 rfl rfl).symm k) = ix2 o k :=
    funext fun a => Fin.ext (by
      match a with
      | ⟨0, _⟩ => exact dot_rhs0 _ _
      | ⟨1, _⟩ => exact (dot_rhs1 _ _).trans hk)
  rw [el, er]

/-! ## The slices: type t's weight matrix and bias row -/

private theorem sliceW_apply {F : FTy → Type} [FloatOps F] (t : Fin 16) (hW : S16x256x256.Slices ![t.val, 0, 0] S1x256x256)
    (W : FVec F S16x256x256 .f32) (o k : Fin 256) :
    shapeCast S256x256 (extractStridedSlice S1x256x256 ![t.val, 0, 0] W hW) shapeCasts_S1x256x256_S256x256 (ix2 o k)
      = W (ix3 t o k) := by
  refine (shapeCast_apply _ shapeCasts_S1x256x256_S256x256 (ix2 o k) (ix3 (0 : Fin 1) o k) (by
    rewrite [Shape.rowMajor_val_three, Shape.rowMajor_val_two]
    show (0 * 256 + o.val) * 256 + k.val = o.val * 256 + k.val
    omega)).trans ?_
  exact extractStridedSlice_apply ![t.val, 0, 0] W hW (ix3 (0 : Fin 1) o k) (ix3 t o k) (fun a => match a with
    | ⟨0, _⟩ => by show t.val = t.val + 0; omega
    | ⟨1, _⟩ => by show o.val = 0 + o.val; omega
    | ⟨2, _⟩ => by show k.val = 0 + k.val; omega)

private theorem bias_apply {F : FTy → Type} [FloatOps F] (t : Fin 16) (hB : S16x256.Slices ![t.val, 0] S1x256)
    (b : FVec F S16x256 .f32) (n : Fin 200000) (o : Fin 256) :
    broadcastInDim S200000x256 ![0, 1] bcast_S1x256_S200000x256_0_1
      (broadcastInDim S1x256 ![1] bcast_S256_S1x256_1
        (shapeCast S256 (extractStridedSlice S1x256 ![t.val, 0] b hB) shapeCasts_S1x256_S256)) (ix2 n o)
      = b (ix2 t o) := by
  refine (broadcastInDim_apply _ bcast_S1x256_S200000x256_0_1 _ (ix2 n o) (ix2 (0 : Fin 1) o) (fun a => match a with
    | ⟨0, _⟩ => by show 0 = if (1 : Nat) = 1 then 0 else n.val; rw [if_pos rfl]
    | ⟨1, _⟩ => by show o.val = if (256 : Nat) = 1 then 0 else o.val; rw [if_neg (by decide)])).trans ?_
  refine (broadcastInDim_apply _ bcast_S256_S1x256_1 _ (ix2 (0 : Fin 1) o) (ix1 o) (fun a => match a with
    | ⟨0, _⟩ => by show o.val = if (256 : Nat) = 1 then 0 else o.val; rw [if_neg (by decide)])).trans ?_
  refine (shapeCast_apply _ shapeCasts_S1x256_S256 (ix1 o) (ix2 (0 : Fin 1) o) (by
    rewrite [Shape.rowMajor_val_two, Shape.rowMajor_val_one]
    show 0 * 256 + o.val = o.val
    omega)).trans ?_
  exact extractStridedSlice_apply ![t.val, 0] b hB (ix2 (0 : Fin 1) o) (ix2 t o) (fun a => match a with
    | ⟨0, _⟩ => by show t.val = t.val + 0; omega
    | ⟨1, _⟩ => by show o.val = 0 + o.val; omega)

/-- One step at one element. -/
theorem step_apply (t : Fin 16) (offW : Fin 3 → Nat) (hoffW : offW = ![t.val, 0, 0]) (hW : S16x256x256.Slices offW S1x256x256)
    (offB : Fin 2 → Nat) (hoffB : offB = ![t.val, 0]) (hB : S16x256.Slices offB S1x256)
    (x : FVec Ideal S200000x256 .f32) (ty : IVec S200000 32) (W : FVec Ideal S16x256x256 .f32) (b : FVec Ideal S16x256 .f32)
    (prev : FVec Ideal S200000x256 .f32) (n : Fin 200000) (o : Fin 256) :
    step (F := Ideal) (BitVec.ofNat 32 t.val) offW hW offB hB x ty W b prev (ix2 n o)
      = if ty (ix1 n) = BitVec.ofNat 32 t.val then (∑ k : Fin 256, x (ix2 n k) * W (ix3 t o k)) + b (ix2 t o)
        else prev (ix2 n o) := by
  subst hoffW hoffB
  unfold step
  simp only [select_apply, addf_apply, dot_apply, sliceW_apply]
  rw [mask_apply, bias_apply]
  by_cases h : ty (ix1 n) = BitVec.ofNat 32 t.val
  · rw [if_pos h, StableHlo.Predicate.cmpi_eq_iff.mpr h, select_one]
  · rw [if_neg h, eq_zero_of_ne_one (mt StableHlo.Predicate.cmpi_eq_iff.mp h), select_zero]

/-- One more step keeps the invariant "a row whose type word is below the number of steps taken holds its own type's
    linear": the step of type t writes type t's linear on the rows of type t and leaves the rows of the earlier types. -/
private theorem peel (t : Fin 16) (hW : S16x256x256.Slices ![t.val, 0, 0] S1x256x256) (hB : S16x256.Slices ![t.val, 0] S1x256)
    (x : FVec Ideal S200000x256 .f32) (ty : IVec S200000 32) (W : FVec Ideal S16x256x256 .f32) (b : FVec Ideal S16x256 .f32)
    (prev : FVec Ideal S200000x256 .f32) (n : Fin 200000) (o : Fin 256)
    (hprev : (ty (ix1 n)).toNat < t.val → prev (ix2 n o)
      = (∑ k : Fin 256, x (ix2 n k) * W (ix3 (Cert.Spec.fin16 (ty (ix1 n))) o k)) + b (ix2 (Cert.Spec.fin16 (ty (ix1 n))) o))
    (hlt : (ty (ix1 n)).toNat < t.val + 1) :
    step (F := Ideal) (BitVec.ofNat 32 t.val) ![t.val, 0, 0] hW ![t.val, 0] hB x ty W b prev (ix2 n o)
      = (∑ k : Fin 256, x (ix2 n k) * W (ix3 (Cert.Spec.fin16 (ty (ix1 n))) o k)) + b (ix2 (Cert.Spec.fin16 (ty (ix1 n))) o) := by
  have ht : t.val < 16 := t.isLt
  have hof : (BitVec.ofNat 32 t.val).toNat = t.val := by
    rw [BitVec.toNat_ofNat]; exact Nat.mod_eq_of_lt (by omega)
  rw [step_apply t _ rfl hW _ rfl hB]
  by_cases h : ty (ix1 n) = BitVec.ofNat 32 t.val
  · have ht16 : Cert.Spec.fin16 (ty (ix1 n)) = t :=
      Fin.ext (by rw [Cert.Spec.fin16_val _ (by rw [h, hof]; exact ht), h, hof])
    rw [if_pos h, ht16]
  · have hne : (ty (ix1 n)).toNat ≠ t.val := fun e => h (BitVec.eq_of_toNat_eq (by rw [hof]; exact e))
    rw [if_neg h]
    exact hprev (by omega)

/-- The sixteen steps are the routed linear layer, when every type word is one of the sixteen types. -/
theorem refAll_eq (x : FVec Ideal S200000x256 .f32) (ty : IVec S200000 32) (W : FVec Ideal S16x256x256 .f32)
    (b : FVec Ideal S16x256 .f32) (hty : ∀ n : Fin 200000, (ty (ix1 n)).toNat < 16) :
    refAll (F := Ideal) x ty W b = Cert.Spec.G x ty W b := by
  funext j
  obtain ⟨n, o, rfl⟩ : ∃ n o, j = ix2 n o := ⟨j 0, j 1, eq_ix2 j⟩
  show refAll (F := Ideal) x ty W b (ix2 n o)
    = (∑ k : Fin 256, x (ix2 n k) * W (ix3 (Cert.Spec.fin16 (ty (ix1 n))) o k)) + b (ix2 (Cert.Spec.fin16 (ty (ix1 n))) o)
  unfold refAll
  refine peel ⟨15, by decide⟩ _ _ x ty W b _ n o ?_ (hty n)
  refine peel ⟨14, by decide⟩ _ _ x ty W b _ n o ?_
  refine peel ⟨13, by decide⟩ _ _ x ty W b _ n o ?_
  refine peel ⟨12, by decide⟩ _ _ x ty W b _ n o ?_
  refine peel ⟨11, by decide⟩ _ _ x ty W b _ n o ?_
  refine peel ⟨10, by decide⟩ _ _ x ty W b _ n o ?_
  refine peel ⟨9, by decide⟩ _ _ x ty W b _ n o ?_
  refine peel ⟨8, by decide⟩ _ _ x ty W b _ n o ?_
  refine peel ⟨7, by decide⟩ _ _ x ty W b _ n o ?_
  refine peel ⟨6, by decide⟩ _ _ x ty W b _ n o ?_
  refine peel ⟨5, by decide⟩ _ _ x ty W b _ n o ?_
  refine peel ⟨4, by decide⟩ _ _ x ty W b _ n o ?_
  refine peel ⟨3, by decide⟩ _ _ x ty W b _ n o ?_
  refine peel ⟨2, by decide⟩ _ _ x ty W b _ n o ?_
  refine peel ⟨1, by decide⟩ _ _ x ty W b _ n o ?_
  refine peel ⟨0, by decide⟩ _ _ x ty W b _ n o ?_
  intro h
  exact absurd h (Nat.not_lt_zero _)

end Cert.ReferenceIdeal.Stages

end
-- ==== Proof.lean ====
/-
  The certificate of the type-routed linear layer: each row of x times the transposed weight matrix of the row's type, plus
  that type's bias.

  The kernel sends every row to a padded row of its own inside a block-aligned range of its type (running per-type counts
  give the rank, the types' block counts laid end to end the range), multiplies each 1024-row block by the one weight matrix
  of the block's type, and gathers the rows back; the reference computes all sixteen linears and selects, row by row, the one
  of the row's type. With every type word one of the sixteen types both are Σ_k x[n, k] · W[type n, o, k] + b[type n, o] on the
  extended reals, term by term: no cancellation, no distribution, so the finiteness of the float inputs is never used; the
  range of the type words is, on both sides. The three frames: the kernel's two from the generated frame, whose side
  condition on the block-type table holds for every input because the table is clipped; the reference's from its run. The
  ideal pass rewrote nothing, so the idealization's statement is trivial.
-/
import proofs.«408881_j53489522704783_3_alg».proof.Defs
import proofs.«408881_j53489522704783_3_alg».proof.Proof.Gen.Kernel
import proofs.«408881_j53489522704783_3_alg».proof.Proof.Gen.Kernel.Frame
import proofs.«408881_j53489522704783_3_alg».proof.Proof.Gen.KernelIdeal
import proofs.«408881_j53489522704783_3_alg».proof.Proof.Gen.KernelIdeal.Frame
import proofs.«408881_j53489522704783_3_alg».proof.Proof.Gen.ReferenceIdeal
import proofs.«408881_j53489522704783_3_alg».proof.Proof.Gen.Pre_finite_inputs
import proofs.«408881_j53489522704783_3_alg».proof.Proof.OkBits
import proofs.«408881_j53489522704783_3_alg».proof.Proof.OkIdeal
import proofs.«408881_j53489522704783_3_alg».proof.Proof.PreFacts
import proofs.«408881_j53489522704783_3_alg».proof.Proof.KernelValue
import proofs.«408881_j53489522704783_3_alg».proof.Proof.RefRun
import proofs.«408881_j53489522704783_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ (Cert.Kernel.OkOfPre.ok m)

theorem frame_ki : Cert.frame_KernelIdeal := fun m ρ _ => Cert.KernelIdeal.Gen.frame m ρ (Cert.KernelIdeal.OkOfPre.ok m)

theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the routed linear layer of the arguments they agree on. -/
theorem algebraic : Cert.algebraic_KernelIdeal_ReferenceIdeal := by
  intro m ρ m' ρ' hpre hagree
  have hty : ∀ (c : Dev Cert.KernelIdeal.nD) (n : Fin 200000),
      ((m ((c : Thread Cert.KernelIdeal.nD Cert.KernelIdeal.τ).loc Cert.KernelIdeal.main_arg1) : IVec ⟨1, ![200000]⟩ 32) (ix1 n)).toNat < 16 :=
    fun c n => Cert.PreFacts.ty_lt _ _ _ _ (hpre c) n
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ hty, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.Stages.refAll_eq _ _ _ _ (hty c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
